-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x7 : Shape := ⟨2, ![100000, 7]⟩
abbrev S2x1600000 : Shape := ⟨2, ![2, 1600000]⟩
abbrev S100000 : Shape := ⟨1, ![100000]⟩
abbrev S7x64 : Shape := ⟨2, ![7, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩
abbrev S1x1600000 : Shape := ⟨2, ![1, 1600000]⟩
abbrev S1600000 : Shape := ⟨1, ![1600000]⟩

class Facts : Prop where
  bcast_S_S100000x7 : S_.BroadcastsInDim S100000x7 (![] : Fin 0 → Fin S100000x7.rank)
  reducesTo_S100000x7_S_d0_1 : S100000x7.ReducesTo [0, 1] S_
  h_S_ : 0 < S_.numel
  bcast_S_S7x64 : S_.BroadcastsInDim S7x64 (![] : Fin 0 → Fin S7x64.rank)
  reducesTo_S7x64_S_d0_1 : S7x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![1, 0] · slices_S2x1600000_S1x1600000_1_0) main_arg1
  let main_v35 : IVec S1600000 32 := shapeCast S1600000 main_v34 shapeCasts_S1x1600000_S1600000
  let main_c_12 : IVec S_ 32 := constantI S_ 32 0#32
  let main_v36 : IVec S1600000 32 := broadcastInDim S1600000 ![] bcast_S_S1600000 main_c_12
  let main_v37 : IVec S1600000 1 := cmpi .sge main_v35 main_v36
  let main_c_13 : IVec S_ 1 := constantI S_ 1 1#1
  let main_v38 : IVec S_ 1 := (fun x v => Host.reduce IntOp.andi x v reducesTo_S1600000_S_d0 h_S_) main_v37 main_c_13
  let main_v39 : IVec S_ 1 := andi main_v33 main_v38
  main_v39

def fn_part1 {F : FTy → Type} [FloatOps F] (main_arg1 : IVec S2x1600000 32) (main_arg6 : FVec F S64 .f32) (main_arg7 : FVec F S64x32 .f32) (main_arg8 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_v33

def fn {F : FTy → Type} [FloatOps F] (main_arg0 : FVec F S100000x7 .f32) (main_arg1 : IVec S2x1600000 32) (main_arg2 : IVec S100000 32) (main_arg3 : FVec F S7x64 .f32) (main_arg4 : FVec F S64 .f32) (main_arg5 : FVec F S64x64 .f32) (main_arg6 : FVec F S64 .f32) (main_arg7 : FVec F S64x32 .f32) (main_arg8 : FVec F S32 .f32) : IVec S_ 1 :=
  let main_v0 : FVec F S100000x7 .f32 := Host.absf main_arg0
  let main_cst : FVec F S_ .f32 := constant S_ .f32 0x7F800000#32
  let main_v1 : FVec F S100000x7 .f32 := broadcastInDim S100000x7 ![] bcast_S_S100000x7 main_cst
  let main_v2 : IVec S100000x7 1 := cmpf .olt main_v0 main_v1
  let main_c : IVec S_ 1 := constantI S_ 1 1#1
  let main_v3 : IVec S_ 1 := (fun x v => Host.reduce IntOp.andi x v reducesTo_S100000x7_S_d0_1 h_S_) main_v2 main_c
  let main_v4 : FVec F S7x64 .f32 := Host.absf main_arg3
  let main_cst_0 : FVec F S_ .f32 := constant S_ .f32 0x7F800000#32
  let main_v5 : FVec F S7x64 .f32 := broadcastInDim S7x64 ![] bcast_S_S7x64 main_cst_0
  let main_v6 : IVec S7x64 1 := cmpf .olt main_v4 main_v5
  let main_c_1 : IVec S_ 1 := constantI S_ 1 1#1
  let main_v7 : IVec S_ 1 := (fun x v => Host.reduce IntOp.andi x v reducesTo_S7x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg6 main_arg7 main_arg8 main_v13 main_v16
-- ==== Kernel.lean ====
abbrev S100000x7 : Shape := ⟨2, ![100000, 7]⟩
abbrev S2x1600000 : Shape := ⟨2, ![2, 1600000]⟩
abbrev S100000 : Shape := ⟨1, ![100000]⟩
abbrev S7x64 : Shape := ⟨2, ![7, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x7 : Shape := ⟨2, ![5000, 7]⟩
abbrev S5000x64 : Shape := ⟨2, ![5000, 64]⟩
abbrev S1700000x64 : Shape := ⟨2, ![1700000, 64]⟩
abbrev S1x64 : Shape := ⟨2, ![1, 64]⟩
abbrev S1x32 : Shape := ⟨2, ![1, 32]⟩
abbrev S100000x32 : Shape := ⟨2, ![100000, 32]⟩
abbrev S5000x32 : Shape := ⟨2, ![5000, 32]⟩
abbrev S100000x1 : Shape := ⟨2, ![100000, 1]⟩
abbrev S100000x33 : Shape := ⟨2, ![100000, 33]⟩
abbrev S5000x1 : Shape := ⟨2, ![5000, 1]⟩
abbrev S5000x33 : Shape := ⟨2, ![5000, 33]⟩
abbrev S64x33 : Shape := ⟨2, ![64, 33]⟩
abbrev S64x1 : Shape := ⟨2, ![64, 1]⟩

abbrev nBuf : Space → Nat
  | .hbm => 94
  | .vmem => 32
  | .smem => 0
  | _ => 0

abbrev bufTy : (tb : Table) → Fin (tcTables nBuf tb) → BufTy
  | .hbm, ⟨0, _⟩ => ⟨S100000x7, .f32⟩
  | .hbm, ⟨1, _⟩ => ⟨S2x1600000, .i32⟩
  | .hbm, ⟨2, _⟩ => ⟨S100000, .i32⟩
  | .hbm, ⟨3, _⟩ => ⟨S7x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x1, .f32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S1x32, .f32⟩
  | .hbm, ⟨88, _⟩ => ⟨S100000x32, .f32⟩
  | .hbm, ⟨89, _⟩ => ⟨S_, .f32⟩
  | .hbm, ⟨90, _⟩ => ⟨S100000x1, .f32⟩
  | .hbm, ⟨91, _⟩ => ⟨S100000x33, .f32⟩
  | .hbm, ⟨92, _⟩ => ⟨S100000x1, .i32⟩
  | .hbm, ⟨93, _⟩ => ⟨S64x32, .f32⟩
  | .local _ .vmem, ⟨0, _⟩ => ⟨S5000x7, .f32⟩
  | .local _ .vmem, ⟨1, _⟩ => ⟨S5000x7, .f32⟩
  | .local _ .vmem, ⟨2, _⟩ => ⟨S7x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x32, .f32⟩
  | .local _ .vmem, ⟨23, _⟩ => ⟨S1x32, .f32⟩
  | .local _ .vmem, ⟨24, _⟩ => ⟨S5000x32, .f32⟩
  | .local _ .vmem, ⟨25, _⟩ => ⟨S5000x32, .f32⟩
  | .local _ .vmem, ⟨26, _⟩ => ⟨S5000x1, .i32⟩
  | .local _ .vmem, ⟨27, _⟩ => ⟨S5000x1, .i32⟩
  | .local _ .vmem, ⟨28, _⟩ => ⟨S5000x33, .f32⟩
  | .local _ .vmem, ⟨29, _⟩ => ⟨S5000x33, .f32⟩
  | .local _ .vmem, ⟨30, _⟩ => ⟨S64x32, .f32⟩
  | .local _ .vmem, ⟨31, _⟩ => ⟨S64x33, .f32⟩
  | _, _ => ⟨S100000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_12 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg1_1 : Ref sig .tc := ⟨.vmem, 29, rfl⟩
abbrev cc5_stg2_0 : Ref sig .tc := ⟨.vmem, 30, rfl⟩
abbrev cc5_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25
abbrev cc5_sem0_0 : DmaSem sig := 26
abbrev cc5_sem0_1 : DmaSem sig := 27
abbrev cc5_sem1_0 : DmaSem sig := 28
abbrev cc5_sem1_1 : DmaSem sig := 29
abbrev cc5_sem2_0 : DmaSem sig := 30

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def k5_cond2 (i : grid5.Coords) : BitVec 1 :=
  let arg0 : BitVec 32 := BitVec.ofNat 32 (i 0).val
  let c19_i32 : BitVec 32 := 19#32
  let v21 : BitVec 1 := Scalar.cmpi .eq arg0 c19_i32
  let v22 : BitVec 32 := Scalar.extui v21
  let c0_i32_8 : BitVec 32 := 0#32
  let v23 : BitVec 1 := Scalar.cmpi .ne v22 c0_i32_8
  v23

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x1 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x33 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x7_S5000x7_0_0 : ∀ a, (![0, 0] : Fin 2 → Nat) a + S5000x7.size a ≤ S5000x7.size a
  h_S5000x7 : 0 < S5000x7.numel
  bitsLt_bf16_f32 : FTy.bits .bf16 < FTy.bits .f32
  inb_S7x64_S7x64_0_0 : ∀ a, (![0, 0] : Fin 2 → Nat) a + S7x64.size a ≤ S7x64.size a
  h_S7x64 : 0 < S7x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S100000x1 : S_.BroadcastsInDim S100000x1 (![] : Fin 0 → Fin S100000x1.rank)
  concatenates_S100000x32_S100000x1_S100000x33_d1 : Shape.Concatenates [S100000x32, S100000x1] S100000x33 1
  shapeCasts_S100000_S100000x1 : S100000.ShapeCasts S100000x1
  inb_S64x33_S64x33_0_0 : ∀ a, (![0, 0] : Fin 2 → Nat) a + S64x33.size a ≤ S64x33.size a
  h_S64x33 : 0 < S64x33.numel
  shapeCasts_S64x33_S64x33 : S64x33.ShapeCasts S64x33
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S1x64_d1_w32 : S1x64.Iotas .tc 32 [1]
  broadcasts_S5000x1_S5000x64 : S5000x1.Broadcasts S5000x64
  natLt_1_32 : 1 < 32
  inb_S5000x33_S5000x33_0_0 : ∀ a, (![0, 0] : Fin 2 → Nat) a + S5000x33.size a ≤ S5000x33.size a
  h_S5000x33 : 0 < S5000x33.numel
  shapeCasts_S5000x33_S5000x33 : S5000x33.ShapeCasts S5000x33
  slices_S64x33_o0_0_S64x32 : S64x33.Slices ![0, 0] S64x32
  slices_S64x33_o0_32_S64x1 : S64x33.Slices ![0, 32] S64x1
  broadcasts_S64x1_S64x32 : S64x1.Broadcasts S64x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x7_S7x64_S5000x64_1_0_0_1_n_n_wf : DotDims.WF S5000x7 S7x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  dot_S5000x64_S5000x33_S64x33_0_0_1_1_n_n_wf : DotDims.WF S5000x64 S5000x33 S64x33 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x7.size a ≤ S100000x7.size a
  hwx0_0 : ∀ i : grid0.Coords, EltTy.bits .f32 = 32 ∨ (Rect.block (s := S100000x7) S5000x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x64.size a ≤ S7x64.size a
  hwx0_1 : ∀ i : grid0.Coords, EltTy.bits .f32 = 32 ∨ (Rect.block (s := S7x64) S7x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x32.size a ≤ S100000x32.size a
  hwx4_3 : ∀ i : grid4.Coords, EltTy.bits .f32 = 32 ∨ (Rect.block (s := S100000x32) S5000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x1.size a ≤ S100000x1.size a
  hwx5_0 : ∀ i : grid5.Coords, EltTy.bits .i32 = 32 ∨ (Rect.block (s := S100000x1) S5000x1.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x33.size a ≤ S100000x33.size a
  hwx5_1 : ∀ i : grid5.Coords, EltTy.bits .f32 = 32 ∨ (Rect.block (s := S100000x33) S5000x33.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x32.size a ≤ S64x32.size a
  hwx5_2 : ∀ i : grid5.Coords, EltTy.bits .f32 = 32 ∨ (Rect.block (s := S64x32) S64x32.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x7_S7x64_S5000x64_1_0_0_1_n_n : DotDims S5000x7 S7x64 S5000x64 where
  lhsContracting := [1]
  rhsContracting := [0]
  lhsNonContracting := [0]
  rhsNonContracting := [1]
  lhsBatch := []
  rhsBatch := []
  wf := dot_S5000x7_S7x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x64_S5000x33_S64x33_0_0_1_1_n_n : DotDims S5000x64 S5000x33 S64x33 where
  lhsContracting := [0]
  rhsContracting := [0]
  lhsNonContracting := [1]
  rhsNonContracting := [1]
  lhsBatch := []
  rhsBatch := []
  wf := dot_S5000x64_S5000x33_S64x33_0_0_1_1_n_n_wf

abbrev win0_0 : Pipeline.Window sig grid0 :=
  Pipeline.Window.ofSpec (Memref.whole main_arg0) S5000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S7x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S5000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v66) S5000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v65) S5000x33.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v67) S64x32.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

class Facts : Prop extends Facts₀ where

variable [Facts]
-- ==== ReferenceIdeal.lean ====
abbrev S100000x7 : Shape := ⟨2, ![100000, 7]⟩
abbrev S2x1600000 : Shape := ⟨2, ![2, 1600000]⟩
abbrev S100000 : Shape := ⟨1, ![100000]⟩
abbrev S7x64 : Shape := ⟨2, ![7, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1x32 : Shape := ⟨2, ![1, 32]⟩
abbrev S100000x1 : Shape := ⟨2, ![100000, 1]⟩
abbrev S64x1 : Shape := ⟨2, ![64, 1]⟩

abbrev nBuf : Space → Nat
  | .hbm => 162
  | .vmem => 0
  | .smem => 0
  | _ => 0

abbrev hbmTy0_0 (i : Nat) : BufTy := match i % 128 with
  | 0 => ⟨S100000x7, .f32⟩
  | 1 => ⟨S2x1600000, .i32⟩
  | 2 => ⟨S100000, .i32⟩
  | 3 => ⟨S7x64, .f32⟩
  | 4 => ⟨S64, .f32⟩
  | 5 => ⟨S64x64, .f32⟩
  | 6 => ⟨S64, .f32⟩
  | 7 => ⟨S64x32, .f32⟩
  | 8 => ⟨S32, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S100000x64, .f32⟩
  | 17 => ⟨S_, .f32⟩
  | 18 => ⟨S100000, .f32⟩
  | 19 => ⟨S_, .i32⟩
  | 20 => ⟨S1700000, .i32⟩
  | 21 => ⟨S1700000, .i1⟩
  | 22 => ⟨S_, .i32⟩
  | 23 => ⟨S1700000, .i32⟩
  | 24 => ⟨S1700000, .i32⟩
  | 25 => ⟨S1700000, .i32⟩
  | 26 => ⟨S1700000x1, .i32⟩
  | 27 => ⟨S_, .f32⟩
  | 28 => ⟨S1700000, .f32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x64, .f32⟩
  | 66 => ⟨S1700000x1, .f32⟩
  | 67 => ⟨S1700000x64, .f32⟩
  | 68 => ⟨S1700000x64, .f32⟩
  | 69 => ⟨S_, .f32⟩
  | 70 => ⟨S100000x64, .f32⟩
  | 71 => ⟨S1700000x1, .i32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x64, .f32⟩
  | 80 => ⟨S_, .f32⟩
  | 81 => ⟨S100000, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S_, .f32⟩
  | 91 => ⟨S1700000, .f32⟩
  | 92 => ⟨S100000, .f32⟩
  | 93 => ⟨S_, .f32⟩
  | 94 => ⟨S100000, .f32⟩
  | 95 => ⟨S100000, .i1⟩
  | 96 => ⟨S100000, .f32⟩
  | 97 => ⟨S_, .f32⟩
  | 98 => ⟨S_, .f32⟩
  | 99 => ⟨S100000, .f32⟩
  | 100 => ⟨S100000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000, .f32⟩
  | 119 => ⟨S1700000, .f32⟩
  | 120 => ⟨S_, .i32⟩
  | 121 => ⟨S1700000, .i32⟩
  | 122 => ⟨S1700000, .i1⟩
  | 123 => ⟨S_, .i32⟩
  | 124 => ⟨S1700000, .i32⟩
  | 125 => ⟨S1700000, .i32⟩
  | 126 => ⟨S1700000, .i32⟩
  | 127 => ⟨S1700000x1, .i32⟩
  | _ => ⟨S100000x7, .f32⟩

abbrev hbmTy0_1 (i : Nat) : BufTy := match i % 128 with
  | 0 => ⟨S1700000x64, .f32⟩
  | 1 => ⟨S1700000x1, .f32⟩
  | 2 => ⟨S1700000x64, .f32⟩
  | 3 => ⟨S1700000x64, .f32⟩
  | 4 => ⟨S_, .f32⟩
  | 5 => ⟨S100000x64, .f32⟩
  | 6 => ⟨S1700000x1, .i32⟩
  | 7 => ⟨S100000x64, .f32⟩
  | 8 => ⟨S1x64, .f32⟩
  | 9 => ⟨S100000x64, .f32⟩
  | 10 => ⟨S100000x64, .f32⟩
  | 11 => ⟨S_, .f32⟩
  | 12 => ⟨S100000x64, .f32⟩
  | 13 => ⟨S100000x64, .f32⟩
  | 14 => ⟨S100000x32, .f32⟩
  | 15 => ⟨S1x32, .f32⟩
  | 16 => ⟨S100000x32, .f32⟩
  | 17 => ⟨S100000x32, .f32⟩
  | 18 => ⟨S_, .f32⟩
  | 19 => ⟨S64x32, .f32⟩
  | 20 => ⟨S100000x1, .i32⟩
  | 21 => ⟨S64x32, .f32⟩
  | 22 => ⟨S_, .f32⟩
  | 23 => ⟨S100000, .f32⟩
  | 24 => ⟨S_, .f32⟩
  | 25 => ⟨S64, .f32⟩
  | 26 => ⟨S100000x1, .i32⟩
  | 27 => ⟨S64, .f32⟩
  | 28 => ⟨S_, .f32⟩
  | 29 => ⟨S64, .f32⟩
  | 30 => ⟨S64, .f32⟩
  | 31 => ⟨S64x1, .f32⟩
  | 32 => ⟨S64x32, .f32⟩
  | 33 => ⟨S64x32, .f32⟩
  | _ => ⟨S100000x7, .f32⟩

abbrev hbmTy (i : Nat) : BufTy := match i / 128 with
  | 0 => hbmTy0_0 i
  | 1 => hbmTy0_1 i
  | _ => ⟨S100000x7, .f32⟩

abbrev bufTy : (tb : Table) → Fin (tcTables nBuf tb) → BufTy
  | .hbm, ⟨i, _⟩ => hbmTy i
  | _, _ => ⟨S100000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call1_cst : Ref sig .tc := ⟨.hbm, 76, rfl⟩
abbrev main_call1_v0 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_c_12 : Ref sig .tc := ⟨.hbm, 82, rfl⟩
abbrev main_v55 : Ref sig .tc := ⟨.hbm, 83, rfl⟩
abbrev main_v56 : Ref sig .tc := ⟨.hbm, 84, rfl⟩
abbrev main_c_13 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_14 : Ref sig .tc := ⟨.hbm, 90, rfl⟩
abbrev main_v61 : Ref sig .tc := ⟨.hbm, 91, rfl⟩
abbrev main_v62 : Ref sig .tc := ⟨.hbm, 92, rfl⟩
abbrev main_cst_15 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_16 : Ref sig .tc := ⟨.hbm, 97, rfl⟩
abbrev main_call2_v0 : Ref sig .tc := ⟨.hbm, 98, rfl⟩
abbrev main_call2_v1 : Ref sig .tc := ⟨.hbm, 99, rfl⟩
abbrev main_v66 : Ref sig .tc := ⟨.hbm, 100, rfl⟩
abbrev main_c_17 : Ref sig .tc := ⟨.hbm, 101, rfl⟩
abbrev main_v67 : Ref sig .tc := ⟨.hbm, 102, rfl⟩
abbrev main_v68 : Ref sig .tc := ⟨.hbm, 103, rfl⟩
abbrev main_c_18 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_c_19 : Ref sig .tc := ⟨.hbm, 110, rfl⟩
abbrev main_v74 : Ref sig .tc := ⟨.hbm, 111, rfl⟩
abbrev main_v75 : Ref sig .tc := ⟨.hbm, 112, rfl⟩
abbrev main_c_20 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_c_21 : Ref sig .tc := ⟨.hbm, 120, rfl⟩
abbrev main_v82 : Ref sig .tc := ⟨.hbm, 121, rfl⟩
abbrev main_v83 : Ref sig .tc := ⟨.hbm, 122, rfl⟩
abbrev main_c_22 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_23 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_call3_cst : Ref sig .tc := ⟨.hbm, 139, rfl⟩
abbrev main_call3_v0 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_24 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_25 : Ref sig .tc := ⟨.hbm, 150, rfl⟩
abbrev main_v106 : Ref sig .tc := ⟨.hbm, 151, rfl⟩
abbrev main_cst_26 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_27 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S64x32 : S_.BroadcastsInDim S64x32 (![] : Fin 0 → Fin S64x32.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  dot_S100000x7_S7x64_S100000x64_1_0_0_1_n_n_wf : DotDims.WF S100000x7 S7x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  scatter_S64x32_S100000x1_S100000x32_1_0_0_1_wf : ScatterDims.WF S64x32 S100000x1 S100000x32 [1] [0] [0] 1
  scatter_S64_S100000x1_S100000_n_0_0_1_wf : ScatterDims.WF S64 S100000x1 S100000 [] [0] [0] 1

variable [Facts₀]

def dot_S100000x7_S7x64_S100000x64_1_0_0_1_n_n : DotDims S100000x7 S7x64 S100000x64 where
  lhsContracting := [1]
  rhsContracting := [0]
  lhsNonContracting := [0]
  rhsNonContracting := [1]
  lhsBatch := []
  rhsBatch := []
  wf := dot_S100000x7_S7x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.Bits.Proj1.lean ====
/-
  A projection of the node rows, h = x · W, as the pipeline computes it: the 100000 rows in twenty blocks of 5000,
  each block's product with the whole weight matrix written to the matching block of the result.
  Stated at any contents `V` of the core's buffers when the region is entered: what each window's staging
  buffer holds at a point, what the body leaves in the result's buffer, and the body's obligation to the
  pipeline at every point.
-/
import proofs.«403423_j51041391345664_1_alg».proof.Proof.Gen.Kernel.Launch
import proofs.«403423_j51041391345664_1_alg».proof.Proof.Gen.Kernel.Skeleton
import proofs.«403423_j51041391345664_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The node rows' staging buffer holds the point's block of rows, fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weights' staging buffer holds the whole matrix at every point: fetched once, its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body reads and writes through. -/
abbrev rx0 : Rect S5000x7 := Rect.unit (s := S5000x7) ![0, 0] S5000x7.size inb_S5000x7_S5000x7_0_0
abbrev rw0 : Rect S7x64 := Rect.unit (s := S7x64) ![0, 0] S7x64.size inb_S7x64_S7x64_0_0
abbrev ro0 : Rect S5000x64 := Rect.unit (s := S5000x64) ![0, 0] S5000x64.size inb_S5000x64_S5000x64_0_0

/-- The result's staging buffer after the body: one store, the block of rows times the weights. -/
def out0_2 (x0 : Vec F S5000x7 .f32) (x1 : Vec F S7x64 .f32) : Vec F S5000x64 .f32 :=
  View.canon [⟨ro0, k0_pay1 (View.ld x0 rx0) (View.ld x1 rw0)⟩]

/-- The one store covers the buffer. -/
theorem cover0_2 (p0 : Vec F S5000x64 .f32) (y : S5000x64.Idx) :
    ∃ pc ∈ ([⟨ro0, p0⟩] : List (View.Piece (Elt F) S5000x64 .f32)), y ∈ pc.1.set :=
  View.cover_of_tiled [⟨ro0, p0⟩] S5000x64.size (by rfl) y

set_option maxHeartbeats 1000000 in
/-- The body on whole staging memrefs: the inputs' at `x0`, `x1` and the result's at anything; it runs to the
    continuation holding the inputs' as they were and the result's at `out0_2 x0 x1`. -/
theorem sound_kernel0 (c : Dev nD) (E : Set ℕ) (i : grid0.Coords) (arg1 : Memref sig .tc .vmem S5000x7 .f32) (harg1 : arg1.IsWhole)
    (arg2 : Memref sig .tc .vmem S7x64 .f32) (harg2 : arg2.IsWhole) (arg3 : Memref sig .tc .vmem S5000x64 .f32) (harg3 : arg3.IsWhole)
    (x0 : Vec F S5000x7 .f32) (x1 : Vec F S7x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline on core `c`: the arrays as the region finds them; after the body at point `t`
    each input's buffer at its block and the result's at the block product; the class invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.Bits.Act1.lean ====
/-
  The activation after an aggregation, max(agg + b, 0), as the pipeline computes it: the 100000 aggregated node rows in twenty
  blocks of 5000, each block with the 1 × 64 bias row added to every row and clamped below at zero, written to the
  matching block of the result.
  Stated at any contents `V` of the core's buffers when the region is entered: what each window's staging
  buffer holds at a point, what the body leaves in the result's buffer, and the body's obligation to the
  pipeline at every point.
-/
import proofs.«403423_j51041391345664_1_alg».proof.Proof.Gen.Kernel.Launch
import proofs.«403423_j51041391345664_1_alg».proof.Proof.Gen.Kernel.Skeleton
import proofs.«403423_j51041391345664_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregated rows' staging buffer holds the point's block of rows, fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The bias row's staging buffer holds the whole row at every point: fetched once, its index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body reads and writes through. -/
abbrev rx1 : Rect S5000x64 := Rect.unit (s := S5000x64) ![0, 0] S5000x64.size inb_S5000x64_S5000x64_0_0
abbrev rb1 : Rect S1x64 := Rect.unit (s := S1x64) ![0, 0] S1x64.size inb_S1x64_S1x64_0_0
abbrev ro1 : Rect S5000x64 := Rect.unit (s := S5000x64) ![0, 0] S5000x64.size inb_S5000x64_S5000x64_0_0

/-- The result's staging buffer after the body: one store, the block of rows plus the bias row, clamped at zero. -/
def out1_2 (x0 : Vec F S5000x64 .f32) (x1 : Vec F S1x64 .f32) : Vec F S5000x64 .f32 :=
  View.canon [⟨ro1, k1_pay1 (View.ld x0 rx1) (View.ld x1 rb1)⟩]

/-- The one store covers the buffer. -/
theorem cover1_2 (p0 : Vec F S5000x64 .f32) (y : S5000x64.Idx) :
    ∃ pc ∈ ([⟨ro1, p0⟩] : List (View.Piece (Elt F) S5000x64 .f32)), y ∈ pc.1.set :=
  View.cover_of_tiled [⟨ro1, p0⟩] S5000x64.size (by rfl) y

set_option maxHeartbeats 1000000 in
/-- The body on whole staging memrefs: the inputs' at `x0`, `x1` and the result's at anything; it runs to the
    continuation holding the inputs' as they were and the result's at `out1_2 x0 x1`. -/
theorem sound_kernel1 (c : Dev nD) (E : Set ℕ) (i : grid1.Coords) (arg1 : Memref sig .tc .vmem S5000x64 .f32) (harg1 : arg1.IsWhole)
    (arg2 : Memref sig .tc .vmem S1x64 .f32) (harg2 : arg2.IsWhole) (arg3 : Memref sig .tc .vmem S5000x64 .f32) (harg3 : arg3.IsWhole)
    (x0 : Vec F S5000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this pipeline on core `c`: the arrays as the region finds them; after the body at point `t`
    each input's buffer at its block and the result's at the clamped sum; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.Bits.Proj2.lean ====
/-
  A projection of the node rows, h = x · W, as the pipeline computes it: the 100000 rows in twenty blocks of 5000,
  each block's product with the whole weight matrix written to the matching block of the result.
  Stated at any contents `V` of the core's buffers when the region is entered: what each window's staging
  buffer holds at a point, what the body leaves in the result's buffer, and the body's obligation to the
  pipeline at every point.
-/
import proofs.«403423_j51041391345664_1_alg».proof.Proof.Gen.Kernel.Launch
import proofs.«403423_j51041391345664_1_alg».proof.Proof.Gen.Kernel.Skeleton
import proofs.«403423_j51041391345664_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The node rows' staging buffer holds the point's block of rows, fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weights' staging buffer holds the whole matrix at every point: fetched once, its index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body reads and writes through. -/
abbrev rx2 : Rect S5000x64 := Rect.unit (s := S5000x64) ![0, 0] S5000x64.size inb_S5000x64_S5000x64_0_0
abbrev rw2 : Rect S64x64 := Rect.unit (s := S64x64) ![0, 0] S64x64.size inb_S64x64_S64x64_0_0
abbrev ro2 : Rect S5000x64 := Rect.unit (s := S5000x64) ![0, 0] S5000x64.size inb_S5000x64_S5000x64_0_0

/-- The result's staging buffer after the body: one store, the block of rows times the weights. -/
def out2_2 (x0 : Vec F S5000x64 .f32) (x1 : Vec F S64x64 .f32) : Vec F S5000x64 .f32 :=
  View.canon [⟨ro2, k2_pay1 (View.ld x0 rx2) (View.ld x1 rw2)⟩]

/-- The one store covers the buffer. -/
theorem cover2_2 (p0 : Vec F S5000x64 .f32) (y : S5000x64.Idx) :
    ∃ pc ∈ ([⟨ro2, p0⟩] : List (View.Piece (Elt F) S5000x64 .f32)), y ∈ pc.1.set :=
  View.cover_of_tiled [⟨ro2, p0⟩] S5000x64.size (by rfl) y

set_option maxHeartbeats 1000000 in
/-- The body on whole staging memrefs: the inputs' at `x0`, `x1` and the result's at anything; it runs to the
    continuation holding the inputs' as they were and the result's at `out2_2 x0 x1`. -/
theorem sound_kernel2 (c : Dev nD) (E : Set ℕ) (i : grid2.Coords) (arg1 : Memref sig .tc .vmem S5000x64 .f32) (harg1 : arg1.IsWhole)
    (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of this pipeline on core `c`: the arrays as the region finds them; after the body at point `t`
    each input's buffer at its block and the result's at the block product; the class invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.Bits.Act2.lean ====
/-
  The activation after an aggregation, max(agg + b, 0), as the pipeline computes it: the 100000 aggregated node rows in twenty
  blocks of 5000, each block with the 1 × 64 bias row added to every row and clamped below at zero, written to the
  matching block of the result.
  Stated at any contents `V` of the core's buffers when the region is entered: what each window's staging
  buffer holds at a point, what the body leaves in the result's buffer, and the body's obligation to the
  pipeline at every point.
-/
import proofs.«403423_j51041391345664_1_alg».proof.Proof.Gen.Kernel.Launch
import proofs.«403423_j51041391345664_1_alg».proof.Proof.Gen.Kernel.Skeleton
import proofs.«403423_j51041391345664_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The aggregated rows' staging buffer holds the point's block of rows, fetched at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The bias row's staging buffer holds the whole row at every point: fetched once, its index never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body reads and writes through. -/
abbrev rx3 : Rect S5000x64 := Rect.unit (s := S5000x64) ![0, 0] S5000x64.size inb_S5000x64_S5000x64_0_0
abbrev rb3 : Rect S1x64 := Rect.unit (s := S1x64) ![0, 0] S1x64.size inb_S1x64_S1x64_0_0
abbrev ro3 : Rect S5000x64 := Rect.unit (s := S5000x64) ![0, 0] S5000x64.size inb_S5000x64_S5000x64_0_0

/-- The result's staging buffer after the body: one store, the block of rows plus the bias row, clamped at zero. -/
def out3_2 (x0 : Vec F S5000x64 .f32) (x1 : Vec F S1x64 .f32) : Vec F S5000x64 .f32 :=
  View.canon [⟨ro3, k3_pay1 (View.ld x0 rx3) (View.ld x1 rb3)⟩]

/-- The one store covers the buffer. -/
theorem cover3_2 (p0 : Vec F S5000x64 .f32) (y : S5000x64.Idx) :
    ∃ pc ∈ ([⟨ro3, p0⟩] : List (View.Piece (Elt F) S5000x64 .f32)), y ∈ pc.1.set :=
  View.cover_of_tiled [⟨ro3, p0⟩] S5000x64.size (by rfl) y

set_option maxHeartbeats 1000000 in
/-- The body on whole staging memrefs: the inputs' at `x0`, `x1` and the result's at anything; it runs to the
    continuation holding the inputs' as they were and the result's at `out3_2 x0 x1`. -/
theorem sound_kernel3 (c : Dev nD) (E : Set ℕ) (i : grid3.Coords) (arg1 : Memref sig .tc .vmem S5000x64 .f32) (harg1 : arg1.IsWhole)
    (arg2 : Memref sig .tc .vmem S1x64 .f32) (harg2 : arg2.IsWhole) (arg3 : Memref sig .tc .vmem S5000x64 .f32) (harg3 : arg3.IsWhole)
    (x0 : Vec F S5000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of this pipeline on core `c`: the arrays as the region finds them; after the body at point `t`
    each input's buffer at its block and the result's at the clamped sum; the class invariant; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Frame

end
-- ==== Proof.Bits.Proj3.lean ====
/-
  The third projection, h · W + b, as the pipeline computes it: the 100000 node rows in twenty blocks of 5000,
  each block's product with the whole 64 × 32 weight matrix, plus the 1 × 32 bias row on every row, written to the
  matching block of the result.
  Stated at any contents `V` of the core's buffers when the region is entered: what each window's staging
  buffer holds at a point, what the body leaves in the result's buffer, and the body's obligation to the
  pipeline at every point.
-/
import proofs.«403423_j51041391345664_1_alg».proof.Proof.Gen.Kernel.Launch
import proofs.«403423_j51041391345664_1_alg».proof.Proof.Gen.Kernel.Skeleton
import proofs.«403423_j51041391345664_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The node rows' staging buffer holds the point's block of rows, fetched at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The weights' staging buffer holds the whole matrix at every point: fetched once, its index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- The bias row's staging buffer holds the whole row at every point: fetched once, its index never moves. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body reads and writes through. -/
abbrev rx4 : Rect S5000x64 := Rect.unit (s := S5000x64) ![0, 0] S5000x64.size inb_S5000x64_S5000x64_0_0
abbrev rw4 : Rect S64x32 := Rect.unit (s := S64x32) ![0, 0] S64x32.size inb_S64x32_S64x32_0_0
abbrev rb4 : Rect S1x32 := Rect.unit (s := S1x32) ![0, 0] S1x32.size inb_S1x32_S1x32_0_0
abbrev ro4 : Rect S5000x32 := Rect.unit (s := S5000x32) ![0, 0] S5000x32.size inb_S5000x32_S5000x32_0_0

/-- The result's staging buffer after the body: one store, the block of rows times the weights plus the bias row. -/
def out4_3 (x0 : Vec F S5000x64 .f32) (x1 : Vec F S64x32 .f32) (x2 : Vec F S1x32 .f32) : Vec F S5000x32 .f32 :=
  View.canon [⟨ro4, k4_pay1 (View.ld x0 rx4) (View.ld x1 rw4) (View.ld x2 rb4)⟩]

/-- The one store covers the buffer. -/
theorem cover4_3 (p0 : Vec F S5000x32 .f32) (y : S5000x32.Idx) :
    ∃ pc ∈ ([⟨ro4, p0⟩] : List (View.Piece (Elt F) S5000x32 .f32)), y ∈ pc.1.set :=
  View.cover_of_tiled [⟨ro4, p0⟩] S5000x32.size (by rfl) y

set_option maxHeartbeats 1000000 in
/-- The body on whole staging memrefs: the inputs' at `x0`, `x1`, `x2` and the result's at anything; it runs to
    the continuation holding the inputs' as they were and the result's at `out4_3 x0 x1 x2`. -/
theorem sound_kernel4 (c : Dev nD) (E : Set ℕ) (i : grid4.Coords) (arg1 : Memref sig .tc .vmem S5000x64 .f32) (harg1 : arg1.IsWhole)
    (arg2 : Memref sig .tc .vmem S64x32 .f32) (harg2 : arg2.IsWhole) (arg3 : Memref sig .tc .vmem S1x32 .f32) (harg3 : arg3.IsWhole)
    (arg4 : Memref sig .tc .vmem S5000x32 .f32) (harg4 : arg4.IsWhole)
    (x0 : Vec F S5000x64 .f32) (x1 : Vec F S64x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__matmul_bias_kernel i arg1 harg1 arg2 harg2 arg3 harg3 arg4 harg4) K := by
  simp only [cc4__matmul_bias_kernel_eq_skeleton]; unfold cc4__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of this pipeline on core `c`: the arrays as the region finds them; after the body at point `t`
    each input's buffer at its block and the result's at the block product plus the bias; the class invariant;
    nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and
    the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Frame

end
-- ==== Proof.Bits.Pool.lean ====
/-
  The pooling kernel as the pipeline computes it: the 100000 augmented node rows (32 features and a column of
  ones) in twenty blocks of 5000, each block's rows added, per graph, into a 64 × 33 table of running sums kept in
  the kernel's scratch buffer; the table is zeroed at the first block and, after the last, its sums divided by the
  counts (at least one) are written to the result. Stated at any contents `V` of the core's buffers when the region
  is entered: what each window's staging buffer holds at a point, what the scratch holds between points, what the
  body leaves in the result's buffer, and the body's obligation to the pipeline at every point.
-/
import proofs.«403423_j51041391345664_1_alg».proof.Proof.Gen.Kernel.Launch
import proofs.«403423_j51041391345664_1_alg».proof.Proof.Gen.Kernel.Skeleton
import proofs.«403423_j51041391345664_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The graph ids' staging buffer holds the point's block of ids, fetched at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The augmented rows' staging buffer holds the point's block of rows, fetched at every point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles' offsets are zero. -/
theorem hz5 : (![0, 0] : Fin 2 → ℕ) = fun _ => 0 := funext fun a => by fin_cases a <;> rfl

/-- The condition of the body's first branch (the reset), from the grid coordinates. -/
abbrev cond5_1 (i : grid5.Coords) : Prop :=
  (Scalar.cmpi .ne (Scalar.extui (Scalar.cmpi .eq (BitVec.ofNat 32 (i 0).val) 0#32)) 0#32) = 1#1
/-- It holds at the first point only. -/
theorem hcond5_1 : ∀ t : Fin cfg5.N, cond5_1 (grid5.coords t) ↔ t.val = 0 :=
  (by decide +kernel : ∀ t : Fin grid5.N, cond5_1 (grid5.coords t) ↔ t.val = 0)
/-- The second branch's (the division) holds at the last point only. -/
theorem hcond5_2 : ∀ t : Fin cfg5.N, k5_cond2 (grid5.coords t) = 1#1 ↔ t.val = 19 :=
  (by decide +kernel : ∀ t : Fin grid5.N, k5_cond2 (grid5.coords t) = 1#1 ↔ t.val = 19)

/-- The whole-buffer rectangle of the table of sums, and of the result. -/
abbrev ra5 : Rect S64x33 := Rect.unit (s := S64x33) ![0, 0] S64x33.size inb_S64x33_S64x33_0_0
abbrev ro5 : Rect S64x32 := Rect.unit (s := S64x32) ![0, 0] S64x32.size inb_S64x32_S64x32_0_0

/-- One store through the whole-buffer rectangle covers the buffer. -/
theorem cover5_a (p0 : Vec F S64x33 .f32) (L : List (View.Piece (Elt F) S64x33 .f32)) (y : S64x33.Idx) :
    ∃ pc ∈ ((⟨ra5, p0⟩ :: L : List (View.Piece (Elt F) S64x33 .f32))), y ∈ pc.1.set :=
  ⟨_, List.mem_cons_self, View.mem_set_unit_zero hz5 inb_S64x33_S64x33_0_0 y⟩
theorem cover5_o (p0 : Vec F S64x32 .f32) (y : S64x32.Idx) :
    ∃ pc ∈ ([⟨ro5, p0⟩] : List (View.Piece (Elt F) S64x32 .f32)), y ∈ pc.1.set :=
  ⟨_, List.mem_cons_self, View.mem_set_unit_zero hz5 inb_S64x32_S64x32_0_0 y⟩

set_option maxHeartbeats 1000000 in
/-- The body at a middle point (neither branch taken), on whole memrefs: the blocks' at `x0`, `x1`, the result's at
    `d`, the table's at `a`; it runs to the continuation holding all as they were but the table, at the table plus
    the block's contribution. -/
theorem sound_kernel5_mid (c : Dev nD) (E : Set ℕ) (i : grid5.Coords) (hc1 : ¬cond5_1 i) (hc2 : ¬k5_cond2 i = 1#1)
    (arg1 : Memref sig .tc .vmem S5000x1 .i32) (harg1 : arg1.IsWhole) (arg2 : Memref sig .tc .vmem S5000x33 .f32) (harg2 : arg2.IsWhole)
    (arg3 : Memref sig .tc .vmem S64x32 .f32) (harg3 : arg3.IsWhole) (arg4 : Memref sig .tc .vmem S64x33 .f32) (harg4 : arg4.IsWhole)
    (x0 : Vec F S5000x1 .i32) (x1 : Vec F S5000x33 .f32) (d : Vec F S64x32 .f32) (a : Vec F S64x33 .f32) (K : PUnit → sProp 𝕄) :
    iprop(owns (c : Thread nD τ) arg1 fullShare x0 ∗ owns (c : Thread nD τ) arg2 fullShare x1 ∗ owns (c : Thread nD τ) arg3 fullShare d
        ∗ owns (c : Thread nD τ) arg4 fullShare a
        ∗ (iprop(owns (c : Thread nD τ) arg1 fullShare x0 ∗ owns (c : Thread nD τ) arg2 fullShare x1 ∗ owns (c : Thread nD τ) arg3 fullShare d
            ∗ owns (c : Thread nD τ) arg4 fullShare (k5_pay2 x0 x1 a)) -∗ K ⟨⟩))
      ⊢ wp frame (wpE (defs₀ (F := F)) Variants.none c none) E (cc5__pool_kernel i arg1 harg1 arg2 harg2 arg3 harg3 arg4 harg4) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover5_a _ _), View.canon_unit_zero hz5]
  simp only [View.readAt_eq_ld, View.ld_unit_zero (S := S5000x1) hz5, View.ld_unit_zero (S := S5000x33) hz5, View.ld_unit_zero (S := S64x33) hz5]

set_option maxHeartbeats 1000000 in
/-- The body at the first point (the reset taken, the division not): the table's buffer at anything; it ends at the
    zero table plus the block's contribution. -/
theorem sound_kernel5_first (c : Dev nD) (E : Set ℕ) (i : grid5.Coords) (hc1 : cond5_1 i) (hc2 : ¬k5_cond2 i = 1#1)
    (arg1 : Memref sig .tc .vmem S5000x1 .i32) (harg1 : arg1.IsWhole) (arg2 : Memref sig .tc .vmem S5000x33 .f32) (harg2 : arg2.IsWhole)
    (arg3 : Memref sig .tc .vmem S64x32 .f32) (harg3 : arg3.IsWhole) (arg4 : Memref sig .tc .vmem S64x33 .f32) (harg4 : arg4.IsWhole)
    (x0 : Vec F S5000x1 .i32) (x1 : Vec F S5000x33 .f32) (d : Vec F S64x32 .f32) (K : PUnit → sProp 𝕄) :
    iprop(owns (c : Thread nD τ) arg1 fullShare x0 ∗ owns (c : Thread nD τ) arg2 fullShare x1 ∗ owns (c : Thread nD τ) arg3 fullShare d
        ∗ (∃ a, owns (c : Thread nD τ) arg4 fullShare a)
        ∗ (iprop(owns (c : Thread nD τ) arg1 fullShare x0 ∗ owns (c : Thread nD τ) arg2 fullShare x1 ∗ owns (c : Thread nD τ) arg3 fullShare d
            ∗ owns (c : Thread nD τ) arg4 fullShare (k5_pay2 x0 x1 k5_pay1)) -∗ K ⟨⟩))
      ⊢ wp frame (wpE (defs₀ (F := F)) Variants.none c none) E (cc5__pool_kernel i arg1 harg1 arg2 harg2 arg3 harg3 arg4 harg4) K := by
  simp only [cc5__pool_kernel_eq_skeleton]; unfold cc5__pool_kernel_skel
  unfold owns
  iintro ⟨⟨%f0, %hf0, H0⟩, ⟨%f1, %hf1, H1⟩, ⟨%f2, %hf2, H2⟩, ⟨%a, %f3, -, H3⟩, Hk⟩
  subst hf0 hf1 hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (cover5_a _ _), View.canon_cons_unit_zero (S := S64x33) hz5,
    View.readCov_unit_zero (S := S64x33) _ hz5]
  simp only [View.readAt_eq_ld, View.ld_unit_zero (S := S5000x1) hz5, View.ld_unit_zero (S := S5000x33) hz5]

set_option maxHeartbeats 1000000 in
/-- The body at the last point (the reset not taken, the division taken): the result's buffer at anything; the table
    ends at the table plus the block's contribution and the result at that table's sums over its counts. -/
theorem sound_kernel5_last (c : Dev nD) (E : Set ℕ) (i : grid5.Coords) (hc1 : ¬cond5_1 i) (hc2 : k5_cond2 i = 1#1)
    (arg1 : Memref sig .tc .vmem S5000x1 .i32) (harg1 : arg1.IsWhole) (arg2 : Memref sig .tc .vmem S5000x33 .f32) (harg2 : arg2.IsWhole)
    (arg3 : Memref sig .tc .vmem S64x32 .f32) (harg3 : arg3.IsWhole) (arg4 : Memref sig .tc .vmem S64x33 .f32) (harg4 : arg4.IsWhole)
    (x0 : Vec F S5000x1 .i32) (x1 : Vec F S5000x33 .f32) (a : Vec F S64x33 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare a
        ∗ (iprop(owns (c : Thread nD τ) arg1 fullShare x0 ∗ owns (c : Thread nD τ) arg2 fullShare x1
            ∗ owns (c : Thread nD τ) arg3 fullShare (k5_pay3 (k5_pay2 x0 x1 a))
            ∗ owns (c : Thread nD τ) arg4 fullShare (k5_pay2 x0 x1 a)) -∗ K ⟨⟩))
      ⊢ wp frame (wpE (defs₀ (F := F)) Variants.none c none) E (cc5__pool_kernel i arg1 harg1 arg2 harg2 arg3 harg3 arg4 harg4) K := by
  simp only [cc5__pool_kernel_eq_skeleton]; unfold cc5__pool_kernel_skel
  unfold owns
  iintro ⟨⟨%f0, %hf0, H0⟩, ⟨%f1, %hf1, H1⟩, ⟨%d, %f2, -, H2⟩, ⟨%f3, %hf3, H3⟩, Hk⟩
  subst hf0 hf1 hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover5_o _), View.canon_unit_zero hz5, View.readCov_unit_zero (S := S64x33) _ hz5]
    simp only [View.readAt_eq_ld, View.ld_unit_zero (S := S5000x1) hz5, View.ld_unit_zero (S := S5000x33) hz5, View.ld_unit_zero (S := S64x33) hz5]
  iexists _; isplitr
  swap; · iexact H3
  ipureintro
  sl_unfold_words
  rw [View.read_writes_eq_canon _ _ _ (cover5_a _ _), View.canon_unit_zero hz5]
  simp only [View.readAt_eq_ld, View.ld_unit_zero (S := S5000x1) hz5, View.ld_unit_zero (S := S5000x33) hz5, View.ld_unit_zero (S := S64x33) hz5]

/-! ## The running sums and the proof data -/

/-- The table of running sums after the first `n` blocks: zeros, then block by block the table plus the block's
    one-hot graph membership, transposed, times the block's rows. -/
def acc5 (c : Dev nD) : ℕ → Vec F S64x33 .f32
  | 0 => k5_pay1
  | n + 1 => if h : n < cfg5.N then k5_pay2 (iblk5 V c 0 ⟨n, h⟩) (iblk5 V c 1 ⟨n, h⟩) (acc5 c n) else acc5 c n

theorem acc5_zero (c : Dev nD) : acc5 V c 0 = k5_pay1 := rfl

theorem acc5_succ (c : Dev nD) (n : ℕ) (h : n < cfg5.N) :
    acc5 V c (n + 1) = k5_pay2 (iblk5 V c 0 ⟨n, h⟩) (iblk5 V c 1 ⟨n, h⟩) (acc5 V c n) := by
  rw [acc5, dif_pos h]

/-- The kernel's invariant between points: before the first, the core's scoped buffers that are no staging buffer at
    any contents and its generator register; after `n` blocks, the scratch buffer whole at the running sums, the other
    scoped buffers at any contents, and the register. -/
def Φ5 (c : Dev nD) (n : ℕ) : sProp 𝕄 :=
  if n = 0 then Pipeline.ΦA spec5 c
  else iprop(owns (c : Thread nD τ) (Memref.whole cc5_scratch0) fullShare (acc5 V c n)
    ∗ Pipeline.scopedRestBut (Ix := Unit) (Name := ℕ) (U := UR sig nD τ) (Lvl := ℕ) (Val := Elt F) spec5 c [cc5_scratch0]
    ∗ ∃ r, prngReg c r)

theorem Φ5_zero (c : Dev nD) : Φ5 V c 0 = Pipeline.ΦA spec5 c := if_pos rfl
theorem Φ5_pos (c : Dev nD) (n : ℕ) (h : n ≠ 0) : Φ5 V c n = iprop(owns (c : Thread nD τ) (Memref.whole cc5_scratch0) fullShare (acc5 V c n)
    ∗ Pipeline.scopedRestBut (Ix := Unit) (Name := ℕ) (U := UR sig nD τ) (Lvl := ℕ) (Val := Elt F) spec5 c [cc5_scratch0]
    ∗ ∃ r, prngReg c r) := if_neg h

/-- The proof data of this pipeline on core `c`: the arrays as the region finds them; after the body at point `t`
    each input's buffer at its block and the result's at the quotient table of the sums so far (read at the last point
    only); the invariant carrying the running sums; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => k5_pay3 (acc5 V c (t.val + 1))
  Φ t := Φ5 V c t.val
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2' (c : Dev nD) (t : Fin cfg5.N) : (dat5 V c).after 2 t = k5_pay3 (acc5 V c (t.val + 1)) := by dsimp only [dat5]
theorem after5_2 (c : Dev nD) (t : Fin cfg5.N) (ht : t.val = 19) : (dat5 V c).after 2 t = k5_pay3 (acc5 V c 20) := by
  rw [after5_2', ht]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

theorem Φ_castSucc5 (c : Dev nD) (t : Fin cfg5.N) : (dat5 V c).Φ t.castSucc = Φ5 V c t.val := rfl
theorem Φ_succ5 (c : Dev nD) (t : Fin cfg5.N) : (dat5 V c).Φ t.succ = Φ5 V c (t.val + 1) := rfl

/-- The scratch buffer whole at contents `f` is owned, through its whole memref, at `f`; and back. -/
theorem scratch_owns (c : Dev nD) (f : Buf (Elt F) ((c : Thread nD τ).loc cc5_scratch0)) :
    ((((c : Thread nD τ).loc cc5_scratch0) ↦{fullShare} f) : sProp 𝕄) ⊢ owns (c : Thread nD τ) (Memref.whole cc5_scratch0) fullShare f :=
  Entails.of_eq (owns_whole (c : Thread nD τ) cc5_scratch0 fullShare f).symm
theorem owns_scratch (c : Dev nD) (f : Buf (Elt F) ((c : Thread nD τ).loc cc5_scratch0)) :
    (owns (c : Thread nD τ) (Memref.whole cc5_scratch0) fullShare f : sProp 𝕄) ⊢ (((c : Thread nD τ).loc cc5_scratch0) ↦{fullShare} f) :=
  Entails.of_eq (owns_whole (c : Thread nD τ) cc5_scratch0 fullShare f)

/-- Entering the region: the invariant before the first point is the scoped rest and the register as they are. -/
theorem Φ5_in (c : Dev nD) : (iprop((∃ r, prngReg c r) ∗ Pipeline.scopedRest (Ix := Unit) (Name := ℕ) (U := UR sig nD τ) (Lvl := ℕ) (Val := Elt F) spec5 c) : sProp 𝕄) ⊢ (dat5 V c).Φ 0 := by
  rw [show (dat5 V c).Φ 0 = Pipeline.ΦA spec5 c from Φ5_zero V c]
  unfold Pipeline.ΦA
  iintro ⟨Hr, Hs⟩
  isplitl [Hs]; · iexact Hs
  iexact Hr

/-- Leaving it: the invariant after the last point gives the scoped rest back, the scratch at its last contents. -/
theorem Φ5_out (c : Dev nD) : (dat5 V c).Φ (Fin.last cfg5.N) ⊢ (iprop(Pipeline.scopedRest (Ix := Unit) (Name := ℕ) (U := UR sig nD τ) (Lvl := ℕ) (Val := Elt F) spec5 c ∗ ∃ r, prngReg c r) : sProp 𝕄) := by
  rw [show (dat5 V c).Φ (Fin.last cfg5.N) = Φ5 V c 20 from rfl, Φ5_pos V c 20 (by decide), scopedRest5_split]
  iintro ⟨Ha, Hb, Hr⟩
  ihave Ha' := (owns_scratch c _) $$ Ha
  isplitr [Hr]
  · isplitl [Ha']
    · iexists _; iexact Ha'
    iexact Hb
  iexact Hr

/-! ## The body obligation -/

/-- The result's window is idle at every point but the last, -/
theorem idle5_2 : ∀ t : Fin cfg5.N, cfg5.idle 2 (cfg5.grid.coords t) = !decide (t.val = 19) :=
  (by decide +kernel : ∀ t : Fin grid5.N, idle5 2 (grid5.coords t) = !decide (t.val = 19))

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- what it returns at a point where the result's buffer is left as found, -/
def bodyPostIdle5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ (∃ d, owns (c : Thread nD τ) (st5_2 t) fullShare ((dat5 V c).before 2 t d)))

/-- and at the point that writes it. -/
def bodyPostLive5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at the first point: the scratch comes out of the scoped rest at anything, is zeroed and takes the first
    block's contribution; the result's buffer is handed back as found. -/
theorem sound_body5_first (c : Dev nD) (t : Fin cfg5.N) (h0 : t.val = 0) :
    bodyPre5 V c t ⊢ wp frame (wpE (defs₀ (F := F)) Variants.none c none) Set.univ (bodyAt5 t) (fun _ => bodyPostIdle5 V c t) := by
  unfold bodyPre5 bodyPostIdle5 bodyAt5
  simp only [before5_0, before5_1]
  rw [show (dat5 V c).owesAt () t.succ = (dat5 V c).owesAt () t.castSucc from rfl, after5_0, after5_1, Φ_castSucc5, Φ_succ5,
    show Φ5 V c t.val = Pipeline.ΦA spec5 c from by rw [h0]; exact Φ5_zero V c, Φ5_pos V c (t.val + 1) (Nat.succ_ne_zero _),
    show acc5 V c (t.val + 1) = k5_pay2 (iblk5 V c 0 t) (iblk5 V c 1 t) k5_pay1 from by
      rw [acc5_succ V c t.val t.isLt, show acc5 V c t.val = k5_pay1 from by rw [h0]; exact acc5_zero V c]]
  unfold Pipeline.ΦA
  rw [scopedRest5_split]
  iintro ⟨⟨⟨⟨%f, Hs⟩, Hb⟩, Hr⟩, Ho, ⟨%d0, H0⟩, ⟨%d1, H1⟩, ⟨%d2, H2⟩⟩
  ihave Hs' := (scratch_owns c f) $$ Hs
  iapply (sound_kernel5_first c Set.univ _ ((hcond5_1 t).mpr h0) (fun h => by have := (hcond5_2 t).mp h; omega)
    _ _ _ _ _ _ _ _ (iblk5 V c 0 t) (iblk5 V c 1 t) _ _)
  isplitl [H0]; · iexact H0
  isplitl [H1]; · iexact H1
  isplitl [H2]; · iexact H2
  isplitl [Hs']; · iexists _; iexact Hs'
  iintro ⟨H0, H1, H2, H3⟩
  isplitl [H3 Hb Hr]
  · isplitl [H3]; · iexact H3
    isplitl [Hb]; · iexact Hb
    iexact Hr
  isplitl [Ho]; · iexact Ho
  isplitl [H0]; · iexact H0
  isplitl [H1]; · iexact H1
  iexists _; iexact H2

/-- The body at a middle point: the scratch holds the sums so far and takes the block's contribution; the result's
    buffer is handed back as found. -/
theorem sound_body5_mid (c : Dev nD) (t : Fin cfg5.N) (h0 : t.val ≠ 0) (h19 : t.val ≠ 19) :
    bodyPre5 V c t ⊢ wp frame (wpE (defs₀ (F := F)) Variants.none c none) Set.univ (bodyAt5 t) (fun _ => bodyPostIdle5 V c t) := by
  unfold bodyPre5 bodyPostIdle5 bodyAt5
  simp only [before5_0, before5_1]
  rw [show (dat5 V c).owesAt () t.succ = (dat5 V c).owesAt () t.castSucc from rfl, after5_0, after5_1, Φ_castSucc5, Φ_succ5,
    Φ5_pos V c t.val h0, Φ5_pos V c (t.val + 1) (Nat.succ_ne_zero _), acc5_succ V c t.val t.isLt]
  iintro ⟨⟨Ha, Hb, Hr⟩, Ho, ⟨%d0, H0⟩, ⟨%d1, H1⟩, ⟨%d2, H2⟩⟩
  iapply (sound_kernel5_mid c Set.univ _ (fun h => h0 ((hcond5_1 t).mp h)) (fun h => h19 ((hcond5_2 t).mp h))
    _ _ _ _ _ _ _ _ (iblk5 V c 0 t) (iblk5 V c 1 t) _ (acc5 V c t.val) _)
  isplitl [H0]; · iexact H0
  isplitl [H1]; · iexact H1
  isplitl [H2]; · iexact H2
  isplitl [Ha]; · iexact Ha
  iintro ⟨H0, H1, H2, H3⟩
  isplitl [H3 Hb Hr]
  · isplitl [H3]; · iexact H3
    isplitl [Hb]; · iexact Hb
    iexact Hr
  isplitl [Ho]; · iexact Ho
  isplitl [H0]; · iexact H0
  isplitl [H1]; · iexact H1
  iexists _; iexact H2

/-- The body at the last point: the scratch takes the last block's contribution and the result's buffer the sums
    over the counts. -/
theorem sound_body5_last (c : Dev nD) (t : Fin cfg5.N) (h19 : t.val = 19) :
    bodyPre5 V c t ⊢ wp frame (wpE (defs₀ (F := F)) Variants.none c none) Set.univ (bodyAt5 t) (fun _ => bodyPostLive5 V c t) := by
  unfold bodyPre5 bodyPostLive5 bodyAt5
  simp only [before5_0, before5_1]
  rw [show (dat5 V c).owesAt () t.succ = (dat5 V c).owesAt () t.castSucc from rfl, after5_0, after5_1, after5_2', Φ_castSucc5, Φ_succ5,
    Φ5_pos V c t.val (by omega), Φ5_pos V c (t.val + 1) (Nat.succ_ne_zero _), acc5_succ V c t.val t.isLt]
  iintro ⟨⟨Ha, Hb, Hr⟩, Ho, ⟨%d0, H0⟩, ⟨%d1, H1⟩, ⟨%d2, H2⟩⟩
  iapply (sound_kernel5_last c Set.univ _ (fun h => by have := (hcond5_1 t).mp h; omega) ((hcond5_2 t).mpr h19)
    _ _ _ _ _ _ _ _ (iblk5 V c 0 t) (iblk5 V c 1 t) (acc5 V c t.val) _)
  isplitl [H0]; · iexact H0
  isplitl [H1]; · iexact H1
  isplitl [H2]; · iexists _; iexact H2
  isplitl [Ha]; · iexact Ha
  iintro ⟨H0, H1, H2, H3⟩
  isplitl [H3 Hb Hr]
  · isplitl [H3]; · iexact H3
    isplitl [Hb]; · iexact Hb
    iexact Hr
  isplitl [Ho]; · iexact Ho
  isplitl [H0]; · iexact H0
  isplitl [H1]; · iexact H1
  iexact H2

/-- The pipeline's body obligation, at every point: by the point's case. -/
theorem body_obligation5 (c : Dev nD) : BodyObligation (dat5 (F := F) V c) (defs₀ (F := F)) Variants.none () Set.univ := fun t => by
  rw [bigSep_W5, bigSep_W5]
  by_cases h19 : t.val = 19
  · have hi : cfg5.idle 2 (cfg5.grid.coords t) = false := by rw [idle5_2 t, h19]; rfl
    rw [hi]
    exact sound_body5_last V c t h19
  · have hi : cfg5.idle 2 (cfg5.grid.coords t) = true := by rw [idle5_2 t, decide_eq_false h19]; rfl
    have hf : (cfg5.win 2).flush t = false := Bool.eq_false_iff.mpr fun h => by
      have := (flush5_2 t).mp h; have hN : t.val < 20 := lt_of_lt_of_eq t.isLt (show cfg5.N = 20 from N_5); omega
    rw [hi, hf]
    by_cases h0 : t.val = 0
    · exact sound_body5_first V c t h0
    · exact sound_body5_mid V c t h0 h19

end Cert.Kernel.Frame

end
-- ==== Proof.Bits.Run.lean ====
/-
  The whole program from the launch to the return: three stretches of host operations, the first projection, a
  stretch, the first activation and the second projection, a stretch, the second activation, a stretch, the third
  projection, a stretch, the pooling. The contents of a core's buffers at each of the fourteen boundaries are a fold
  from the launch memory: a stretch of host operations acts as its operations do in order; a region leaves each of its
  windows' arrays at what its pipeline's write-backs fold to and every other buffer as it found it. Each region's proof
  data are taken at the contents the region is entered from. The thread state between two items is every unscoped
  buffer whole at the boundary's contents, the generator register at some state, nothing owed; the launch theorem for a
  list of segments then gives every final memory at the last boundary's contents, and the arguments read back
  through the fold to the launch memory.
-/
import proofs.«403423_j51041391345664_1_alg».proof.Proof.Gen.Kernel.Launch
import proofs.«403423_j51041391345664_1_alg».proof.Proof.Gen.Kernel.Regions
import proofs.«403423_j51041391345664_1_alg».proof.Proof.Gen.Kernel.Points
import proofs.«403423_j51041391345664_1_alg».proof.Proof.Bits.Proj1
import proofs.«403423_j51041391345664_1_alg».proof.Proof.Bits.Act1
import proofs.«403423_j51041391345664_1_alg».proof.Proof.Bits.Proj2
import proofs.«403423_j51041391345664_1_alg».proof.Proof.Bits.Act2
import proofs.«403423_j51041391345664_1_alg».proof.Proof.Bits.Proj3
import proofs.«403423_j51041391345664_1_alg».proof.Proof.Bits.Pool
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)

/-- After the stretch `hostOps0`. -/
abbrev W1 : Dev nD → Valuation τ sig (Elt F) := fun c => StableHlo.after hostOps0 (W0 m ρ c)
/-- A reference the stretch does not write holds what it held. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- After the stretch `hostOps0_1`. -/
abbrev W2 : Dev nD → Valuation τ sig (Elt F) := fun c => StableHlo.after hostOps0_1 (W1 m ρ c)
/-- A reference the stretch does not write holds what it held. -/
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

/-- After the stretch `hostOps0_2`. -/
abbrev W3 : Dev nD → Valuation τ sig (Elt F) := fun c => StableHlo.after hostOps0_2 (W2 m ρ c)
/-- A reference the stretch does not write holds what it held. -/
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
/-- The same, read at the core's references: what the first projection is entered from. -/
abbrev V3 : (c : Dev nD) → (b : Ref sig .tc) → Buf (Elt F) ((c : Thread nD τ).loc b) := fun c b => W3 m ρ c b

/-- After the first projection: each of its windows' arrays at what the pipeline leaves (an input as entered, the result
    at its write-backs folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same, read at the core's references. -/
abbrev V4 : (c : Dev nD) → (b : Ref sig .tc) → Buf (Elt F) ((c : Thread nD τ).loc b) := fun c b => W4 m ρ c b
/-- An input window's array is as entered: nothing is written back to it. -/
theorem W4_in (c : Dev nD) (w : Fin cfg0.W) (hin : (cfg0.win w).isOut = false) :
    W4 m ρ c (Proc.devRef .tc (Pipeline.arrRef spec0 w)) = V3 m ρ c (Pipeline.arrRef spec0 w) :=
  (W4_arr m ρ c w).trans (((dat0 (V3 m ρ) c).arrAt_in w hin _).trans (A_eq0 (V3 m ρ) c w))
/-- At the exit each array holds what the pipeline leaves, every other buffer what it held at entry. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the stretch `hostOps1`. -/
abbrev W5 : Dev nD → Valuation τ sig (Elt F) := fun c => StableHlo.after hostOps1 (W4 m ρ c)
/-- A reference the stretch does not write holds what it held. -/
theorem W5_of (c : Dev nD) (r : Ref sig .tc) (h : r ∉ hostOps1_W) :
    W5 m ρ c (Proc.devRef .tc r) = W4 m ρ c (Proc.devRef .tc r) :=
  StableHlo.after_of_writes_sub hostOps1 _ hostOps1_writes h
/-- The same, read at the core's references: what the first bias and activation is entered from. -/
abbrev V5 : (c : Dev nD) → (b : Ref sig .tc) → Buf (Elt F) ((c : Thread nD τ).loc b) := fun c b => W5 m ρ c b

/-- After the first bias and activation: each of its windows' arrays at what the pipeline leaves (an input as entered, the result
    at its write-backs folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same, read at the core's references. -/
abbrev V6 : (c : Dev nD) → (b : Ref sig .tc) → Buf (Elt F) ((c : Thread nD τ).loc b) := fun c b => W6 m ρ c b
/-- An input window's array is as entered: nothing is written back to it. -/
theorem W6_in (c : Dev nD) (w : Fin cfg1.W) (hin : (cfg1.win w).isOut = false) :
    W6 m ρ c (Proc.devRef .tc (Pipeline.arrRef spec1 w)) = V5 m ρ c (Pipeline.arrRef spec1 w) :=
  (W6_arr m ρ c w).trans (((dat1 (V5 m ρ) c).arrAt_in w hin _).trans (A_eq1 (V5 m ρ) c w))
/-- At the exit each array holds what the pipeline leaves, every other buffer what it held at entry. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the second projection: each of its windows' arrays at what the pipeline leaves (an input as entered, the result
    at its write-backs folded), every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
/-- The same, read at the core's references. -/
abbrev V7 : (c : Dev nD) → (b : Ref sig .tc) → Buf (Elt F) ((c : Thread nD τ).loc b) := fun c b => W7 m ρ c b
/-- An input window's array is as entered: nothing is written back to it. -/
theorem W7_in (c : Dev nD) (w : Fin cfg2.W) (hin : (cfg2.win w).isOut = false) :
    W7 m ρ c (Proc.devRef .tc (Pipeline.arrRef spec2 w)) = V6 m ρ c (Pipeline.arrRef spec2 w) :=
  (W7_arr m ρ c w).trans (((dat2 (V6 m ρ) c).arrAt_in w hin _).trans (A_eq2 (V6 m ρ) c w))
/-- At the exit each array holds what the pipeline leaves, every other buffer what it held at entry. -/
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After the stretch `hostOps3`. -/
abbrev W8 : Dev nD → Valuation τ sig (Elt F) := fun c => StableHlo.after hostOps3 (W7 m ρ c)
/-- A reference the stretch does not write holds what it held. -/
theorem W8_of (c : Dev nD) (r : Ref sig .tc) (h : r ∉ hostOps3_W) :
    W8 m ρ c (Proc.devRef .tc r) = W7 m ρ c (Proc.devRef .tc r) :=
  StableHlo.after_of_writes_sub hostOps3 _ hostOps3_writes h
/-- The same, read at the core's references: what the second bias and activation is entered from. -/
abbrev V8 : (c : Dev nD) → (b : Ref sig .tc) → Buf (Elt F) ((c : Thread nD τ).loc b) := fun c b => W8 m ρ c b

/-- After the second bias and activation: each of its windows' arrays at what the pipeline leaves (an input as entered, the result
    at its write-backs folded), every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
/-- The same, read at the core's references. -/
abbrev V9 : (c : Dev nD) → (b : Ref sig .tc) → Buf (Elt F) ((c : Thread nD τ).loc b) := fun c b => W9 m ρ c b
/-- An input window's array is as entered: nothing is written back to it. -/
theorem W9_in (c : Dev nD) (w : Fin cfg3.W) (hin : (cfg3.win w).isOut = false) :
    W9 m ρ c (Proc.devRef .tc (Pipeline.arrRef spec3 w)) = V8 m ρ c (Pipeline.arrRef spec3 w) :=
  (W9_arr m ρ c w).trans (((dat3 (V8 m ρ) c).arrAt_in w hin _).trans (A_eq3 (V8 m ρ) c w))
/-- At the exit each array holds what the pipeline leaves, every other buffer what it held at entry. -/
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-- After the stretch `hostOps4`. -/
abbrev W10 : Dev nD → Valuation τ sig (Elt F) := fun c => StableHlo.after hostOps4 (W9 m ρ c)
/-- A reference the stretch does not write holds what it held. -/
theorem W10_of (c : Dev nD) (r : Ref sig .tc) (h : r ∉ hostOps4_W) :
    W10 m ρ c (Proc.devRef .tc r) = W9 m ρ c (Proc.devRef .tc r) :=
  StableHlo.after_of_writes_sub hostOps4 _ hostOps4_writes h
/-- The same, read at the core's references: what the third projection is entered from. -/
abbrev V10 : (c : Dev nD) → (b : Ref sig .tc) → Buf (Elt F) ((c : Thread nD τ).loc b) := fun c b => W10 m ρ c b

/-- After the third projection: each of its windows' arrays at what the pipeline leaves (an input as entered, the result
    at its write-backs folded), every other buffer as entered. -/
def W11 (c : Dev nD) : Valuation τ sig (Elt F) :=
  Pipeline.withArrays spec4 c (W10 m ρ c) fun w => (dat4 (V10 m ρ) c).arrAt w cfg4.N
theorem W11_arr (c : Dev nD) (w : Fin cfg4.W) :
    W11 m ρ c (Proc.devRef .tc (Pipeline.arrRef spec4 w)) = (dat4 (V10 m ρ) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m ρ c (Proc.devRef .tc b) = W10 m ρ c (Proc.devRef .tc b) := by
  unfold W11; exact Pipeline.withArrays_of_ne spec4 c _ _ b hb
/-- The same, read at the core's references. -/
abbrev V11 : (c : Dev nD) → (b : Ref sig .tc) → Buf (Elt F) ((c : Thread nD τ).loc b) := fun c b => W11 m ρ c b
/-- An input window's array is as entered: nothing is written back to it. -/
theorem W11_in (c : Dev nD) (w : Fin cfg4.W) (hin : (cfg4.win w).isOut = false) :
    W11 m ρ c (Proc.devRef .tc (Pipeline.arrRef spec4 w)) = V10 m ρ c (Pipeline.arrRef spec4 w) :=
  (W11_arr m ρ c w).trans (((dat4 (V10 m ρ) c).arrAt_in w hin _).trans (A_eq4 (V10 m ρ) c w))
/-- At the exit each array holds what the pipeline leaves, every other buffer what it held at entry. -/
theorem hF4 (c : Dev nD) (w : Fin cfg4.W) : (dat4 (V10 m ρ) c).arrAt w cfg4.N = V11 m ρ c (Pipeline.arrRef spec4 w) :=
  (W11_arr m ρ c w).symm
theorem hrest4 (c : Dev nD) : ∀ b, b ∉ Finset.univ.image (Pipeline.arrRef spec4) → V11 m ρ c b = V10 m ρ c b :=
  fun b hb => W11_of_ne m ρ c b fun w e => hb (Finset.mem_image.mpr ⟨w, Finset.mem_univ _, e⟩)

/-- After the stretch `hostOps5`. -/
abbrev W12 : Dev nD → Valuation τ sig (Elt F) := fun c => StableHlo.after hostOps5 (W11 m ρ c)
/-- A reference the stretch does not write holds what it held. -/
theorem W12_of (c : Dev nD) (r : Ref sig .tc) (h : r ∉ hostOps5_W) :
    W12 m ρ c (Proc.devRef .tc r) = W11 m ρ c (Proc.devRef .tc r) :=
  StableHlo.after_of_writes_sub hostOps5 _ hostOps5_writes h
/-- The same, read at the core's references: what the pooling is entered from. -/
abbrev V12 : (c : Dev nD) → (b : Ref sig .tc) → Buf (Elt F) ((c : Thread nD τ).loc b) := fun c b => W12 m ρ c b

/-- After the pooling: each of its windows' arrays at what the pipeline leaves (an input as entered, the result
    at its write-backs folded), every other buffer as entered. -/
def W13 (c : Dev nD) : Valuation τ sig (Elt F) :=
  Pipeline.withArrays spec5 c (W12 m ρ c) fun w => (dat5 (V12 m ρ) c).arrAt w cfg5.N
theorem W13_arr (c : Dev nD) (w : Fin cfg5.W) :
    W13 m ρ c (Proc.devRef .tc (Pipeline.arrRef spec5 w)) = (dat5 (V12 m ρ) c).arrAt w cfg5.N := by
  unfold W13; exact Pipeline.withArrays_arr spec5 launch5.win.arr_inj c _ _ w
theorem W13_of_ne (c : Dev nD) (b : Ref sig .tc) (hb : ∀ w, Pipeline.arrRef spec5 w ≠ b) :
    W13 m ρ c (Proc.devRef .tc b) = W12 m ρ c (Proc.devRef .tc b) := by
  unfold W13; exact Pipeline.withArrays_of_ne spec5 c _ _ b hb
/-- The same, read at the core's references. -/
abbrev V13 : (c : Dev nD) → (b : Ref sig .tc) → Buf (Elt F) ((c : Thread nD τ).loc b) := fun c b => W13 m ρ c b
/-- An input window's array is as entered: nothing is written back to it. -/
theorem W13_in (c : Dev nD) (w : Fin cfg5.W) (hin : (cfg5.win w).isOut = false) :
    W13 m ρ c (Proc.devRef .tc (Pipeline.arrRef spec5 w)) = V12 m ρ c (Pipeline.arrRef spec5 w) :=
  (W13_arr m ρ c w).trans (((dat5 (V12 m ρ) c).arrAt_in w hin _).trans (A_eq5 (V12 m ρ) c w))
/-- At the exit each array holds what the pipeline leaves, every other buffer what it held at entry. -/
theorem hF5 (c : Dev nD) (w : Fin cfg5.W) : (dat5 (V12 m ρ) c).arrAt w cfg5.N = V13 m ρ c (Pipeline.arrRef spec5 w) :=
  (W13_arr m ρ c w).symm
theorem hrest5 (c : Dev nD) : ∀ b, b ∉ Finset.univ.image (Pipeline.arrRef spec5) → V13 m ρ c b = V12 m ρ c b :=
  fun b hb => W13_of_ne m ρ c b fun w e => hb (Finset.mem_image.mpr ⟨w, Finset.mem_univ _, e⟩)

/-! ## The arguments end as launched

No stretch writes an argument, and a region either passes it by or reads it through an input window, so the fold at an
argument's buffer walks back to the launch memory: stated at the boundary where the argument is last read, and at the
last boundary. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of m ρ c main_arg0 (by decide)
    _ = W1 m ρ c (Proc.devRef .tc main_arg0) := W2_of m ρ c main_arg0 (by decide)
    _ = W0 m ρ c (Proc.devRef .tc main_arg0) := W1_of m ρ c main_arg0 (by decide)
    _ = m ((c : Thread nD τ).loc main_arg0) := rfl
theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := W13_of_ne m ρ c main_arg0 (by decide)
    _ = W11 m ρ c (Proc.devRef .tc main_arg0) := W12_of m ρ c main_arg0 (by decide)
    _ = W10 m ρ c (Proc.devRef .tc main_arg0) := W11_of_ne m ρ c main_arg0 (by decide)
    _ = W9 m ρ c (Proc.devRef .tc main_arg0) := W10_of m ρ c main_arg0 (by decide)
    _ = W8 m ρ c (Proc.devRef .tc main_arg0) := W9_of_ne m ρ c main_arg0 (by decide)
    _ = W7 m ρ c (Proc.devRef .tc main_arg0) := W8_of m ρ c main_arg0 (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_in m ρ c 0 rfl
    _ = m ((c : Thread nD τ).loc main_arg0) := W3_main_arg0 m ρ c

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of m ρ c main_arg1 (by decide)
    _ = W1 m ρ c (Proc.devRef .tc main_arg1) := W2_of m ρ c main_arg1 (by decide)
    _ = W0 m ρ c (Proc.devRef .tc main_arg1) := W1_of m ρ c main_arg1 (by decide)
    _ = m ((c : Thread nD τ).loc main_arg1) := rfl
theorem W13_main_arg1 (c : Dev nD) : W13 m ρ c (Proc.devRef .tc main_arg1) = m ((c : Thread nD τ).loc main_arg1) :=
  calc W13 m ρ c (Proc.devRef .tc main_arg1)
    _ = W12 m ρ c (Proc.devRef .tc main_arg1) := W13_of_ne m ρ c main_arg1 (by decide)
    _ = W11 m ρ c (Proc.devRef .tc main_arg1) := W12_of m ρ c main_arg1 (by decide)
    _ = W10 m ρ c (Proc.devRef .tc main_arg1) := W11_of_ne m ρ c main_arg1 (by decide)
    _ = W9 m ρ c (Proc.devRef .tc main_arg1) := W10_of m ρ c main_arg1 (by decide)
    _ = W8 m ρ c (Proc.devRef .tc main_arg1) := W9_of_ne m ρ c main_arg1 (by decide)
    _ = W7 m ρ c (Proc.devRef .tc main_arg1) := W8_of m ρ c main_arg1 (by decide)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = m ((c : Thread nD τ).loc main_arg1) := W3_main_arg1 m ρ c

theorem W11_main_arg2 (c : Dev nD) : W11 m ρ c (Proc.devRef .tc main_arg2) = m ((c : Thread nD τ).loc main_arg2) :=
  calc W11 m ρ c (Proc.devRef .tc main_arg2)
    _ = W10 m ρ c (Proc.devRef .tc main_arg2) := W11_of_ne m ρ c main_arg2 (by decide)
    _ = W9 m ρ c (Proc.devRef .tc main_arg2) := W10_of m ρ c main_arg2 (by decide)
    _ = W8 m ρ c (Proc.devRef .tc main_arg2) := W9_of_ne m ρ c main_arg2 (by decide)
    _ = W7 m ρ c (Proc.devRef .tc main_arg2) := W8_of m ρ c main_arg2 (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of m ρ c main_arg2 (by decide)
    _ = W0 m ρ c (Proc.devRef .tc main_arg2) := W1_of m ρ c main_arg2 (by decide)
    _ = m ((c : Thread nD τ).loc main_arg2) := rfl
theorem W13_main_arg2 (c : Dev nD) : W13 m ρ c (Proc.devRef .tc main_arg2) = m ((c : Thread nD τ).loc main_arg2) :=
  calc W13 m ρ c (Proc.devRef .tc main_arg2)
    _ = W12 m ρ c (Proc.devRef .tc main_arg2) := W13_of_ne m ρ c main_arg2 (by decide)
    _ = W11 m ρ c (Proc.devRef .tc main_arg2) := W12_of m ρ c main_arg2 (by decide)
    _ = m ((c : Thread nD τ).loc main_arg2) := W11_main_arg2 m ρ c

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of m ρ c main_arg3 (by decide)
    _ = W1 m ρ c (Proc.devRef .tc main_arg3) := W2_of m ρ c main_arg3 (by decide)
    _ = W0 m ρ c (Proc.devRef .tc main_arg3) := W1_of m ρ c main_arg3 (by decide)
    _ = m ((c : Thread nD τ).loc main_arg3) := rfl
theorem W13_main_arg3 (c : Dev nD) : W13 m ρ c (Proc.devRef .tc main_arg3) = m ((c : Thread nD τ).loc main_arg3) :=
  calc W13 m ρ c (Proc.devRef .tc main_arg3)
    _ = W12 m ρ c (Proc.devRef .tc main_arg3) := W13_of_ne m ρ c main_arg3 (by decide)
    _ = W11 m ρ c (Proc.devRef .tc main_arg3) := W12_of m ρ c main_arg3 (by decide)
    _ = W10 m ρ c (Proc.devRef .tc main_arg3) := W11_of_ne m ρ c main_arg3 (by decide)
    _ = W9 m ρ c (Proc.devRef .tc main_arg3) := W10_of m ρ c main_arg3 (by decide)
    _ = W8 m ρ c (Proc.devRef .tc main_arg3) := W9_of_ne m ρ c main_arg3 (by decide)
    _ = W7 m ρ c (Proc.devRef .tc main_arg3) := W8_of m ρ c main_arg3 (by decide)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_in m ρ c 1 rfl
    _ = m ((c : Thread nD τ).loc main_arg3) := W3_main_arg3 m ρ c

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of m ρ c main_arg4 (by decide)
    _ = W0 m ρ c (Proc.devRef .tc main_arg4) := W1_of m ρ c main_arg4 (by decide)
    _ = m ((c : Thread nD τ).loc main_arg4) := rfl
theorem W13_main_arg4 (c : Dev nD) : W13 m ρ c (Proc.devRef .tc main_arg4) = m ((c : Thread nD τ).loc main_arg4) :=
  calc W13 m ρ c (Proc.devRef .tc main_arg4)
    _ = W12 m ρ c (Proc.devRef .tc main_arg4) := W13_of_ne m ρ c main_arg4 (by decide)
    _ = W11 m ρ c (Proc.devRef .tc main_arg4) := W12_of m ρ c main_arg4 (by decide)
    _ = W10 m ρ c (Proc.devRef .tc main_arg4) := W11_of_ne m ρ c main_arg4 (by decide)
    _ = W9 m ρ c (Proc.devRef .tc main_arg4) := W10_of m ρ c main_arg4 (by decide)
    _ = W8 m ρ c (Proc.devRef .tc main_arg4) := W9_of_ne m ρ c main_arg4 (by decide)
    _ = W7 m ρ c (Proc.devRef .tc main_arg4) := W8_of m ρ c main_arg4 (by decide)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = m ((c : Thread nD τ).loc main_arg4) := W4_main_arg4 m ρ c

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of m ρ c main_arg5 (by decide)
    _ = W0 m ρ c (Proc.devRef .tc main_arg5) := W1_of m ρ c main_arg5 (by decide)
    _ = m ((c : Thread nD τ).loc main_arg5) := rfl
theorem W13_main_arg5 (c : Dev nD) : W13 m ρ c (Proc.devRef .tc main_arg5) = m ((c : Thread nD τ).loc main_arg5) :=
  calc W13 m ρ c (Proc.devRef .tc main_arg5)
    _ = W12 m ρ c (Proc.devRef .tc main_arg5) := W13_of_ne m ρ c main_arg5 (by decide)
    _ = W11 m ρ c (Proc.devRef .tc main_arg5) := W12_of m ρ c main_arg5 (by decide)
    _ = W10 m ρ c (Proc.devRef .tc main_arg5) := W11_of_ne m ρ c main_arg5 (by decide)
    _ = W9 m ρ c (Proc.devRef .tc main_arg5) := W10_of m ρ c main_arg5 (by decide)
    _ = W8 m ρ c (Proc.devRef .tc main_arg5) := W9_of_ne m ρ c main_arg5 (by decide)
    _ = W7 m ρ c (Proc.devRef .tc main_arg5) := W8_of m ρ c main_arg5 (by decide)
    _ = W6 m ρ c (Proc.devRef .tc main_arg5) := W7_in m ρ c 1 rfl
    _ = m ((c : Thread nD τ).loc main_arg5) := W6_main_arg5 m ρ c

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of m ρ c main_arg6 (by decide)
    _ = W0 m ρ c (Proc.devRef .tc main_arg6) := W1_of m ρ c main_arg6 (by decide)
    _ = m ((c : Thread nD τ).loc main_arg6) := rfl
theorem W13_main_arg6 (c : Dev nD) : W13 m ρ c (Proc.devRef .tc main_arg6) = m ((c : Thread nD τ).loc main_arg6) :=
  calc W13 m ρ c (Proc.devRef .tc main_arg6)
    _ = W12 m ρ c (Proc.devRef .tc main_arg6) := W13_of_ne m ρ c main_arg6 (by decide)
    _ = W11 m ρ c (Proc.devRef .tc main_arg6) := W12_of m ρ c main_arg6 (by decide)
    _ = W10 m ρ c (Proc.devRef .tc main_arg6) := W11_of_ne m ρ c main_arg6 (by decide)
    _ = W9 m ρ c (Proc.devRef .tc main_arg6) := W10_of m ρ c main_arg6 (by decide)
    _ = W8 m ρ c (Proc.devRef .tc main_arg6) := W9_of_ne m ρ c main_arg6 (by decide)
    _ = W7 m ρ c (Proc.devRef .tc main_arg6) := W8_of m ρ c main_arg6 (by decide)
    _ = m ((c : Thread nD τ).loc main_arg6) := W7_main_arg6 m ρ c

theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of m ρ c main_arg7 (by decide)
    _ = W8 m ρ c (Proc.devRef .tc main_arg7) := W9_of_ne m ρ c main_arg7 (by decide)
    _ = W7 m ρ c (Proc.devRef .tc main_arg7) := W8_of m ρ c main_arg7 (by decide)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of m ρ c main_arg7 (by decide)
    _ = W0 m ρ c (Proc.devRef .tc main_arg7) := W1_of m ρ c main_arg7 (by decide)
    _ = m ((c : Thread nD τ).loc main_arg7) := rfl
theorem W13_main_arg7 (c : Dev nD) : W13 m ρ c (Proc.devRef .tc main_arg7) = m ((c : Thread nD τ).loc main_arg7) :=
  calc W13 m ρ c (Proc.devRef .tc main_arg7)
    _ = W12 m ρ c (Proc.devRef .tc main_arg7) := W13_of_ne m ρ c main_arg7 (by decide)
    _ = W11 m ρ c (Proc.devRef .tc main_arg7) := W12_of m ρ c main_arg7 (by decide)
    _ = W10 m ρ c (Proc.devRef .tc main_arg7) := W11_in m ρ c 1 rfl
    _ = m ((c : Thread nD τ).loc main_arg7) := W10_main_arg7 m ρ c

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := W8_of m ρ c main_arg8 (by decide)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of m ρ c main_arg8 (by decide)
    _ = W0 m ρ c (Proc.devRef .tc main_arg8) := W1_of m ρ c main_arg8 (by decide)
    _ = m ((c : Thread nD τ).loc main_arg8) := rfl
theorem W13_main_arg8 (c : Dev nD) : W13 m ρ c (Proc.devRef .tc main_arg8) = m ((c : Thread nD τ).loc main_arg8) :=
  calc W13 m ρ c (Proc.devRef .tc main_arg8)
    _ = W12 m ρ c (Proc.devRef .tc main_arg8) := W13_of_ne m ρ c main_arg8 (by decide)
    _ = W11 m ρ c (Proc.devRef .tc main_arg8) := W12_of m ρ c main_arg8 (by decide)
    _ = W10 m ρ c (Proc.devRef .tc main_arg8) := W11_of_ne m ρ c main_arg8 (by decide)
    _ = W9 m ρ c (Proc.devRef .tc main_arg8) := W10_of m ρ c main_arg8 (by decide)
    _ = m ((c : Thread nD τ).loc main_arg8) := W9_main_arg8 m ρ c

/-! ## Intermediate arrays carried across items that do not write them -/

/-- The first projection leaves `main_v3` alone. -/
theorem W4_keep_v3 (c : Dev nD) : W4 m ρ c (Proc.devRef .tc main_v3) = W3 m ρ c (Proc.devRef .tc main_v3) :=
  W4_of_ne m ρ c main_v3 (by decide)
/-- So do the stretch after it, the first activation and the second projection. -/
theorem W7_keep_v3 (c : Dev nD) : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := W5_of m ρ c main_v3 (by decide)
    _ = W3 m ρ c (Proc.devRef .tc main_v3) := W4_keep_v3 m ρ c

/-- The first projection leaves `main_v6` alone. -/
theorem W4_keep_v6 (c : Dev nD) : W4 m ρ c (Proc.devRef .tc main_v6) = W3 m ρ c (Proc.devRef .tc main_v6) :=
  W4_of_ne m ρ c main_v6 (by decide)
/-- So do the stretch after it, the first activation and the second projection. -/
theorem W7_keep_v6 (c : Dev nD) : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := W5_of m ρ c main_v6 (by decide)
    _ = W3 m ρ c (Proc.devRef .tc main_v6) := W4_keep_v6 m ρ c

/-- The first projection leaves `main_v29` alone. -/
theorem W4_keep_v29 (c : Dev nD) : W4 m ρ c (Proc.devRef .tc main_v29) = W3 m ρ c (Proc.devRef .tc main_v29) :=
  W4_of_ne m ρ c main_v29 (by decide)
/-- So do the stretch after it, the first activation and the second projection. -/
theorem W7_keep_v29 (c : Dev nD) : W7 m ρ c (Proc.devRef .tc main_v29) = W3 m ρ c (Proc.devRef .tc main_v29) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := W5_of m ρ c main_v29 (by decide)
    _ = W3 m ρ c (Proc.devRef .tc main_v29) := W4_keep_v29 m ρ c

/-- The one reshape between the second activation and the third projection leaves the activation's result alone. -/
theorem W10_keep_v61 (c : Dev nD) : W10 m ρ c (Proc.devRef .tc main_v61) = W9 m ρ c (Proc.devRef .tc main_v61) :=
  W10_of m ρ c main_v61 (by decide)

/-! ## The proof data family and the thread state -/

/-- Every pipeline's proof data, each at the contents its region is entered from. -/
def pdats : (p : Fin 6) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c
  | ⟨3, _⟩ => fun c => dat3 (V8 m ρ) c
  | ⟨4, _⟩ => fun c => dat4 (V10 m ρ) c
  | ⟨5, _⟩ => fun c => dat5 (V12 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core
    owing nothing. -/
abbrev R (c : Dev nD) : sProp 𝕄 := iprop((∃ r, prngReg c r) ∗ ∃ W, owes (c : Thread nD τ) (0 : CellTallies nD τ sig Unit) W)
/-- A stretch of host operations as a segment: from the unscoped buffers at `W` to the same at what the operations
    leave, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the core owing nothing: every unscoped buffer at the last boundary's contents, the
    generator register at some state. -/
abbrev Tₙ (c : Dev nD) : sProp 𝕄 := iprop(StableHlo.held (c : Thread nD τ) (Pipeline.ucRefs τ sig) (W13 m ρ c) ∗ ∃ r, prngReg c r)

/-! ## The regions as segments -/

set_option backward.isDefEq.respectTransparency.types false in
/-- The first projection as a segment: entered from every unscoped buffer at `W3`, left at `W4`. Its windows' arrays
    are split out of the unscoped buffers at entry and put back at the exit contents; the generator register goes into
    the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The first bias and activation as a segment: entered from every unscoped buffer at `W5`, left at `W6`. Its windows' arrays
    are split out of the unscoped buffers at entry and put back at the exit contents; the generator register goes into
    the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second projection as a segment: entered from every unscoped buffer at `W6`, left at `W7`. Its windows' arrays
    are split out of the unscoped buffers at entry and put back at the exit contents; the generator register goes into
    the pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second bias and activation as a segment: entered from every unscoped buffer at `W8`, left at `W9`. Its windows' arrays
    are split out of the unscoped buffers at entry and put back at the exit contents; the generator register goes into
    the pipeline's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third projection as a segment: entered from every unscoped buffer at `W10`, left at `W11`. Its windows' arrays
    are split out of the unscoped buffers at entry and put back at the exit contents; the generator register goes into
    the pipeline's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V10 m ρ) c).loose
  hwaits := Pipeline.hwaits_of_owed_zero _ _ _ _ L lv 4 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec4 c (V10 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V10 m ρ c) (V11 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pooling as a segment: entered from every unscoped buffer at `W12`, left at `W13`. Its windows' arrays
    are split out of the unscoped buffers at entry and put back at the exit contents; the generator register goes into
    the pipeline's invariant and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V12 m ρ) c).loose
  hwaits := Pipeline.hwaits_of_owed_zero _ _ _ _ L lv 5 fun _ _ => rfl
  pre c := iprop(StableHlo.held (c : Thread nD τ) (Pipeline.ucRefs τ sig) (W12 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V12 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (V12 m ρ) c).Φ 0 from rfl]
    refine BIBase.Entails.trans ?_ (Φ5_in (V12 m ρ) c)
    iintro ⟨Hp, -, Hr⟩
    isplitl [Hp]; · iexact Hp
    iexact Hr
  hout c := by
    rw [Pipeline.ownSems0_none, show (pdats m ρ 5 c).Φ (Fin.last _) = (dat5 (V12 m ρ) c).Φ (Fin.last cfg5.N) from rfl]
    refine BIBase.Entails.trans (Φ5_out (V12 m ρ) c) ?_
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V12 m ρ c) (V13 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The thirteen items in order: a host segment per stretch from its boundary's contents, a region per kernel. -/
abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ),
    .host (hseg hostOps3 hostOps3_sub hostOps3_fresh (W7 m ρ)),
    .region (reg3 m ρ),
    .host (hseg hostOps4 hostOps4_sub hostOps4_fresh (W9 m ρ)),
    .region (reg4 m ρ),
    .host (hseg hostOps5 hostOps5_sub hostOps5_fresh (W11 m ρ)),
    .region (reg5 m ρ) ]
/-- The program is the run of its segments: it is the chain of its items, and so is the segments' run. -/
theorem main_run (c : Dev nD) : main (F := F) c = Pipeline.Seg.run (segs m ρ) := (main_chain c).trans (by chain_rfl)

set_option backward.isDefEq.respectTransparency.types false in
/-- THE RUN: from any memory with every counter at zero, every weakly fair execution of the program on the cores
    terminates, nothing faulting, and every final memory holds each unscoped buffer of each core at the last boundary's
    contents: the launch theorem over the segments, the last thread state read against the final state. -/
theorem run : θ_run defs (onTc (τ := τ) (main (F := F))) ⟨m, fun _ => 0, ρ⟩
    (fun r => ∀ c : Dev nD, ∀ b ∈ Pipeline.ucRefs τ sig, r.2.mem ((c : Thread nD τ).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- The run's result and arguments: every final memory holds the pooled array at what the last boundary's contents
    give it, and each argument as launched. -/
theorem run_result : θ_run defs (onTc (τ := τ) (main (F := F))) ⟨m, fun _ => 0, ρ⟩ (fun r => ∀ c : Dev nD,
      r.2.mem ((c.tc : Thread nD τ).loc main_v67) = W13 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨h c _ (mem_uc main_v67 (by decide)),
    (h c _ (mem_uc main_arg0 (by decide))).trans (W13_main_arg0 m ρ c),
    (h c _ (mem_uc main_arg1 (by decide))).trans (W13_main_arg1 m ρ c),
    (h c _ (mem_uc main_arg2 (by decide))).trans (W13_main_arg2 m ρ c),
    (h c _ (mem_uc main_arg3 (by decide))).trans (W13_main_arg3 m ρ c),
    (h c _ (mem_uc main_arg4 (by decide))).trans (W13_main_arg4 m ρ c),
    (h c _ (mem_uc main_arg5 (by decide))).trans (W13_main_arg5 m ρ c),
    (h c _ (mem_uc main_arg6 (by decide))).trans (W13_main_arg6 m ρ c),
    (h c _ (mem_uc main_arg7 (by decide))).trans (W13_main_arg7 m ρ c),
    (h c _ (mem_uc main_arg8 (by decide))).trans (W13_main_arg8 m ρ c)⟩) (run m ρ)

/-- The frame: every final memory holds each argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
    (h c _ (mem_uc main_arg0 (by decide))).trans (W13_main_arg0 m ρ c),
    (h c _ (mem_uc main_arg1 (by decide))).trans (W13_main_arg1 m ρ c),
    (h c _ (mem_uc main_arg2 (by decide))).trans (W13_main_arg2 m ρ c),
    (h c _ (mem_uc main_arg3 (by decide))).trans (W13_main_arg3 m ρ c),
    (h c _ (mem_uc main_arg4 (by decide))).trans (W13_main_arg4 m ρ c),
    (h c _ (mem_uc main_arg5 (by decide))).trans (W13_main_arg5 m ρ c),
    (h c _ (mem_uc main_arg6 (by decide))).trans (W13_main_arg6 m ρ c),
    (h c _ (mem_uc main_arg7 (by decide))).trans (W13_main_arg7 m ρ c),
    (h c _ (mem_uc main_arg8 (by decide))).trans (W13_main_arg8 m ρ c)⟩) (run m ρ)

end Cert.Kernel.Frame

end
-- ==== Proof.Ideal.Proj1.lean ====
/-
  A projection of the node rows, h = x · W, as the pipeline computes it: the 100000 rows in twenty blocks of 5000,
  each block's product with the whole weight matrix written to the matching block of the result.
  Stated at any contents `V` of the core's buffers when the region is entered: what each window's staging
  buffer holds at a point, what the body leaves in the result's buffer, and the body's obligation to the
  pipeline at every point.
-/
import proofs.«403423_j51041391345664_1_alg».proof.Proof.Gen.KernelIdeal.Launch
import proofs.«403423_j51041391345664_1_alg».proof.Proof.Gen.KernelIdeal.Skeleton
import proofs.«403423_j51041391345664_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The node rows' staging buffer holds the point's block of rows, fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weights' staging buffer holds the whole matrix at every point: fetched once, its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body reads and writes through. -/
abbrev rx0 : Rect S5000x7 := Rect.unit (s := S5000x7) ![0, 0] S5000x7.size inb_S5000x7_S5000x7_0_0
abbrev rw0 : Rect S7x64 := Rect.unit (s := S7x64) ![0, 0] S7x64.size inb_S7x64_S7x64_0_0
abbrev ro0 : Rect S5000x64 := Rect.unit (s := S5000x64) ![0, 0] S5000x64.size inb_S5000x64_S5000x64_0_0

/-- The result's staging buffer after the body: one store, the block of rows times the weights. -/
def out0_2 (x0 : Vec F S5000x7 .f32) (x1 : Vec F S7x64 .f32) : Vec F S5000x64 .f32 :=
  View.canon [⟨ro0, k0_pay1 (View.ld x0 rx0) (View.ld x1 rw0)⟩]

/-- The one store covers the buffer. -/
theorem cover0_2 (p0 : Vec F S5000x64 .f32) (y : S5000x64.Idx) :
    ∃ pc ∈ ([⟨ro0, p0⟩] : List (View.Piece (Elt F) S5000x64 .f32)), y ∈ pc.1.set :=
  View.cover_of_tiled [⟨ro0, p0⟩] S5000x64.size (by rfl) y

set_option maxHeartbeats 1000000 in
/-- The body on whole staging memrefs: the inputs' at `x0`, `x1` and the result's at anything; it runs to the
    continuation holding the inputs' as they were and the result's at `out0_2 x0 x1`. -/
theorem sound_kernel0 (c : Dev nD) (E : Set ℕ) (i : grid0.Coords) (arg1 : Memref sig .tc .vmem S5000x7 .f32) (harg1 : arg1.IsWhole)
    (arg2 : Memref sig .tc .vmem S7x64 .f32) (harg2 : arg2.IsWhole) (arg3 : Memref sig .tc .vmem S5000x64 .f32) (harg3 : arg3.IsWhole)
    (x0 : Vec F S5000x7 .f32) (x1 : Vec F S7x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline on core `c`: the arrays as the region finds them; after the body at point `t`
    each input's buffer at its block and the result's at the block product; the class invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.Ideal.Act1.lean ====
/-
  The activation after an aggregation, max(agg + b, 0), as the pipeline computes it: the 100000 aggregated node rows in twenty
  blocks of 5000, each block with the 1 × 64 bias row added to every row and clamped below at zero, written to the
  matching block of the result.
  Stated at any contents `V` of the core's buffers when the region is entered: what each window's staging
  buffer holds at a point, what the body leaves in the result's buffer, and the body's obligation to the
  pipeline at every point.
-/
import proofs.«403423_j51041391345664_1_alg».proof.Proof.Gen.KernelIdeal.Launch
import proofs.«403423_j51041391345664_1_alg».proof.Proof.Gen.KernelIdeal.Skeleton
import proofs.«403423_j51041391345664_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregated rows' staging buffer holds the point's block of rows, fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The bias row's staging buffer holds the whole row at every point: fetched once, its index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body reads and writes through. -/
abbrev rx1 : Rect S5000x64 := Rect.unit (s := S5000x64) ![0, 0] S5000x64.size inb_S5000x64_S5000x64_0_0
abbrev rb1 : Rect S1x64 := Rect.unit (s := S1x64) ![0, 0] S1x64.size inb_S1x64_S1x64_0_0
abbrev ro1 : Rect S5000x64 := Rect.unit (s := S5000x64) ![0, 0] S5000x64.size inb_S5000x64_S5000x64_0_0

/-- The result's staging buffer after the body: one store, the block of rows plus the bias row, clamped at zero. -/
def out1_2 (x0 : Vec F S5000x64 .f32) (x1 : Vec F S1x64 .f32) : Vec F S5000x64 .f32 :=
  View.canon [⟨ro1, k1_pay1 (View.ld x0 rx1) (View.ld x1 rb1)⟩]

/-- The one store covers the buffer. -/
theorem cover1_2 (p0 : Vec F S5000x64 .f32) (y : S5000x64.Idx) :
    ∃ pc ∈ ([⟨ro1, p0⟩] : List (View.Piece (Elt F) S5000x64 .f32)), y ∈ pc.1.set :=
  View.cover_of_tiled [⟨ro1, p0⟩] S5000x64.size (by rfl) y

set_option maxHeartbeats 1000000 in
/-- The body on whole staging memrefs: the inputs' at `x0`, `x1` and the result's at anything; it runs to the
    continuation holding the inputs' as they were and the result's at `out1_2 x0 x1`. -/
theorem sound_kernel1 (c : Dev nD) (E : Set ℕ) (i : grid1.Coords) (arg1 : Memref sig .tc .vmem S5000x64 .f32) (harg1 : arg1.IsWhole)
    (arg2 : Memref sig .tc .vmem S1x64 .f32) (harg2 : arg2.IsWhole) (arg3 : Memref sig .tc .vmem S5000x64 .f32) (harg3 : arg3.IsWhole)
    (x0 : Vec F S5000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this pipeline on core `c`: the arrays as the region finds them; after the body at point `t`
    each input's buffer at its block and the result's at the clamped sum; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.Ideal.Proj2.lean ====
/-
  A projection of the node rows, h = x · W, as the pipeline computes it: the 100000 rows in twenty blocks of 5000,
  each block's product with the whole weight matrix written to the matching block of the result.
  Stated at any contents `V` of the core's buffers when the region is entered: what each window's staging
  buffer holds at a point, what the body leaves in the result's buffer, and the body's obligation to the
  pipeline at every point.
-/
import proofs.«403423_j51041391345664_1_alg».proof.Proof.Gen.KernelIdeal.Launch
import proofs.«403423_j51041391345664_1_alg».proof.Proof.Gen.KernelIdeal.Skeleton
import proofs.«403423_j51041391345664_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The node rows' staging buffer holds the point's block of rows, fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weights' staging buffer holds the whole matrix at every point: fetched once, its index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body reads and writes through. -/
abbrev rx2 : Rect S5000x64 := Rect.unit (s := S5000x64) ![0, 0] S5000x64.size inb_S5000x64_S5000x64_0_0
abbrev rw2 : Rect S64x64 := Rect.unit (s := S64x64) ![0, 0] S64x64.size inb_S64x64_S64x64_0_0
abbrev ro2 : Rect S5000x64 := Rect.unit (s := S5000x64) ![0, 0] S5000x64.size inb_S5000x64_S5000x64_0_0

/-- The result's staging buffer after the body: one store, the block of rows times the weights. -/
def out2_2 (x0 : Vec F S5000x64 .f32) (x1 : Vec F S64x64 .f32) : Vec F S5000x64 .f32 :=
  View.canon [⟨ro2, k2_pay1 (View.ld x0 rx2) (View.ld x1 rw2)⟩]

/-- The one store covers the buffer. -/
theorem cover2_2 (p0 : Vec F S5000x64 .f32) (y : S5000x64.Idx) :
    ∃ pc ∈ ([⟨ro2, p0⟩] : List (View.Piece (Elt F) S5000x64 .f32)), y ∈ pc.1.set :=
  View.cover_of_tiled [⟨ro2, p0⟩] S5000x64.size (by rfl) y

set_option maxHeartbeats 1000000 in
/-- The body on whole staging memrefs: the inputs' at `x0`, `x1` and the result's at anything; it runs to the
    continuation holding the inputs' as they were and the result's at `out2_2 x0 x1`. -/
theorem sound_kernel2 (c : Dev nD) (E : Set ℕ) (i : grid2.Coords) (arg1 : Memref sig .tc .vmem S5000x64 .f32) (harg1 : arg1.IsWhole)
    (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of this pipeline on core `c`: the arrays as the region finds them; after the body at point `t`
    each input's buffer at its block and the result's at the block product; the class invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.Ideal.Act2.lean ====
/-
  The activation after an aggregation, max(agg + b, 0), as the pipeline computes it: the 100000 aggregated node rows in twenty
  blocks of 5000, each block with the 1 × 64 bias row added to every row and clamped below at zero, written to the
  matching block of the result.
  Stated at any contents `V` of the core's buffers when the region is entered: what each window's staging
  buffer holds at a point, what the body leaves in the result's buffer, and the body's obligation to the
  pipeline at every point.
-/
import proofs.«403423_j51041391345664_1_alg».proof.Proof.Gen.KernelIdeal.Launch
import proofs.«403423_j51041391345664_1_alg».proof.Proof.Gen.KernelIdeal.Skeleton
import proofs.«403423_j51041391345664_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The aggregated rows' staging buffer holds the point's block of rows, fetched at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The bias row's staging buffer holds the whole row at every point: fetched once, its index never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body reads and writes through. -/
abbrev rx3 : Rect S5000x64 := Rect.unit (s := S5000x64) ![0, 0] S5000x64.size inb_S5000x64_S5000x64_0_0
abbrev rb3 : Rect S1x64 := Rect.unit (s := S1x64) ![0, 0] S1x64.size inb_S1x64_S1x64_0_0
abbrev ro3 : Rect S5000x64 := Rect.unit (s := S5000x64) ![0, 0] S5000x64.size inb_S5000x64_S5000x64_0_0

/-- The result's staging buffer after the body: one store, the block of rows plus the bias row, clamped at zero. -/
def out3_2 (x0 : Vec F S5000x64 .f32) (x1 : Vec F S1x64 .f32) : Vec F S5000x64 .f32 :=
  View.canon [⟨ro3, k3_pay1 (View.ld x0 rx3) (View.ld x1 rb3)⟩]

/-- The one store covers the buffer. -/
theorem cover3_2 (p0 : Vec F S5000x64 .f32) (y : S5000x64.Idx) :
    ∃ pc ∈ ([⟨ro3, p0⟩] : List (View.Piece (Elt F) S5000x64 .f32)), y ∈ pc.1.set :=
  View.cover_of_tiled [⟨ro3, p0⟩] S5000x64.size (by rfl) y

set_option maxHeartbeats 1000000 in
/-- The body on whole staging memrefs: the inputs' at `x0`, `x1` and the result's at anything; it runs to the
    continuation holding the inputs' as they were and the result's at `out3_2 x0 x1`. -/
theorem sound_kernel3 (c : Dev nD) (E : Set ℕ) (i : grid3.Coords) (arg1 : Memref sig .tc .vmem S5000x64 .f32) (harg1 : arg1.IsWhole)
    (arg2 : Memref sig .tc .vmem S1x64 .f32) (harg2 : arg2.IsWhole) (arg3 : Memref sig .tc .vmem S5000x64 .f32) (harg3 : arg3.IsWhole)
    (x0 : Vec F S5000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of this pipeline on core `c`: the arrays as the region finds them; after the body at point `t`
    each input's buffer at its block and the result's at the clamped sum; the class invariant; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frame

end
-- ==== Proof.Ideal.Proj3.lean ====
/-
  The third projection, h · W + b, as the pipeline computes it: the 100000 node rows in twenty blocks of 5000,
  each block's product with the whole 64 × 32 weight matrix, plus the 1 × 32 bias row on every row, written to the
  matching block of the result.
  Stated at any contents `V` of the core's buffers when the region is entered: what each window's staging
  buffer holds at a point, what the body leaves in the result's buffer, and the body's obligation to the
  pipeline at every point.
-/
import proofs.«403423_j51041391345664_1_alg».proof.Proof.Gen.KernelIdeal.Launch
import proofs.«403423_j51041391345664_1_alg».proof.Proof.Gen.KernelIdeal.Skeleton
import proofs.«403423_j51041391345664_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The node rows' staging buffer holds the point's block of rows, fetched at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The weights' staging buffer holds the whole matrix at every point: fetched once, its index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- The bias row's staging buffer holds the whole row at every point: fetched once, its index never moves. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body reads and writes through. -/
abbrev rx4 : Rect S5000x64 := Rect.unit (s := S5000x64) ![0, 0] S5000x64.size inb_S5000x64_S5000x64_0_0
abbrev rw4 : Rect S64x32 := Rect.unit (s := S64x32) ![0, 0] S64x32.size inb_S64x32_S64x32_0_0
abbrev rb4 : Rect S1x32 := Rect.unit (s := S1x32) ![0, 0] S1x32.size inb_S1x32_S1x32_0_0
abbrev ro4 : Rect S5000x32 := Rect.unit (s := S5000x32) ![0, 0] S5000x32.size inb_S5000x32_S5000x32_0_0

/-- The result's staging buffer after the body: one store, the block of rows times the weights plus the bias row. -/
def out4_3 (x0 : Vec F S5000x64 .f32) (x1 : Vec F S64x32 .f32) (x2 : Vec F S1x32 .f32) : Vec F S5000x32 .f32 :=
  View.canon [⟨ro4, k4_pay1 (View.ld x0 rx4) (View.ld x1 rw4) (View.ld x2 rb4)⟩]

/-- The one store covers the buffer. -/
theorem cover4_3 (p0 : Vec F S5000x32 .f32) (y : S5000x32.Idx) :
    ∃ pc ∈ ([⟨ro4, p0⟩] : List (View.Piece (Elt F) S5000x32 .f32)), y ∈ pc.1.set :=
  View.cover_of_tiled [⟨ro4, p0⟩] S5000x32.size (by rfl) y

set_option maxHeartbeats 1000000 in
/-- The body on whole staging memrefs: the inputs' at `x0`, `x1`, `x2` and the result's at anything; it runs to
    the continuation holding the inputs' as they were and the result's at `out4_3 x0 x1 x2`. -/
theorem sound_kernel4 (c : Dev nD) (E : Set ℕ) (i : grid4.Coords) (arg1 : Memref sig .tc .vmem S5000x64 .f32) (harg1 : arg1.IsWhole)
    (arg2 : Memref sig .tc .vmem S64x32 .f32) (harg2 : arg2.IsWhole) (arg3 : Memref sig .tc .vmem S1x32 .f32) (harg3 : arg3.IsWhole)
    (arg4 : Memref sig .tc .vmem S5000x32 .f32) (harg4 : arg4.IsWhole)
    (x0 : Vec F S5000x64 .f32) (x1 : Vec F S64x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__matmul_bias_kernel i arg1 harg1 arg2 harg2 arg3 harg3 arg4 harg4) K := by
  simp only [cc4__matmul_bias_kernel_eq_skeleton]; unfold cc4__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of this pipeline on core `c`: the arrays as the region finds them; after the body at point `t`
    each input's buffer at its block and the result's at the block product plus the bias; the class invariant;
    nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and
    the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Frame

end
-- ==== Proof.Ideal.Pool.lean ====
/-
  The pooling kernel as the pipeline computes it: the 100000 augmented node rows (32 features and a column of
  ones) in twenty blocks of 5000, each block's rows added, per graph, into a 64 × 33 table of running sums kept in
  the kernel's scratch buffer; the table is zeroed at the first block and, after the last, its sums divided by the
  counts (at least one) are written to the result. Stated at any contents `V` of the core's buffers when the region
  is entered: what each window's staging buffer holds at a point, what the scratch holds between points, what the
  body leaves in the result's buffer, and the body's obligation to the pipeline at every point.
-/
import proofs.«403423_j51041391345664_1_alg».proof.Proof.Gen.KernelIdeal.Launch
import proofs.«403423_j51041391345664_1_alg».proof.Proof.Gen.KernelIdeal.Skeleton
import proofs.«403423_j51041391345664_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The graph ids' staging buffer holds the point's block of ids, fetched at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The augmented rows' staging buffer holds the point's block of rows, fetched at every point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles' offsets are zero. -/
theorem hz5 : (![0, 0] : Fin 2 → ℕ) = fun _ => 0 := funext fun a => by fin_cases a <;> rfl

/-- The condition of the body's first branch (the reset), from the grid coordinates. -/
abbrev cond5_1 (i : grid5.Coords) : Prop :=
  (Scalar.cmpi .ne (Scalar.extui (Scalar.cmpi .eq (BitVec.ofNat 32 (i 0).val) 0#32)) 0#32) = 1#1
/-- It holds at the first point only. -/
theorem hcond5_1 : ∀ t : Fin cfg5.N, cond5_1 (grid5.coords t) ↔ t.val = 0 :=
  (by decide +kernel : ∀ t : Fin grid5.N, cond5_1 (grid5.coords t) ↔ t.val = 0)
/-- The second branch's (the division) holds at the last point only. -/
theorem hcond5_2 : ∀ t : Fin cfg5.N, k5_cond2 (grid5.coords t) = 1#1 ↔ t.val = 19 :=
  (by decide +kernel : ∀ t : Fin grid5.N, k5_cond2 (grid5.coords t) = 1#1 ↔ t.val = 19)

/-- The whole-buffer rectangle of the table of sums, and of the result. -/
abbrev ra5 : Rect S64x33 := Rect.unit (s := S64x33) ![0, 0] S64x33.size inb_S64x33_S64x33_0_0
abbrev ro5 : Rect S64x32 := Rect.unit (s := S64x32) ![0, 0] S64x32.size inb_S64x32_S64x32_0_0

/-- One store through the whole-buffer rectangle covers the buffer. -/
theorem cover5_a (p0 : Vec F S64x33 .f32) (L : List (View.Piece (Elt F) S64x33 .f32)) (y : S64x33.Idx) :
    ∃ pc ∈ ((⟨ra5, p0⟩ :: L : List (View.Piece (Elt F) S64x33 .f32))), y ∈ pc.1.set :=
  ⟨_, List.mem_cons_self, View.mem_set_unit_zero hz5 inb_S64x33_S64x33_0_0 y⟩
theorem cover5_o (p0 : Vec F S64x32 .f32) (y : S64x32.Idx) :
    ∃ pc ∈ ([⟨ro5, p0⟩] : List (View.Piece (Elt F) S64x32 .f32)), y ∈ pc.1.set :=
  ⟨_, List.mem_cons_self, View.mem_set_unit_zero hz5 inb_S64x32_S64x32_0_0 y⟩

set_option maxHeartbeats 1000000 in
/-- The body at a middle point (neither branch taken), on whole memrefs: the blocks' at `x0`, `x1`, the result's at
    `d`, the table's at `a`; it runs to the continuation holding all as they were but the table, at the table plus
    the block's contribution. -/
theorem sound_kernel5_mid (c : Dev nD) (E : Set ℕ) (i : grid5.Coords) (hc1 : ¬cond5_1 i) (hc2 : ¬k5_cond2 i = 1#1)
    (arg1 : Memref sig .tc .vmem S5000x1 .i32) (harg1 : arg1.IsWhole) (arg2 : Memref sig .tc .vmem S5000x33 .f32) (harg2 : arg2.IsWhole)
    (arg3 : Memref sig .tc .vmem S64x32 .f32) (harg3 : arg3.IsWhole) (arg4 : Memref sig .tc .vmem S64x33 .f32) (harg4 : arg4.IsWhole)
    (x0 : Vec F S5000x1 .i32) (x1 : Vec F S5000x33 .f32) (d : Vec F S64x32 .f32) (a : Vec F S64x33 .f32) (K : PUnit → sProp 𝕄) :
    iprop(owns (c : Thread nD τ) arg1 fullShare x0 ∗ owns (c : Thread nD τ) arg2 fullShare x1 ∗ owns (c : Thread nD τ) arg3 fullShare d
        ∗ owns (c : Thread nD τ) arg4 fullShare a
        ∗ (iprop(owns (c : Thread nD τ) arg1 fullShare x0 ∗ owns (c : Thread nD τ) arg2 fullShare x1 ∗ owns (c : Thread nD τ) arg3 fullShare d
            ∗ owns (c : Thread nD τ) arg4 fullShare (k5_pay2 x0 x1 a)) -∗ K ⟨⟩))
      ⊢ wp frame (wpE (defs₀ (F := F)) Variants.none c none) E (cc5__pool_kernel i arg1 harg1 arg2 harg2 arg3 harg3 arg4 harg4) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover5_a _ _), View.canon_unit_zero hz5]
  simp only [View.readAt_eq_ld, View.ld_unit_zero (S := S5000x1) hz5, View.ld_unit_zero (S := S5000x33) hz5, View.ld_unit_zero (S := S64x33) hz5]

set_option maxHeartbeats 1000000 in
/-- The body at the first point (the reset taken, the division not): the table's buffer at anything; it ends at the
    zero table plus the block's contribution. -/
theorem sound_kernel5_first (c : Dev nD) (E : Set ℕ) (i : grid5.Coords) (hc1 : cond5_1 i) (hc2 : ¬k5_cond2 i = 1#1)
    (arg1 : Memref sig .tc .vmem S5000x1 .i32) (harg1 : arg1.IsWhole) (arg2 : Memref sig .tc .vmem S5000x33 .f32) (harg2 : arg2.IsWhole)
    (arg3 : Memref sig .tc .vmem S64x32 .f32) (harg3 : arg3.IsWhole) (arg4 : Memref sig .tc .vmem S64x33 .f32) (harg4 : arg4.IsWhole)
    (x0 : Vec F S5000x1 .i32) (x1 : Vec F S5000x33 .f32) (d : Vec F S64x32 .f32) (K : PUnit → sProp 𝕄) :
    iprop(owns (c : Thread nD τ) arg1 fullShare x0 ∗ owns (c : Thread nD τ) arg2 fullShare x1 ∗ owns (c : Thread nD τ) arg3 fullShare d
        ∗ (∃ a, owns (c : Thread nD τ) arg4 fullShare a)
        ∗ (iprop(owns (c : Thread nD τ) arg1 fullShare x0 ∗ owns (c : Thread nD τ) arg2 fullShare x1 ∗ owns (c : Thread nD τ) arg3 fullShare d
            ∗ owns (c : Thread nD τ) arg4 fullShare (k5_pay2 x0 x1 k5_pay1)) -∗ K ⟨⟩))
      ⊢ wp frame (wpE (defs₀ (F := F)) Variants.none c none) E (cc5__pool_kernel i arg1 harg1 arg2 harg2 arg3 harg3 arg4 harg4) K := by
  simp only [cc5__pool_kernel_eq_skeleton]; unfold cc5__pool_kernel_skel
  unfold owns
  iintro ⟨⟨%f0, %hf0, H0⟩, ⟨%f1, %hf1, H1⟩, ⟨%f2, %hf2, H2⟩, ⟨%a, %f3, -, H3⟩, Hk⟩
  subst hf0 hf1 hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (cover5_a _ _), View.canon_cons_unit_zero (S := S64x33) hz5,
    View.readCov_unit_zero (S := S64x33) _ hz5]
  simp only [View.readAt_eq_ld, View.ld_unit_zero (S := S5000x1) hz5, View.ld_unit_zero (S := S5000x33) hz5]

set_option maxHeartbeats 1000000 in
/-- The body at the last point (the reset not taken, the division taken): the result's buffer at anything; the table
    ends at the table plus the block's contribution and the result at that table's sums over its counts. -/
theorem sound_kernel5_last (c : Dev nD) (E : Set ℕ) (i : grid5.Coords) (hc1 : ¬cond5_1 i) (hc2 : k5_cond2 i = 1#1)
    (arg1 : Memref sig .tc .vmem S5000x1 .i32) (harg1 : arg1.IsWhole) (arg2 : Memref sig .tc .vmem S5000x33 .f32) (harg2 : arg2.IsWhole)
    (arg3 : Memref sig .tc .vmem S64x32 .f32) (harg3 : arg3.IsWhole) (arg4 : Memref sig .tc .vmem S64x33 .f32) (harg4 : arg4.IsWhole)
    (x0 : Vec F S5000x1 .i32) (x1 : Vec F S5000x33 .f32) (a : Vec F S64x33 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare a
        ∗ (iprop(owns (c : Thread nD τ) arg1 fullShare x0 ∗ owns (c : Thread nD τ) arg2 fullShare x1
            ∗ owns (c : Thread nD τ) arg3 fullShare (k5_pay3 (k5_pay2 x0 x1 a))
            ∗ owns (c : Thread nD τ) arg4 fullShare (k5_pay2 x0 x1 a)) -∗ K ⟨⟩))
      ⊢ wp frame (wpE (defs₀ (F := F)) Variants.none c none) E (cc5__pool_kernel i arg1 harg1 arg2 harg2 arg3 harg3 arg4 harg4) K := by
  simp only [cc5__pool_kernel_eq_skeleton]; unfold cc5__pool_kernel_skel
  unfold owns
  iintro ⟨⟨%f0, %hf0, H0⟩, ⟨%f1, %hf1, H1⟩, ⟨%d, %f2, -, H2⟩, ⟨%f3, %hf3, H3⟩, Hk⟩
  subst hf0 hf1 hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover5_o _), View.canon_unit_zero hz5, View.readCov_unit_zero (S := S64x33) _ hz5]
    simp only [View.readAt_eq_ld, View.ld_unit_zero (S := S5000x1) hz5, View.ld_unit_zero (S := S5000x33) hz5, View.ld_unit_zero (S := S64x33) hz5]
  iexists _; isplitr
  swap; · iexact H3
  ipureintro
  sl_unfold_words
  rw [View.read_writes_eq_canon _ _ _ (cover5_a _ _), View.canon_unit_zero hz5]
  simp only [View.readAt_eq_ld, View.ld_unit_zero (S := S5000x1) hz5, View.ld_unit_zero (S := S5000x33) hz5, View.ld_unit_zero (S := S64x33) hz5]

/-! ## The running sums and the proof data -/

/-- The table of running sums after the first `n` blocks: zeros, then block by block the table plus the block's
    one-hot graph membership, transposed, times the block's rows. -/
def acc5 (c : Dev nD) : ℕ → Vec F S64x33 .f32
  | 0 => k5_pay1
  | n + 1 => if h : n < cfg5.N then k5_pay2 (iblk5 V c 0 ⟨n, h⟩) (iblk5 V c 1 ⟨n, h⟩) (acc5 c n) else acc5 c n

theorem acc5_zero (c : Dev nD) : acc5 V c 0 = k5_pay1 := rfl

theorem acc5_succ (c : Dev nD) (n : ℕ) (h : n < cfg5.N) :
    acc5 V c (n + 1) = k5_pay2 (iblk5 V c 0 ⟨n, h⟩) (iblk5 V c 1 ⟨n, h⟩) (acc5 V c n) := by
  rw [acc5, dif_pos h]

/-- The kernel's invariant between points: before the first, the core's scoped buffers that are no staging buffer at
    any contents and its generator register; after `n` blocks, the scratch buffer whole at the running sums, the other
    scoped buffers at any contents, and the register. -/
def Φ5 (c : Dev nD) (n : ℕ) : sProp 𝕄 :=
  if n = 0 then Pipeline.ΦA spec5 c
  else iprop(owns (c : Thread nD τ) (Memref.whole cc5_scratch0) fullShare (acc5 V c n)
    ∗ Pipeline.scopedRestBut (Ix := Unit) (Name := ℕ) (U := UR sig nD τ) (Lvl := ℕ) (Val := Elt F) spec5 c [cc5_scratch0]
    ∗ ∃ r, prngReg c r)

theorem Φ5_zero (c : Dev nD) : Φ5 V c 0 = Pipeline.ΦA spec5 c := if_pos rfl
theorem Φ5_pos (c : Dev nD) (n : ℕ) (h : n ≠ 0) : Φ5 V c n = iprop(owns (c : Thread nD τ) (Memref.whole cc5_scratch0) fullShare (acc5 V c n)
    ∗ Pipeline.scopedRestBut (Ix := Unit) (Name := ℕ) (U := UR sig nD τ) (Lvl := ℕ) (Val := Elt F) spec5 c [cc5_scratch0]
    ∗ ∃ r, prngReg c r) := if_neg h

/-- The proof data of this pipeline on core `c`: the arrays as the region finds them; after the body at point `t`
    each input's buffer at its block and the result's at the quotient table of the sums so far (read at the last point
    only); the invariant carrying the running sums; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => k5_pay3 (acc5 V c (t.val + 1))
  Φ t := Φ5 V c t.val
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2' (c : Dev nD) (t : Fin cfg5.N) : (dat5 V c).after 2 t = k5_pay3 (acc5 V c (t.val + 1)) := by dsimp only [dat5]
theorem after5_2 (c : Dev nD) (t : Fin cfg5.N) (ht : t.val = 19) : (dat5 V c).after 2 t = k5_pay3 (acc5 V c 20) := by
  rw [after5_2', ht]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

theorem Φ_castSucc5 (c : Dev nD) (t : Fin cfg5.N) : (dat5 V c).Φ t.castSucc = Φ5 V c t.val := rfl
theorem Φ_succ5 (c : Dev nD) (t : Fin cfg5.N) : (dat5 V c).Φ t.succ = Φ5 V c (t.val + 1) := rfl

/-- The scratch buffer whole at contents `f` is owned, through its whole memref, at `f`; and back. -/
theorem scratch_owns (c : Dev nD) (f : Buf (Elt F) ((c : Thread nD τ).loc cc5_scratch0)) :
    ((((c : Thread nD τ).loc cc5_scratch0) ↦{fullShare} f) : sProp 𝕄) ⊢ owns (c : Thread nD τ) (Memref.whole cc5_scratch0) fullShare f :=
  Entails.of_eq (owns_whole (c : Thread nD τ) cc5_scratch0 fullShare f).symm
theorem owns_scratch (c : Dev nD) (f : Buf (Elt F) ((c : Thread nD τ).loc cc5_scratch0)) :
    (owns (c : Thread nD τ) (Memref.whole cc5_scratch0) fullShare f : sProp 𝕄) ⊢ (((c : Thread nD τ).loc cc5_scratch0) ↦{fullShare} f) :=
  Entails.of_eq (owns_whole (c : Thread nD τ) cc5_scratch0 fullShare f)

/-- Entering the region: the invariant before the first point is the scoped rest and the register as they are. -/
theorem Φ5_in (c : Dev nD) : (iprop((∃ r, prngReg c r) ∗ Pipeline.scopedRest (Ix := Unit) (Name := ℕ) (U := UR sig nD τ) (Lvl := ℕ) (Val := Elt F) spec5 c) : sProp 𝕄) ⊢ (dat5 V c).Φ 0 := by
  rw [show (dat5 V c).Φ 0 = Pipeline.ΦA spec5 c from Φ5_zero V c]
  unfold Pipeline.ΦA
  iintro ⟨Hr, Hs⟩
  isplitl [Hs]; · iexact Hs
  iexact Hr

/-- Leaving it: the invariant after the last point gives the scoped rest back, the scratch at its last contents. -/
theorem Φ5_out (c : Dev nD) : (dat5 V c).Φ (Fin.last cfg5.N) ⊢ (iprop(Pipeline.scopedRest (Ix := Unit) (Name := ℕ) (U := UR sig nD τ) (Lvl := ℕ) (Val := Elt F) spec5 c ∗ ∃ r, prngReg c r) : sProp 𝕄) := by
  rw [show (dat5 V c).Φ (Fin.last cfg5.N) = Φ5 V c 20 from rfl, Φ5_pos V c 20 (by decide), scopedRest5_split]
  iintro ⟨Ha, Hb, Hr⟩
  ihave Ha' := (owns_scratch c _) $$ Ha
  isplitr [Hr]
  · isplitl [Ha']
    · iexists _; iexact Ha'
    iexact Hb
  iexact Hr

/-! ## The body obligation -/

/-- The result's window is idle at every point but the last, -/
theorem idle5_2 : ∀ t : Fin cfg5.N, cfg5.idle 2 (cfg5.grid.coords t) = !decide (t.val = 19) :=
  (by decide +kernel : ∀ t : Fin grid5.N, idle5 2 (grid5.coords t) = !decide (t.val = 19))

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- what it returns at a point where the result's buffer is left as found, -/
def bodyPostIdle5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ (∃ d, owns (c : Thread nD τ) (st5_2 t) fullShare ((dat5 V c).before 2 t d)))

/-- and at the point that writes it. -/
def bodyPostLive5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at the first point: the scratch comes out of the scoped rest at anything, is zeroed and takes the first
    block's contribution; the result's buffer is handed back as found. -/
theorem sound_body5_first (c : Dev nD) (t : Fin cfg5.N) (h0 : t.val = 0) :
    bodyPre5 V c t ⊢ wp frame (wpE (defs₀ (F := F)) Variants.none c none) Set.univ (bodyAt5 t) (fun _ => bodyPostIdle5 V c t) := by
  unfold bodyPre5 bodyPostIdle5 bodyAt5
  simp only [before5_0, before5_1]
  rw [show (dat5 V c).owesAt () t.succ = (dat5 V c).owesAt () t.castSucc from rfl, after5_0, after5_1, Φ_castSucc5, Φ_succ5,
    show Φ5 V c t.val = Pipeline.ΦA spec5 c from by rw [h0]; exact Φ5_zero V c, Φ5_pos V c (t.val + 1) (Nat.succ_ne_zero _),
    show acc5 V c (t.val + 1) = k5_pay2 (iblk5 V c 0 t) (iblk5 V c 1 t) k5_pay1 from by
      rw [acc5_succ V c t.val t.isLt, show acc5 V c t.val = k5_pay1 from by rw [h0]; exact acc5_zero V c]]
  unfold Pipeline.ΦA
  rw [scopedRest5_split]
  iintro ⟨⟨⟨⟨%f, Hs⟩, Hb⟩, Hr⟩, Ho, ⟨%d0, H0⟩, ⟨%d1, H1⟩, ⟨%d2, H2⟩⟩
  ihave Hs' := (scratch_owns c f) $$ Hs
  iapply (sound_kernel5_first c Set.univ _ ((hcond5_1 t).mpr h0) (fun h => by have := (hcond5_2 t).mp h; omega)
    _ _ _ _ _ _ _ _ (iblk5 V c 0 t) (iblk5 V c 1 t) _ _)
  isplitl [H0]; · iexact H0
  isplitl [H1]; · iexact H1
  isplitl [H2]; · iexact H2
  isplitl [Hs']; · iexists _; iexact Hs'
  iintro ⟨H0, H1, H2, H3⟩
  isplitl [H3 Hb Hr]
  · isplitl [H3]; · iexact H3
    isplitl [Hb]; · iexact Hb
    iexact Hr
  isplitl [Ho]; · iexact Ho
  isplitl [H0]; · iexact H0
  isplitl [H1]; · iexact H1
  iexists _; iexact H2

/-- The body at a middle point: the scratch holds the sums so far and takes the block's contribution; the result's
    buffer is handed back as found. -/
theorem sound_body5_mid (c : Dev nD) (t : Fin cfg5.N) (h0 : t.val ≠ 0) (h19 : t.val ≠ 19) :
    bodyPre5 V c t ⊢ wp frame (wpE (defs₀ (F := F)) Variants.none c none) Set.univ (bodyAt5 t) (fun _ => bodyPostIdle5 V c t) := by
  unfold bodyPre5 bodyPostIdle5 bodyAt5
  simp only [before5_0, before5_1]
  rw [show (dat5 V c).owesAt () t.succ = (dat5 V c).owesAt () t.castSucc from rfl, after5_0, after5_1, Φ_castSucc5, Φ_succ5,
    Φ5_pos V c t.val h0, Φ5_pos V c (t.val + 1) (Nat.succ_ne_zero _), acc5_succ V c t.val t.isLt]
  iintro ⟨⟨Ha, Hb, Hr⟩, Ho, ⟨%d0, H0⟩, ⟨%d1, H1⟩, ⟨%d2, H2⟩⟩
  iapply (sound_kernel5_mid c Set.univ _ (fun h => h0 ((hcond5_1 t).mp h)) (fun h => h19 ((hcond5_2 t).mp h))
    _ _ _ _ _ _ _ _ (iblk5 V c 0 t) (iblk5 V c 1 t) _ (acc5 V c t.val) _)
  isplitl [H0]; · iexact H0
  isplitl [H1]; · iexact H1
  isplitl [H2]; · iexact H2
  isplitl [Ha]; · iexact Ha
  iintro ⟨H0, H1, H2, H3⟩
  isplitl [H3 Hb Hr]
  · isplitl [H3]; · iexact H3
    isplitl [Hb]; · iexact Hb
    iexact Hr
  isplitl [Ho]; · iexact Ho
  isplitl [H0]; · iexact H0
  isplitl [H1]; · iexact H1
  iexists _; iexact H2

/-- The body at the last point: the scratch takes the last block's contribution and the result's buffer the sums
    over the counts. -/
theorem sound_body5_last (c : Dev nD) (t : Fin cfg5.N) (h19 : t.val = 19) :
    bodyPre5 V c t ⊢ wp frame (wpE (defs₀ (F := F)) Variants.none c none) Set.univ (bodyAt5 t) (fun _ => bodyPostLive5 V c t) := by
  unfold bodyPre5 bodyPostLive5 bodyAt5
  simp only [before5_0, before5_1]
  rw [show (dat5 V c).owesAt () t.succ = (dat5 V c).owesAt () t.castSucc from rfl, after5_0, after5_1, after5_2', Φ_castSucc5, Φ_succ5,
    Φ5_pos V c t.val (by omega), Φ5_pos V c (t.val + 1) (Nat.succ_ne_zero _), acc5_succ V c t.val t.isLt]
  iintro ⟨⟨Ha, Hb, Hr⟩, Ho, ⟨%d0, H0⟩, ⟨%d1, H1⟩, ⟨%d2, H2⟩⟩
  iapply (sound_kernel5_last c Set.univ _ (fun h => by have := (hcond5_1 t).mp h; omega) ((hcond5_2 t).mpr h19)
    _ _ _ _ _ _ _ _ (iblk5 V c 0 t) (iblk5 V c 1 t) (acc5 V c t.val) _)
  isplitl [H0]; · iexact H0
  isplitl [H1]; · iexact H1
  isplitl [H2]; · iexists _; iexact H2
  isplitl [Ha]; · iexact Ha
  iintro ⟨H0, H1, H2, H3⟩
  isplitl [H3 Hb Hr]
  · isplitl [H3]; · iexact H3
    isplitl [Hb]; · iexact Hb
    iexact Hr
  isplitl [Ho]; · iexact Ho
  isplitl [H0]; · iexact H0
  isplitl [H1]; · iexact H1
  iexact H2

/-- The pipeline's body obligation, at every point: by the point's case. -/
theorem body_obligation5 (c : Dev nD) : BodyObligation (dat5 (F := F) V c) (defs₀ (F := F)) Variants.none () Set.univ := fun t => by
  rw [bigSep_W5, bigSep_W5]
  by_cases h19 : t.val = 19
  · have hi : cfg5.idle 2 (cfg5.grid.coords t) = false := by rw [idle5_2 t, h19]; rfl
    rw [hi]
    exact sound_body5_last V c t h19
  · have hi : cfg5.idle 2 (cfg5.grid.coords t) = true := by rw [idle5_2 t, decide_eq_false h19]; rfl
    have hf : (cfg5.win 2).flush t = false := Bool.eq_false_iff.mpr fun h => by
      have := (flush5_2 t).mp h; have hN : t.val < 20 := lt_of_lt_of_eq t.isLt (show cfg5.N = 20 from N_5); omega
    rw [hi, hf]
    by_cases h0 : t.val = 0
    · exact sound_body5_first V c t h0
    · exact sound_body5_mid V c t h0 h19

end Cert.KernelIdeal.Frame

end
-- ==== Proof.Ideal.Run.lean ====
/-
  The whole program from the launch to the return: three stretches of host operations, the first projection, a
  stretch, the first activation and the second projection, a stretch, the second activation, a stretch, the third
  projection, a stretch, the pooling. The contents of a core's buffers at each of the fourteen boundaries are a fold
  from the launch memory: a stretch of host operations acts as its operations do in order; a region leaves each of its
  windows' arrays at what its pipeline's write-backs fold to and every other buffer as it found it. Each region's proof
  data are taken at the contents the region is entered from. The thread state between two items is every unscoped
  buffer whole at the boundary's contents, the generator register at some state, nothing owed; the launch theorem for a
  list of segments then gives every final memory at the last boundary's contents, and the arguments read back
  through the fold to the launch memory.
-/
import proofs.«403423_j51041391345664_1_alg».proof.Proof.Gen.KernelIdeal.Launch
import proofs.«403423_j51041391345664_1_alg».proof.Proof.Gen.KernelIdeal.Regions
import proofs.«403423_j51041391345664_1_alg».proof.Proof.Gen.KernelIdeal.Points
import proofs.«403423_j51041391345664_1_alg».proof.Proof.Ideal.Proj1
import proofs.«403423_j51041391345664_1_alg».proof.Proof.Ideal.Act1
import proofs.«403423_j51041391345664_1_alg».proof.Proof.Ideal.Proj2
import proofs.«403423_j51041391345664_1_alg».proof.Proof.Ideal.Act2
import proofs.«403423_j51041391345664_1_alg».proof.Proof.Ideal.Proj3
import proofs.«403423_j51041391345664_1_alg».proof.Proof.Ideal.Pool
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)

/-- After the stretch `hostOps0`. -/
abbrev W1 : Dev nD → Valuation τ sig (Elt F) := fun c => StableHlo.after hostOps0 (W0 m ρ c)
/-- A reference the stretch does not write holds what it held. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- After the stretch `hostOps0_1`. -/
abbrev W2 : Dev nD → Valuation τ sig (Elt F) := fun c => StableHlo.after hostOps0_1 (W1 m ρ c)
/-- A reference the stretch does not write holds what it held. -/
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

/-- After the stretch `hostOps0_2`. -/
abbrev W3 : Dev nD → Valuation τ sig (Elt F) := fun c => StableHlo.after hostOps0_2 (W2 m ρ c)
/-- A reference the stretch does not write holds what it held. -/
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
/-- The same, read at the core's references: what the first projection is entered from. -/
abbrev V3 : (c : Dev nD) → (b : Ref sig .tc) → Buf (Elt F) ((c : Thread nD τ).loc b) := fun c b => W3 m ρ c b

/-- After the first projection: each of its windows' arrays at what the pipeline leaves (an input as entered, the result
    at its write-backs folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same, read at the core's references. -/
abbrev V4 : (c : Dev nD) → (b : Ref sig .tc) → Buf (Elt F) ((c : Thread nD τ).loc b) := fun c b => W4 m ρ c b
/-- An input window's array is as entered: nothing is written back to it. -/
theorem W4_in (c : Dev nD) (w : Fin cfg0.W) (hin : (cfg0.win w).isOut = false) :
    W4 m ρ c (Proc.devRef .tc (Pipeline.arrRef spec0 w)) = V3 m ρ c (Pipeline.arrRef spec0 w) :=
  (W4_arr m ρ c w).trans (((dat0 (V3 m ρ) c).arrAt_in w hin _).trans (A_eq0 (V3 m ρ) c w))
/-- At the exit each array holds what the pipeline leaves, every other buffer what it held at entry. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the stretch `hostOps1`. -/
abbrev W5 : Dev nD → Valuation τ sig (Elt F) := fun c => StableHlo.after hostOps1 (W4 m ρ c)
/-- A reference the stretch does not write holds what it held. -/
theorem W5_of (c : Dev nD) (r : Ref sig .tc) (h : r ∉ hostOps1_W) :
    W5 m ρ c (Proc.devRef .tc r) = W4 m ρ c (Proc.devRef .tc r) :=
  StableHlo.after_of_writes_sub hostOps1 _ hostOps1_writes h
/-- The same, read at the core's references: what the first bias and activation is entered from. -/
abbrev V5 : (c : Dev nD) → (b : Ref sig .tc) → Buf (Elt F) ((c : Thread nD τ).loc b) := fun c b => W5 m ρ c b

/-- After the first bias and activation: each of its windows' arrays at what the pipeline leaves (an input as entered, the result
    at its write-backs folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same, read at the core's references. -/
abbrev V6 : (c : Dev nD) → (b : Ref sig .tc) → Buf (Elt F) ((c : Thread nD τ).loc b) := fun c b => W6 m ρ c b
/-- An input window's array is as entered: nothing is written back to it. -/
theorem W6_in (c : Dev nD) (w : Fin cfg1.W) (hin : (cfg1.win w).isOut = false) :
    W6 m ρ c (Proc.devRef .tc (Pipeline.arrRef spec1 w)) = V5 m ρ c (Pipeline.arrRef spec1 w) :=
  (W6_arr m ρ c w).trans (((dat1 (V5 m ρ) c).arrAt_in w hin _).trans (A_eq1 (V5 m ρ) c w))
/-- At the exit each array holds what the pipeline leaves, every other buffer what it held at entry. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the second projection: each of its windows' arrays at what the pipeline leaves (an input as entered, the result
    at its write-backs folded), every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
/-- The same, read at the core's references. -/
abbrev V7 : (c : Dev nD) → (b : Ref sig .tc) → Buf (Elt F) ((c : Thread nD τ).loc b) := fun c b => W7 m ρ c b
/-- An input window's array is as entered: nothing is written back to it. -/
theorem W7_in (c : Dev nD) (w : Fin cfg2.W) (hin : (cfg2.win w).isOut = false) :
    W7 m ρ c (Proc.devRef .tc (Pipeline.arrRef spec2 w)) = V6 m ρ c (Pipeline.arrRef spec2 w) :=
  (W7_arr m ρ c w).trans (((dat2 (V6 m ρ) c).arrAt_in w hin _).trans (A_eq2 (V6 m ρ) c w))
/-- At the exit each array holds what the pipeline leaves, every other buffer what it held at entry. -/
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After the stretch `hostOps3`. -/
abbrev W8 : Dev nD → Valuation τ sig (Elt F) := fun c => StableHlo.after hostOps3 (W7 m ρ c)
/-- A reference the stretch does not write holds what it held. -/
theorem W8_of (c : Dev nD) (r : Ref sig .tc) (h : r ∉ hostOps3_W) :
    W8 m ρ c (Proc.devRef .tc r) = W7 m ρ c (Proc.devRef .tc r) :=
  StableHlo.after_of_writes_sub hostOps3 _ hostOps3_writes h
/-- The same, read at the core's references: what the second bias and activation is entered from. -/
abbrev V8 : (c : Dev nD) → (b : Ref sig .tc) → Buf (Elt F) ((c : Thread nD τ).loc b) := fun c b => W8 m ρ c b

/-- After the second bias and activation: each of its windows' arrays at what the pipeline leaves (an input as entered, the result
    at its write-backs folded), every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
/-- The same, read at the core's references. -/
abbrev V9 : (c : Dev nD) → (b : Ref sig .tc) → Buf (Elt F) ((c : Thread nD τ).loc b) := fun c b => W9 m ρ c b
/-- An input window's array is as entered: nothing is written back to it. -/
theorem W9_in (c : Dev nD) (w : Fin cfg3.W) (hin : (cfg3.win w).isOut = false) :
    W9 m ρ c (Proc.devRef .tc (Pipeline.arrRef spec3 w)) = V8 m ρ c (Pipeline.arrRef spec3 w) :=
  (W9_arr m ρ c w).trans (((dat3 (V8 m ρ) c).arrAt_in w hin _).trans (A_eq3 (V8 m ρ) c w))
/-- At the exit each array holds what the pipeline leaves, every other buffer what it held at entry. -/
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-- After the stretch `hostOps4`. -/
abbrev W10 : Dev nD → Valuation τ sig (Elt F) := fun c => StableHlo.after hostOps4 (W9 m ρ c)
/-- A reference the stretch does not write holds what it held. -/
theorem W10_of (c : Dev nD) (r : Ref sig .tc) (h : r ∉ hostOps4_W) :
    W10 m ρ c (Proc.devRef .tc r) = W9 m ρ c (Proc.devRef .tc r) :=
  StableHlo.after_of_writes_sub hostOps4 _ hostOps4_writes h
/-- The same, read at the core's references: what the third projection is entered from. -/
abbrev V10 : (c : Dev nD) → (b : Ref sig .tc) → Buf (Elt F) ((c : Thread nD τ).loc b) := fun c b => W10 m ρ c b

/-- After the third projection: each of its windows' arrays at what the pipeline leaves (an input as entered, the result
    at its write-backs folded), every other buffer as entered. -/
def W11 (c : Dev nD) : Valuation τ sig (Elt F) :=
  Pipeline.withArrays spec4 c (W10 m ρ c) fun w => (dat4 (V10 m ρ) c).arrAt w cfg4.N
theorem W11_arr (c : Dev nD) (w : Fin cfg4.W) :
    W11 m ρ c (Proc.devRef .tc (Pipeline.arrRef spec4 w)) = (dat4 (V10 m ρ) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m ρ c (Proc.devRef .tc b) = W10 m ρ c (Proc.devRef .tc b) := by
  unfold W11; exact Pipeline.withArrays_of_ne spec4 c _ _ b hb
/-- The same, read at the core's references. -/
abbrev V11 : (c : Dev nD) → (b : Ref sig .tc) → Buf (Elt F) ((c : Thread nD τ).loc b) := fun c b => W11 m ρ c b
/-- An input window's array is as entered: nothing is written back to it. -/
theorem W11_in (c : Dev nD) (w : Fin cfg4.W) (hin : (cfg4.win w).isOut = false) :
    W11 m ρ c (Proc.devRef .tc (Pipeline.arrRef spec4 w)) = V10 m ρ c (Pipeline.arrRef spec4 w) :=
  (W11_arr m ρ c w).trans (((dat4 (V10 m ρ) c).arrAt_in w hin _).trans (A_eq4 (V10 m ρ) c w))
/-- At the exit each array holds what the pipeline leaves, every other buffer what it held at entry. -/
theorem hF4 (c : Dev nD) (w : Fin cfg4.W) : (dat4 (V10 m ρ) c).arrAt w cfg4.N = V11 m ρ c (Pipeline.arrRef spec4 w) :=
  (W11_arr m ρ c w).symm
theorem hrest4 (c : Dev nD) : ∀ b, b ∉ Finset.univ.image (Pipeline.arrRef spec4) → V11 m ρ c b = V10 m ρ c b :=
  fun b hb => W11_of_ne m ρ c b fun w e => hb (Finset.mem_image.mpr ⟨w, Finset.mem_univ _, e⟩)

/-- After the stretch `hostOps5`. -/
abbrev W12 : Dev nD → Valuation τ sig (Elt F) := fun c => StableHlo.after hostOps5 (W11 m ρ c)
/-- A reference the stretch does not write holds what it held. -/
theorem W12_of (c : Dev nD) (r : Ref sig .tc) (h : r ∉ hostOps5_W) :
    W12 m ρ c (Proc.devRef .tc r) = W11 m ρ c (Proc.devRef .tc r) :=
  StableHlo.after_of_writes_sub hostOps5 _ hostOps5_writes h
/-- The same, read at the core's references: what the pooling is entered from. -/
abbrev V12 : (c : Dev nD) → (b : Ref sig .tc) → Buf (Elt F) ((c : Thread nD τ).loc b) := fun c b => W12 m ρ c b

/-- After the pooling: each of its windows' arrays at what the pipeline leaves (an input as entered, the result
    at its write-backs folded), every other buffer as entered. -/
def W13 (c : Dev nD) : Valuation τ sig (Elt F) :=
  Pipeline.withArrays spec5 c (W12 m ρ c) fun w => (dat5 (V12 m ρ) c).arrAt w cfg5.N
theorem W13_arr (c : Dev nD) (w : Fin cfg5.W) :
    W13 m ρ c (Proc.devRef .tc (Pipeline.arrRef spec5 w)) = (dat5 (V12 m ρ) c).arrAt w cfg5.N := by
  unfold W13; exact Pipeline.withArrays_arr spec5 launch5.win.arr_inj c _ _ w
theorem W13_of_ne (c : Dev nD) (b : Ref sig .tc) (hb : ∀ w, Pipeline.arrRef spec5 w ≠ b) :
    W13 m ρ c (Proc.devRef .tc b) = W12 m ρ c (Proc.devRef .tc b) := by
  unfold W13; exact Pipeline.withArrays_of_ne spec5 c _ _ b hb
/-- The same, read at the core's references. -/
abbrev V13 : (c : Dev nD) → (b : Ref sig .tc) → Buf (Elt F) ((c : Thread nD τ).loc b) := fun c b => W13 m ρ c b
/-- An input window's array is as entered: nothing is written back to it. -/
theorem W13_in (c : Dev nD) (w : Fin cfg5.W) (hin : (cfg5.win w).isOut = false) :
    W13 m ρ c (Proc.devRef .tc (Pipeline.arrRef spec5 w)) = V12 m ρ c (Pipeline.arrRef spec5 w) :=
  (W13_arr m ρ c w).trans (((dat5 (V12 m ρ) c).arrAt_in w hin _).trans (A_eq5 (V12 m ρ) c w))
/-- At the exit each array holds what the pipeline leaves, every other buffer what it held at entry. -/
theorem hF5 (c : Dev nD) (w : Fin cfg5.W) : (dat5 (V12 m ρ) c).arrAt w cfg5.N = V13 m ρ c (Pipeline.arrRef spec5 w) :=
  (W13_arr m ρ c w).symm
theorem hrest5 (c : Dev nD) : ∀ b, b ∉ Finset.univ.image (Pipeline.arrRef spec5) → V13 m ρ c b = V12 m ρ c b :=
  fun b hb => W13_of_ne m ρ c b fun w e => hb (Finset.mem_image.mpr ⟨w, Finset.mem_univ _, e⟩)

/-! ## The arguments end as launched

No stretch writes an argument, and a region either passes it by or reads it through an input window, so the fold at an
argument's buffer walks back to the launch memory: stated at the boundary where the argument is last read, and at the
last boundary. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of m ρ c main_arg0 (by decide)
    _ = W1 m ρ c (Proc.devRef .tc main_arg0) := W2_of m ρ c main_arg0 (by decide)
    _ = W0 m ρ c (Proc.devRef .tc main_arg0) := W1_of m ρ c main_arg0 (by decide)
    _ = m ((c : Thread nD τ).loc main_arg0) := rfl
theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := W13_of_ne m ρ c main_arg0 (by decide)
    _ = W11 m ρ c (Proc.devRef .tc main_arg0) := W12_of m ρ c main_arg0 (by decide)
    _ = W10 m ρ c (Proc.devRef .tc main_arg0) := W11_of_ne m ρ c main_arg0 (by decide)
    _ = W9 m ρ c (Proc.devRef .tc main_arg0) := W10_of m ρ c main_arg0 (by decide)
    _ = W8 m ρ c (Proc.devRef .tc main_arg0) := W9_of_ne m ρ c main_arg0 (by decide)
    _ = W7 m ρ c (Proc.devRef .tc main_arg0) := W8_of m ρ c main_arg0 (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_in m ρ c 0 rfl
    _ = m ((c : Thread nD τ).loc main_arg0) := W3_main_arg0 m ρ c

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of m ρ c main_arg1 (by decide)
    _ = W1 m ρ c (Proc.devRef .tc main_arg1) := W2_of m ρ c main_arg1 (by decide)
    _ = W0 m ρ c (Proc.devRef .tc main_arg1) := W1_of m ρ c main_arg1 (by decide)
    _ = m ((c : Thread nD τ).loc main_arg1) := rfl
theorem W13_main_arg1 (c : Dev nD) : W13 m ρ c (Proc.devRef .tc main_arg1) = m ((c : Thread nD τ).loc main_arg1) :=
  calc W13 m ρ c (Proc.devRef .tc main_arg1)
    _ = W12 m ρ c (Proc.devRef .tc main_arg1) := W13_of_ne m ρ c main_arg1 (by decide)
    _ = W11 m ρ c (Proc.devRef .tc main_arg1) := W12_of m ρ c main_arg1 (by decide)
    _ = W10 m ρ c (Proc.devRef .tc main_arg1) := W11_of_ne m ρ c main_arg1 (by decide)
    _ = W9 m ρ c (Proc.devRef .tc main_arg1) := W10_of m ρ c main_arg1 (by decide)
    _ = W8 m ρ c (Proc.devRef .tc main_arg1) := W9_of_ne m ρ c main_arg1 (by decide)
    _ = W7 m ρ c (Proc.devRef .tc main_arg1) := W8_of m ρ c main_arg1 (by decide)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = m ((c : Thread nD τ).loc main_arg1) := W3_main_arg1 m ρ c

theorem W11_main_arg2 (c : Dev nD) : W11 m ρ c (Proc.devRef .tc main_arg2) = m ((c : Thread nD τ).loc main_arg2) :=
  calc W11 m ρ c (Proc.devRef .tc main_arg2)
    _ = W10 m ρ c (Proc.devRef .tc main_arg2) := W11_of_ne m ρ c main_arg2 (by decide)
    _ = W9 m ρ c (Proc.devRef .tc main_arg2) := W10_of m ρ c main_arg2 (by decide)
    _ = W8 m ρ c (Proc.devRef .tc main_arg2) := W9_of_ne m ρ c main_arg2 (by decide)
    _ = W7 m ρ c (Proc.devRef .tc main_arg2) := W8_of m ρ c main_arg2 (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of m ρ c main_arg2 (by decide)
    _ = W0 m ρ c (Proc.devRef .tc main_arg2) := W1_of m ρ c main_arg2 (by decide)
    _ = m ((c : Thread nD τ).loc main_arg2) := rfl
theorem W13_main_arg2 (c : Dev nD) : W13 m ρ c (Proc.devRef .tc main_arg2) = m ((c : Thread nD τ).loc main_arg2) :=
  calc W13 m ρ c (Proc.devRef .tc main_arg2)
    _ = W12 m ρ c (Proc.devRef .tc main_arg2) := W13_of_ne m ρ c main_arg2 (by decide)
    _ = W11 m ρ c (Proc.devRef .tc main_arg2) := W12_of m ρ c main_arg2 (by decide)
    _ = m ((c : Thread nD τ).loc main_arg2) := W11_main_arg2 m ρ c

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of m ρ c main_arg3 (by decide)
    _ = W1 m ρ c (Proc.devRef .tc main_arg3) := W2_of m ρ c main_arg3 (by decide)
    _ = W0 m ρ c (Proc.devRef .tc main_arg3) := W1_of m ρ c main_arg3 (by decide)
    _ = m ((c : Thread nD τ).loc main_arg3) := rfl
theorem W13_main_arg3 (c : Dev nD) : W13 m ρ c (Proc.devRef .tc main_arg3) = m ((c : Thread nD τ).loc main_arg3) :=
  calc W13 m ρ c (Proc.devRef .tc main_arg3)
    _ = W12 m ρ c (Proc.devRef .tc main_arg3) := W13_of_ne m ρ c main_arg3 (by decide)
    _ = W11 m ρ c (Proc.devRef .tc main_arg3) := W12_of m ρ c main_arg3 (by decide)
    _ = W10 m ρ c (Proc.devRef .tc main_arg3) := W11_of_ne m ρ c main_arg3 (by decide)
    _ = W9 m ρ c (Proc.devRef .tc main_arg3) := W10_of m ρ c main_arg3 (by decide)
    _ = W8 m ρ c (Proc.devRef .tc main_arg3) := W9_of_ne m ρ c main_arg3 (by decide)
    _ = W7 m ρ c (Proc.devRef .tc main_arg3) := W8_of m ρ c main_arg3 (by decide)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_in m ρ c 1 rfl
    _ = m ((c : Thread nD τ).loc main_arg3) := W3_main_arg3 m ρ c

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of m ρ c main_arg4 (by decide)
    _ = W0 m ρ c (Proc.devRef .tc main_arg4) := W1_of m ρ c main_arg4 (by decide)
    _ = m ((c : Thread nD τ).loc main_arg4) := rfl
theorem W13_main_arg4 (c : Dev nD) : W13 m ρ c (Proc.devRef .tc main_arg4) = m ((c : Thread nD τ).loc main_arg4) :=
  calc W13 m ρ c (Proc.devRef .tc main_arg4)
    _ = W12 m ρ c (Proc.devRef .tc main_arg4) := W13_of_ne m ρ c main_arg4 (by decide)
    _ = W11 m ρ c (Proc.devRef .tc main_arg4) := W12_of m ρ c main_arg4 (by decide)
    _ = W10 m ρ c (Proc.devRef .tc main_arg4) := W11_of_ne m ρ c main_arg4 (by decide)
    _ = W9 m ρ c (Proc.devRef .tc main_arg4) := W10_of m ρ c main_arg4 (by decide)
    _ = W8 m ρ c (Proc.devRef .tc main_arg4) := W9_of_ne m ρ c main_arg4 (by decide)
    _ = W7 m ρ c (Proc.devRef .tc main_arg4) := W8_of m ρ c main_arg4 (by decide)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = m ((c : Thread nD τ).loc main_arg4) := W4_main_arg4 m ρ c

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of m ρ c main_arg5 (by decide)
    _ = W0 m ρ c (Proc.devRef .tc main_arg5) := W1_of m ρ c main_arg5 (by decide)
    _ = m ((c : Thread nD τ).loc main_arg5) := rfl
theorem W13_main_arg5 (c : Dev nD) : W13 m ρ c (Proc.devRef .tc main_arg5) = m ((c : Thread nD τ).loc main_arg5) :=
  calc W13 m ρ c (Proc.devRef .tc main_arg5)
    _ = W12 m ρ c (Proc.devRef .tc main_arg5) := W13_of_ne m ρ c main_arg5 (by decide)
    _ = W11 m ρ c (Proc.devRef .tc main_arg5) := W12_of m ρ c main_arg5 (by decide)
    _ = W10 m ρ c (Proc.devRef .tc main_arg5) := W11_of_ne m ρ c main_arg5 (by decide)
    _ = W9 m ρ c (Proc.devRef .tc main_arg5) := W10_of m ρ c main_arg5 (by decide)
    _ = W8 m ρ c (Proc.devRef .tc main_arg5) := W9_of_ne m ρ c main_arg5 (by decide)
    _ = W7 m ρ c (Proc.devRef .tc main_arg5) := W8_of m ρ c main_arg5 (by decide)
    _ = W6 m ρ c (Proc.devRef .tc main_arg5) := W7_in m ρ c 1 rfl
    _ = m ((c : Thread nD τ).loc main_arg5) := W6_main_arg5 m ρ c

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of m ρ c main_arg6 (by decide)
    _ = W0 m ρ c (Proc.devRef .tc main_arg6) := W1_of m ρ c main_arg6 (by decide)
    _ = m ((c : Thread nD τ).loc main_arg6) := rfl
theorem W13_main_arg6 (c : Dev nD) : W13 m ρ c (Proc.devRef .tc main_arg6) = m ((c : Thread nD τ).loc main_arg6) :=
  calc W13 m ρ c (Proc.devRef .tc main_arg6)
    _ = W12 m ρ c (Proc.devRef .tc main_arg6) := W13_of_ne m ρ c main_arg6 (by decide)
    _ = W11 m ρ c (Proc.devRef .tc main_arg6) := W12_of m ρ c main_arg6 (by decide)
    _ = W10 m ρ c (Proc.devRef .tc main_arg6) := W11_of_ne m ρ c main_arg6 (by decide)
    _ = W9 m ρ c (Proc.devRef .tc main_arg6) := W10_of m ρ c main_arg6 (by decide)
    _ = W8 m ρ c (Proc.devRef .tc main_arg6) := W9_of_ne m ρ c main_arg6 (by decide)
    _ = W7 m ρ c (Proc.devRef .tc main_arg6) := W8_of m ρ c main_arg6 (by decide)
    _ = m ((c : Thread nD τ).loc main_arg6) := W7_main_arg6 m ρ c

theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of m ρ c main_arg7 (by decide)
    _ = W8 m ρ c (Proc.devRef .tc main_arg7) := W9_of_ne m ρ c main_arg7 (by decide)
    _ = W7 m ρ c (Proc.devRef .tc main_arg7) := W8_of m ρ c main_arg7 (by decide)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of m ρ c main_arg7 (by decide)
    _ = W0 m ρ c (Proc.devRef .tc main_arg7) := W1_of m ρ c main_arg7 (by decide)
    _ = m ((c : Thread nD τ).loc main_arg7) := rfl
theorem W13_main_arg7 (c : Dev nD) : W13 m ρ c (Proc.devRef .tc main_arg7) = m ((c : Thread nD τ).loc main_arg7) :=
  calc W13 m ρ c (Proc.devRef .tc main_arg7)
    _ = W12 m ρ c (Proc.devRef .tc main_arg7) := W13_of_ne m ρ c main_arg7 (by decide)
    _ = W11 m ρ c (Proc.devRef .tc main_arg7) := W12_of m ρ c main_arg7 (by decide)
    _ = W10 m ρ c (Proc.devRef .tc main_arg7) := W11_in m ρ c 1 rfl
    _ = m ((c : Thread nD τ).loc main_arg7) := W10_main_arg7 m ρ c

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := W8_of m ρ c main_arg8 (by decide)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of m ρ c main_arg8 (by decide)
    _ = W0 m ρ c (Proc.devRef .tc main_arg8) := W1_of m ρ c main_arg8 (by decide)
    _ = m ((c : Thread nD τ).loc main_arg8) := rfl
theorem W13_main_arg8 (c : Dev nD) : W13 m ρ c (Proc.devRef .tc main_arg8) = m ((c : Thread nD τ).loc main_arg8) :=
  calc W13 m ρ c (Proc.devRef .tc main_arg8)
    _ = W12 m ρ c (Proc.devRef .tc main_arg8) := W13_of_ne m ρ c main_arg8 (by decide)
    _ = W11 m ρ c (Proc.devRef .tc main_arg8) := W12_of m ρ c main_arg8 (by decide)
    _ = W10 m ρ c (Proc.devRef .tc main_arg8) := W11_of_ne m ρ c main_arg8 (by decide)
    _ = W9 m ρ c (Proc.devRef .tc main_arg8) := W10_of m ρ c main_arg8 (by decide)
    _ = m ((c : Thread nD τ).loc main_arg8) := W9_main_arg8 m ρ c

/-! ## Intermediate arrays carried across items that do not write them -/

/-- The first projection leaves `main_v3` alone. -/
theorem W4_keep_v3 (c : Dev nD) : W4 m ρ c (Proc.devRef .tc main_v3) = W3 m ρ c (Proc.devRef .tc main_v3) :=
  W4_of_ne m ρ c main_v3 (by decide)
/-- So do the stretch after it, the first activation and the second projection. -/
theorem W7_keep_v3 (c : Dev nD) : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := W5_of m ρ c main_v3 (by decide)
    _ = W3 m ρ c (Proc.devRef .tc main_v3) := W4_keep_v3 m ρ c

/-- The first projection leaves `main_v6` alone. -/
theorem W4_keep_v6 (c : Dev nD) : W4 m ρ c (Proc.devRef .tc main_v6) = W3 m ρ c (Proc.devRef .tc main_v6) :=
  W4_of_ne m ρ c main_v6 (by decide)
/-- So do the stretch after it, the first activation and the second projection. -/
theorem W7_keep_v6 (c : Dev nD) : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := W5_of m ρ c main_v6 (by decide)
    _ = W3 m ρ c (Proc.devRef .tc main_v6) := W4_keep_v6 m ρ c

/-- The first projection leaves `main_v29` alone. -/
theorem W4_keep_v29 (c : Dev nD) : W4 m ρ c (Proc.devRef .tc main_v29) = W3 m ρ c (Proc.devRef .tc main_v29) :=
  W4_of_ne m ρ c main_v29 (by decide)
/-- So do the stretch after it, the first activation and the second projection. -/
theorem W7_keep_v29 (c : Dev nD) : W7 m ρ c (Proc.devRef .tc main_v29) = W3 m ρ c (Proc.devRef .tc main_v29) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := W5_of m ρ c main_v29 (by decide)
    _ = W3 m ρ c (Proc.devRef .tc main_v29) := W4_keep_v29 m ρ c

/-- The one reshape between the second activation and the third projection leaves the activation's result alone. -/
theorem W10_keep_v61 (c : Dev nD) : W10 m ρ c (Proc.devRef .tc main_v61) = W9 m ρ c (Proc.devRef .tc main_v61) :=
  W10_of m ρ c main_v61 (by decide)

/-! ## The proof data family and the thread state -/

/-- Every pipeline's proof data, each at the contents its region is entered from. -/
def pdats : (p : Fin 6) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c
  | ⟨3, _⟩ => fun c => dat3 (V8 m ρ) c
  | ⟨4, _⟩ => fun c => dat4 (V10 m ρ) c
  | ⟨5, _⟩ => fun c => dat5 (V12 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core
    owing nothing. -/
abbrev R (c : Dev nD) : sProp 𝕄 := iprop((∃ r, prngReg c r) ∗ ∃ W, owes (c : Thread nD τ) (0 : CellTallies nD τ sig Unit) W)
/-- A stretch of host operations as a segment: from the unscoped buffers at `W` to the same at what the operations
    leave, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the core owing nothing: every unscoped buffer at the last boundary's contents, the
    generator register at some state. -/
abbrev Tₙ (c : Dev nD) : sProp 𝕄 := iprop(StableHlo.held (c : Thread nD τ) (Pipeline.ucRefs τ sig) (W13 m ρ c) ∗ ∃ r, prngReg c r)

/-! ## The regions as segments -/

set_option backward.isDefEq.respectTransparency.types false in
/-- The first projection as a segment: entered from every unscoped buffer at `W3`, left at `W4`. Its windows' arrays
    are split out of the unscoped buffers at entry and put back at the exit contents; the generator register goes into
    the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The first bias and activation as a segment: entered from every unscoped buffer at `W5`, left at `W6`. Its windows' arrays
    are split out of the unscoped buffers at entry and put back at the exit contents; the generator register goes into
    the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second projection as a segment: entered from every unscoped buffer at `W6`, left at `W7`. Its windows' arrays
    are split out of the unscoped buffers at entry and put back at the exit contents; the generator register goes into
    the pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second bias and activation as a segment: entered from every unscoped buffer at `W8`, left at `W9`. Its windows' arrays
    are split out of the unscoped buffers at entry and put back at the exit contents; the generator register goes into
    the pipeline's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third projection as a segment: entered from every unscoped buffer at `W10`, left at `W11`. Its windows' arrays
    are split out of the unscoped buffers at entry and put back at the exit contents; the generator register goes into
    the pipeline's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V10 m ρ) c).loose
  hwaits := Pipeline.hwaits_of_owed_zero _ _ _ _ L lv 4 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec4 c (V10 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V10 m ρ c) (V11 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pooling as a segment: entered from every unscoped buffer at `W12`, left at `W13`. Its windows' arrays
    are split out of the unscoped buffers at entry and put back at the exit contents; the generator register goes into
    the pipeline's invariant and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V12 m ρ) c).loose
  hwaits := Pipeline.hwaits_of_owed_zero _ _ _ _ L lv 5 fun _ _ => rfl
  pre c := iprop(StableHlo.held (c : Thread nD τ) (Pipeline.ucRefs τ sig) (W12 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V12 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (V12 m ρ) c).Φ 0 from rfl]
    refine BIBase.Entails.trans ?_ (Φ5_in (V12 m ρ) c)
    iintro ⟨Hp, -, Hr⟩
    isplitl [Hp]; · iexact Hp
    iexact Hr
  hout c := by
    rw [Pipeline.ownSems0_none, show (pdats m ρ 5 c).Φ (Fin.last _) = (dat5 (V12 m ρ) c).Φ (Fin.last cfg5.N) from rfl]
    refine BIBase.Entails.trans (Φ5_out (V12 m ρ) c) ?_
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V12 m ρ c) (V13 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The thirteen items in order: a host segment per stretch from its boundary's contents, a region per kernel. -/
abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ),
    .host (hseg hostOps3 hostOps3_sub hostOps3_fresh (W7 m ρ)),
    .region (reg3 m ρ),
    .host (hseg hostOps4 hostOps4_sub hostOps4_fresh (W9 m ρ)),
    .region (reg4 m ρ),
    .host (hseg hostOps5 hostOps5_sub hostOps5_fresh (W11 m ρ)),
    .region (reg5 m ρ) ]
/-- The program is the run of its segments: it is the chain of its items, and so is the segments' run. -/
theorem main_run (c : Dev nD) : main (F := F) c = Pipeline.Seg.run (segs m ρ) := (main_chain c).trans (by chain_rfl)

set_option backward.isDefEq.respectTransparency.types false in
/-- THE RUN: from any memory with every counter at zero, every weakly fair execution of the program on the cores
    terminates, nothing faulting, and every final memory holds each unscoped buffer of each core at the last boundary's
    contents: the launch theorem over the segments, the last thread state read against the final state. -/
theorem run : θ_run defs (onTc (τ := τ) (main (F := F))) ⟨m, fun _ => 0, ρ⟩
    (fun r => ∀ c : Dev nD, ∀ b ∈ Pipeline.ucRefs τ sig, r.2.mem ((c : Thread nD τ).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- The run's result and arguments: every final memory holds the pooled array at what the last boundary's contents
    give it, and each argument as launched. -/
theorem run_result : θ_run defs (onTc (τ := τ) (main (F := F))) ⟨m, fun _ => 0, ρ⟩ (fun r => ∀ c : Dev nD,
      r.2.mem ((c.tc : Thread nD τ).loc main_v67) = W13 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨h c _ (mem_uc main_v67 (by decide)),
    (h c _ (mem_uc main_arg0 (by decide))).trans (W13_main_arg0 m ρ c),
    (h c _ (mem_uc main_arg1 (by decide))).trans (W13_main_arg1 m ρ c),
    (h c _ (mem_uc main_arg2 (by decide))).trans (W13_main_arg2 m ρ c),
    (h c _ (mem_uc main_arg3 (by decide))).trans (W13_main_arg3 m ρ c),
    (h c _ (mem_uc main_arg4 (by decide))).trans (W13_main_arg4 m ρ c),
    (h c _ (mem_uc main_arg5 (by decide))).trans (W13_main_arg5 m ρ c),
    (h c _ (mem_uc main_arg6 (by decide))).trans (W13_main_arg6 m ρ c),
    (h c _ (mem_uc main_arg7 (by decide))).trans (W13_main_arg7 m ρ c),
    (h c _ (mem_uc main_arg8 (by decide))).trans (W13_main_arg8 m ρ c)⟩) (run m ρ)

/-- The frame: every final memory holds each argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
    (h c _ (mem_uc main_arg0 (by decide))).trans (W13_main_arg0 m ρ c),
    (h c _ (mem_uc main_arg1 (by decide))).trans (W13_main_arg1 m ρ c),
    (h c _ (mem_uc main_arg2 (by decide))).trans (W13_main_arg2 m ρ c),
    (h c _ (mem_uc main_arg3 (by decide))).trans (W13_main_arg3 m ρ c),
    (h c _ (mem_uc main_arg4 (by decide))).trans (W13_main_arg4 m ρ c),
    (h c _ (mem_uc main_arg5 (by decide))).trans (W13_main_arg5 m ρ c),
    (h c _ (mem_uc main_arg6 (by decide))).trans (W13_main_arg6 m ρ c),
    (h c _ (mem_uc main_arg7 (by decide))).trans (W13_main_arg7 m ρ c),
    (h c _ (mem_uc main_arg8 (by decide))).trans (W13_main_arg8 m ρ c)⟩) (run m ρ)

end Cert.KernelIdeal.Frame

end
-- ==== Proof.Net.lean ====
/-
  The graph network's layers as functions of whole arrays, spelt with the host operations the reference program
  applies: the edge list's source and target columns with one self loop per node appended; a node index wrapped
  the way a gather reads it (a negative index counts from the end); each node's degree as the count of edges that
  name it as their target; the symmetric normalisation d(source)^(-1/2) · d(target)^(-1/2) of an edge, zero where a
  degree is zero; one aggregation (every edge carries its source's row, scaled, to its target, where the rows are
  summed); bias and ReLU; the mean of the node rows of each graph.
-/
import proofs.«403423_j51041391345664_1_alg».proof.ReferenceIdeal
import proofs.«403423_j51041391345664_1_alg».proof.Proof.Gen.ReferenceIdeal

noncomputable section

namespace Cert.Net

open Cert.ReferenceIdeal Cert.ReferenceIdeal.Gen Idealize.ShloMosaic Idealize.ShloMosaic.TcCoe

variable {F : FTy → Type} [FloatOps F]

/-- The edges' source nodes, then every node once (its self loop). -/
def rowOf (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edges' target nodes, then every node once. -/
def colOf (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node index as a gather reads it: a negative one counts from the end (100000 is added). -/
def wrap (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- An index vector as the one-column index array a gather or scatter takes. -/
def asIdx (v : IVec S1700000 32) : IVec S1700000x1 32 :=
  broadcastInDim S1700000x1 ![0] bcast_S1700000_S1700000x1_0 v

/-- A node's degree: the number of entries of the index array that name it (an entry outside 0 … 99999 names none). -/
def degOf (ix : IVec S1700000x1 32) : FVec F S100000 .f32 :=
  Host.scatterAdd scatter_S100000_S1700000x1_S1700000_n_0_0_1
    (broadcastInDim S100000 ![] bcast_S_S100000 (constant S_ .f32 0x00000000#32)) ix
    (broadcastInDim S1700000 ![] bcast_S_S1700000 (constant S_ .f32 0x3F800000#32))

/-- d^(-1/2) per node, zero where the degree is not positive. -/
def dinvOf (deg : FVec F S100000 .f32) : FVec F S100000 .f32 :=
  select (cmpf (F := F) .ogt deg (broadcastInDim S100000 ![] bcast_S_S100000 (constant S_ .f32 0x00000000#32))) (Host.rsqrt deg)
    (broadcastInDim S100000 ![] bcast_S_S100000 (constant S_ .f32 0x00000000#32))

/-- An edge's weight: d^(-1/2) at its source times d^(-1/2) at its target, each read at the wrapped index. -/
def normOf (dinv : FVec F S100000 .f32) (e : IVec S2x1600000 32) : FVec F S1700000 .f32 :=
  mulf (Host.gather gather_S100000_S1700000x1_S1700000_n_0_n_n_0_1_1 dinv (asIdx (wrap (rowOf e))))
    (Host.gather gather_S100000_S1700000x1_S1700000_n_0_n_n_0_1_1 dinv (asIdx (wrap (colOf e))))

/-- One aggregation: every edge carries its source's row of `h`, times the edge's weight, to its target, where the
    rows that arrive are summed (an edge whose target is no node is dropped). -/
def aggOf (h : FVec F S100000x64 .f32) (norm : FVec F S1700000 .f32) (e : IVec S2x1600000 32) : FVec F S100000x64 .f32 :=
  Host.scatterAdd scatter_S100000x64_S1700000x1_S1700000x64_1_0_0_1
    (broadcastInDim S100000x64 ![] bcast_S_S100000x64 (constant S_ .f32 0x00000000#32)) (asIdx (colOf e))
    (mulf (Host.gather gather_S100000x64_S1700000x1_S1700000x64_1_0_n_n_0_1_164 h (asIdx (wrap (rowOf e))))
      (broadcastInDim S1700000x64 ![0, 1] bcast_S1700000x1_S1700000x64_0_1 (broadcastInDim S1700000x1 ![0] bcast_S1700000_S1700000x1_0 norm)))

/-- Bias row added to every node row, then ReLU. -/
def actRow (a : FVec F S100000x64 .f32) (b : FVec F S1x64 .f32) : FVec F S100000x64 .f32 :=
  maximumf (addf a (broadcastInDim S100000x64 ![0, 1] bcast_S1x64_S100000x64_0_1 b))
    (broadcastInDim S100000x64 ![] bcast_S_S100000x64 (constant S_ .f32 0x00000000#32))

/-- The same from the bias vector. -/
def actOf (a : FVec F S100000x64 .f32) (b : FVec F S64 .f32) : FVec F S100000x64 .f32 :=
  actRow a (broadcastInDim S1x64 ![1] bcast_S64_S1x64_1 b)

/-- The three linear layers. -/
def lin1 (x : FVec F S100000x7 .f32) (w : FVec F S7x64 .f32) : FVec F S100000x64 .f32 :=
  Host.dotGeneral dot_S100000x7_S7x64_S100000x64_1_0_0_1_n_n none x w
def lin2 (h : FVec F S100000x64 .f32) (w : FVec F S64x64 .f32) : FVec F S100000x64 .f32 :=
  Host.dotGeneral dot_S100000x64_S64x64_S100000x64_1_0_0_1_n_n none h w
def lin3Row (h : FVec F S100000x64 .f32) (w : FVec F S64x32 .f32) (b : FVec F S1x32 .f32) : FVec F S100000x32 .f32 :=
  addf (Host.dotGeneral dot_S100000x64_S64x32_S100000x32_1_0_0_1_n_n none h w) (broadcastInDim S100000x32 ![0, 1] bcast_S1x32_S100000x32_0_1 b)
def lin3 (h : FVec F S100000x64 .f32) (w : FVec F S64x32 .f32) (b : FVec F S32 .f32) : FVec F S100000x32 .f32 :=
  lin3Row h w (broadcastInDim S1x32 ![1] bcast_S32_S1x32_1 b)

/-- The mean of the node rows of each of the 64 graphs: the sum of the rows whose node carries the graph's id, over
    the number of such nodes or 1, whichever is larger (a node whose id is no graph's is dropped). -/
def poolOf (ids : IVec S100000 32) (out : FVec F S100000x32 .f32) : FVec F S64x32 .f32 :=
  Host.divf
    (Host.scatterAdd scatter_S64x32_S100000x1_S100000x32_1_0_0_1
      (broadcastInDim S64x32 ![] bcast_S_S64x32 (constant S_ .f32 0x00000000#32))
      (broadcastInDim S100000x1 ![0] bcast_S100000_S100000x1_0 ids) out)
    (broadcastInDim S64x32 ![0, 1] bcast_S64x1_S64x32_0_1 (broadcastInDim S64x1 ![0] bcast_S64_S64x1_0
      (maximumf
        (Host.scatterAdd scatter_S64_S100000x1_S100000_n_0_0_1
          (broadcastInDim S64 ![] bcast_S_S64 (constant S_ .f32 0x00000000#32))
          (broadcastInDim S100000x1 ![0] bcast_S100000_S100000x1_0 ids)
          (broadcastInDim S100000 ![] bcast_S_S100000 (constant S_ .f32 0x3F800000#32)))
        (broadcastInDim S64 ![] bcast_S_S64 (constant S_ .f32 0x3F800000#32)))))

/-- The whole network as a function of its inputs and of the index array the degrees are counted over (the
    reference counts over the wrapped target column, the kernel's program over the target column as it is). -/
def netOf (degIdx : IVec S1700000x1 32) (x : FVec F S100000x7 .f32) (e : IVec S2x1600000 32) (ids : IVec S100000 32)
    (w1 : FVec F S7x64 .f32) (b1 : FVec F S64 .f32) (w2 : FVec F S64x64 .f32) (b2 : FVec F S64 .f32)
    (wl : FVec F S64x32 .f32) (bl : FVec F S32 .f32) : FVec F S64x32 .f32 :=
  poolOf ids (lin3 (actOf (aggOf (lin2 (actOf (aggOf (lin1 x w1) (normOf (dinvOf (degOf degIdx)) e) e) b1) w2)
    (normOf (dinvOf (degOf degIdx)) e) e) b2) wl bl)

end Cert.Net

end
-- ==== Proof.Value.Lin1.lean ====
/-
  The first projection, h = x · W1, read off the pipeline's result array. The pipeline cuts the 100000 node rows
  into twenty blocks of 5000 and, at each point, stores the block's product with the whole 7 × 64 weight matrix.
  At the extended reals that product at (row p, column q) is the plain sum over the seven features
  ∑ k, x (p, k) · w (k, q): the narrowing of the operands is the identity and the accumulator is zero. The whole
  product of the reference reads the same sum at (node, column). Row p of block t is node 5000 · t + p, the weights'
  block is the whole matrix at every point, so what point t writes back is block t of the whole product; every node
  row r lies in block r / 5000, so the array ends holding the whole product.
-/
import proofs.«403423_j51041391345664_1_alg».proof.Proof.Ideal.Proj1
import proofs.«403423_j51041391345664_1_alg».proof.Proof.Net
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Cert.KernelIdeal.Frame
open Idealize.ShloMosaic Idealize.ShloMosaic.TcCoe Idealize.ShloMosaic.ValueIdx
open scoped BigOperators

namespace Lin1

/-! ## The block product at an index -/

/-- The block product's dimension numbers: rows by features times features by columns. -/
abbrev Dk := dot_S5000x7_S7x64_S5000x64_1_0_0_1_n_n

theorem lhsK_0 (j : S5000x64.Idx) (k : Dk.contr.Idx) : (Dk.lhsIdx j k 0 : ℕ) = j 0 := by
  simp [DotDims.lhsIdx, Dk, dot_S5000x7_S7x64_S5000x64_1_0_0_1_n_n]; rfl
theorem lhsK_1 (j : S5000x64.Idx) (k : Dk.contr.Idx) : (Dk.lhsIdx j k 1 : ℕ) = k ⟨0, by decide⟩ := by
  simp [DotDims.lhsIdx, Dk, dot_S5000x7_S7x64_S5000x64_1_0_0_1_n_n]; rfl
theorem rhsK_0 (j : S5000x64.Idx) (k : Dk.contr.Idx) : (Dk.rhsIdx j k 0 : ℕ) = k ⟨0, by decide⟩ := by
  simp [DotDims.rhsIdx, Dk, dot_S5000x7_S7x64_S5000x64_1_0_0_1_n_n]; rfl
theorem rhsK_1 (j : S5000x64.Idx) (k : Dk.contr.Idx) : (Dk.rhsIdx j k 1 : ℕ) = j 1 := by
  simp [DotDims.rhsIdx, Dk, dot_S5000x7_S7x64_S5000x64_1_0_0_1_n_n]; rfl

/-- The body's payload at row `p`, column `q` of the block: the sum over the seven features of the row's entry
    times the weight's (the narrowing of the operands is the identity on extended reals, the accumulator is zero). -/
theorem pay0_apply (x0 : Vec Ideal S5000x7 .f32) (x1 : Vec Ideal S7x64 .f32) (p : Fin 5000) (q : Fin 64) :
    k0_pay1 x0 x1 (ix2 p q) = ∑ k : Fin 7, x0 (ix2 p k) * x1 (ix2 k q) := by
  unfold k0_pay1
  try simp only [shapeCast_self]
  show FloatOps.matmul Dk none _ _ (constant S5000x64 .f32 0x00000000#32) (ix2 p q) = _
  rw [Ideal.matmul_constant_zero_apply]
  rw [← Equiv.sum_comp (contrEquiv1 Dk 7 rfl rfl).symm]
  refine Finset.sum_congr rfl fun k _ => ?_
  have hl : Dk.lhsIdx (ix2 p q) ((contrEquiv1 Dk 7 rfl rfl).symm k) = ix2 p k := by
    funext a; apply Fin.ext
    match a with
    | ⟨0, _⟩ => exact lhsK_0 _ _
    | ⟨1, _⟩ => exact (lhsK_1 _ _).trans (contrEquiv1_symm_val Dk 7 rfl rfl k)
  have hr : Dk.rhsIdx (ix2 p q) ((contrEquiv1 Dk 7 rfl rfl).symm k) = ix2 k q := by
    funext a; apply Fin.ext
    match a with
    | ⟨0, _⟩ => exact (rhsK_0 _ _).trans (contrEquiv1_symm_val Dk 7 rfl rfl k)
    | ⟨1, _⟩ => exact rhsK_1 _ _
  show x0 (Dk.lhsIdx (ix2 p q) ((contrEquiv1 Dk 7 rfl rfl).symm k)) * x1 (Dk.rhsIdx (ix2 p q) ((contrEquiv1 Dk 7 rfl rfl).symm k)) = _
  rw [hl, hr]

/-! ## The whole product at an index -/

/-- The whole product's dimension numbers. -/
abbrev Dr := Cert.ReferenceIdeal.dot_S100000x7_S7x64_S100000x64_1_0_0_1_n_n

theorem lhsR_0 (j : Cert.ReferenceIdeal.S100000x64.Idx) (k : Dr.contr.Idx) : (Dr.lhsIdx j k 0 : ℕ) = j 0 := by
  simp [DotDims.lhsIdx, Dr, Cert.ReferenceIdeal.dot_S100000x7_S7x64_S100000x64_1_0_0_1_n_n]; rfl
theorem lhsR_1 (j : Cert.ReferenceIdeal.S100000x64.Idx) (k : Dr.contr.Idx) : (Dr.lhsIdx j k 1 : ℕ) = k ⟨0, by decide⟩ := by
  simp [DotDims.lhsIdx, Dr, Cert.ReferenceIdeal.dot_S100000x7_S7x64_S100000x64_1_0_0_1_n_n]; rfl
theorem rhsR_0 (j : Cert.ReferenceIdeal.S100000x64.Idx) (k : Dr.contr.Idx) : (Dr.rhsIdx j k 0 : ℕ) = k ⟨0, by decide⟩ := by
  simp [DotDims.rhsIdx, Dr, Cert.ReferenceIdeal.dot_S100000x7_S7x64_S100000x64_1_0_0_1_n_n]; rfl
theorem rhsR_1 (j : Cert.ReferenceIdeal.S100000x64.Idx) (k : Dr.contr.Idx) : (Dr.rhsIdx j k 1 : ℕ) = j 1 := by
  simp [DotDims.rhsIdx, Dr, Cert.ReferenceIdeal.dot_S100000x7_S7x64_S100000x64_1_0_0_1_n_n]; rfl

/-- The first layer's product at node `p`, column `q`: the same sum over the seven features. -/
theorem lin1_apply (x : FVec Ideal Cert.ReferenceIdeal.S100000x7 .f32) (w : FVec Ideal Cert.ReferenceIdeal.S7x64 .f32)
    (p : Fin 100000) (q : Fin 64) :
    Cert.Net.lin1 (F := Ideal) x w (ix2 p q) = ∑ k : Fin 7, x (ix2 p k) * w (ix2 k q) := by
  unfold Cert.Net.lin1
  show FloatOps.dotGeneral Dr none .single x w (ix2 p q) = _
  rw [Ideal.dotGeneral_apply]
  rw [← Equiv.sum_comp (contrEquiv1 Dr 7 rfl rfl).symm]
  refine Finset.sum_congr rfl fun k _ => ?_
  have hl : Dr.lhsIdx (ix2 p q) ((contrEquiv1 Dr 7 rfl rfl).symm k) = ix2 p k := by
    funext a; apply Fin.ext
    match a with
    | ⟨0, _⟩ => exact lhsR_0 _ _
    | ⟨1, _⟩ => exact (lhsR_1 _ _).trans (contrEquiv1_symm_val Dr 7 rfl rfl k)
  have hr : Dr.rhsIdx (ix2 p q) ((contrEquiv1 Dr 7 rfl rfl).symm k) = ix2 k q := by
    funext a; apply Fin.ext
    match a with
    | ⟨0, _⟩ => exact (rhsR_0 _ _).trans (contrEquiv1_symm_val Dr 7 rfl rfl k)
    | ⟨1, _⟩ => exact rhsR_1 _ _
  rw [hl, hr]

/-! ## From the blocks to the array -/

theorem hz : (![0, 0] : Fin 2 → Nat) = fun _ => 0 := funext fun a => by fin_cases a <;> rfl

/-- The index maps over the grid: the rows' and the result's blocks are the point's, the weights' block never moves. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the whole product. -/
theorem flushed0_eq (c : Dev nD) (t : Fin cfg0.N) :
    (dat0 (F := Ideal) V c).flushed 2 t
      = ((cfg0.win 2).blk t).view.read (Elt Ideal) (Cert.Net.lin1 (F := Ideal) (V c main_arg0) (V c main_arg3)) := by
  show (cfg0.win 2).cut (cfg0.grid.coords t) ((dat0 V c).after 2 t) = _
  rw [after0_2]
  unfold out0_2
  rw [View.canon_unit_zero hz]
  simp only [View.ld_unit_zero (S := S5000x7) hz, View.ld_unit_zero (S := S7x64) hz]
  obtain ⟨e00, e01, e10, e11, e20, e21⟩ := idx_facts0 t
  funext y
  obtain ⟨p, q, rfl⟩ : ∃ (p : Fin 5000) (q : Fin 64), y = ix2 p q := ⟨y 0, y 1, eq_ix2 y⟩
  have ht : t.val < 20 := lt_of_lt_of_eq t.isLt N_0
  have hrow : 5000 * t.val + p.val < 100000 := by have := p.isLt; omega
  show k0_pay1 (iblk0 V c 0 t) (iblk0 V c 1 t) (ix2 p q)
      = Cert.Net.lin1 (F := Ideal) (V c main_arg0) (V c main_arg3) (((cfg0.win 2).blk t).view.emb (ix2 p q))
  have hemb : ((cfg0.win 2).blk t).view.emb (ix2 p q) = ix2 (⟨5000 * t.val + p.val, hrow⟩ : Fin 100000) q := by
    funext a; apply Fin.ext
    match a with
    | ⟨0, _⟩ => show win0_2.index t (0 : Fin 2) * 5000 + 1 * p.val = 5000 * t.val + p.val; omega
    | ⟨1, _⟩ => show win0_2.index t (1 : Fin 2) * 64 + 1 * q.val = q.val; omega
  rw [hemb, lin1_apply]
  refine (pay0_apply _ _ p q).trans ?_
  refine Finset.sum_congr rfl fun k _ => ?_
  have h0 : ((cfg0.win 0).blk t).view.emb (ix2 p k) = ix2 (⟨5000 * t.val + p.val, hrow⟩ : Fin 100000) k := by
    funext a; apply Fin.ext
    match a with
    | ⟨0, _⟩ => show win0_0.index t (0 : Fin 2) * 5000 + 1 * p.val = 5000 * t.val + p.val; omega
    | ⟨1, _⟩ => show win0_0.index t (1 : Fin 2) * 7 + 1 * k.val = k.val; omega
  have h1 : ((cfg0.win 1).blk t).view.emb (ix2 k q) = ix2 k q := by
    funext a; apply Fin.ext
    match a with
    | ⟨0, _⟩ => show win0_1.index t (0 : Fin 2) * 7 + 1 * k.val = k.val; omega
    | ⟨1, _⟩ => show win0_1.index t (1 : Fin 2) * 64 + 1 * q.val = q.val; omega
  have h0' : @Eq EReal (iblk0 V c 0 t (ix2 p k)) (V c main_arg0 (ix2 (⟨5000 * t.val + p.val, hrow⟩ : Fin 100000) k)) :=
    congrArg (V c main_arg0) h0
  have h1' : @Eq EReal (iblk0 V c 1 t (ix2 k q)) (V c main_arg3 (ix2 k q)) := congrArg (V c main_arg3) h1
  exact congrArg₂ (fun a b : EReal => a * b) h0' h1'

/-- An index of the array is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v30).slice (win0_2.rect t)).set ↔ _
  rw [View.set_slice_whole, Rect.mem_set_unit]
  exact Iff.rfl

/-- Every node row is in some point's block: row `r` in block `r / 5000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  refine ⟨⟨(i 0).val / 5000, by rw [show cfg0.N = 20 from N_0]; omega⟩, flush0_2 _, ?_⟩
  rw [mem_blk0]
  obtain ⟨-, -, -, -, e20, e21⟩ := idx_facts0 ⟨(i 0).val / 5000, by rw [show cfg0.N = 20 from N_0]; omega⟩
  intro a
  match a with
  | ⟨0, _⟩ =>
    show win0_2.index _ (0 : Fin 2) * 5000 ≤ (i 0).val ∧ (i 0).val < win0_2.index _ (0 : Fin 2) * 5000 + 5000
    rw [e20]; show (i 0).val / 5000 * 5000 ≤ (i 0).val ∧ (i 0).val < (i 0).val / 5000 * 5000 + 5000; omega
  | ⟨1, _⟩ =>
    show win0_2.index _ (1 : Fin 2) * 64 ≤ (i 1).val ∧ (i 1).val < win0_2.index _ (1 : Fin 2) * 64 + 64
    rw [e21]; omega

end Lin1

variable (V : (c : Dev nD) → (b : Ref sig .tc) → Buf (Elt Ideal) ((c : Thread nD τ).loc b))

/-- THE ARRAY the first projection leaves: the whole product of the node features and the first weights. -/
theorem lin1_arr (c : Dev nD) :
    (dat0 (F := Ideal) V c).arrAt 2 cfg0.N = Cert.Net.lin1 (F := Ideal) (V c main_arg0) (V c main_arg3) :=
  (dat0 V c).arrAt_eq_of_cover 2 _ (fun t _ => Lin1.flushed0_eq V c t) Lin1.cover0

end Cert.KernelIdeal.Val

end
-- ==== Proof.Value.Lin2.lean ====
/-
  The second projection, h = a · W2, read off the pipeline's result array. The pipeline cuts the 100000 rows of the
  first layer's activations into twenty blocks of 5000 and, at each point, stores the block's product with the whole
  64 × 64 weight matrix. At the extended reals that product at (row p, column q) is the plain sum over the 64 hidden
  units ∑ k, a (p, k) · w (k, q): a cast to the same shape and the narrowing of the operands are the identity and the
  accumulator is zero. The whole product of the reference reads the same sum at (node, column). Row p of block t is
  node 5000 · t + p, the weights' block is the whole matrix at every point, so what point t writes back is block t of
  the whole product; every node row r lies in block r / 5000, so the array ends holding the whole product.
-/
import proofs.«403423_j51041391345664_1_alg».proof.Proof.Ideal.Proj2
import proofs.«403423_j51041391345664_1_alg».proof.Proof.Net
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Cert.KernelIdeal.Frame
open Idealize.ShloMosaic Idealize.ShloMosaic.TcCoe Idealize.ShloMosaic.ValueIdx
open scoped BigOperators

namespace Lin2

/-! ## The block product at an index -/

/-- The block product's dimension numbers: rows by hidden units times hidden units by columns. -/
abbrev Dk := dot_S5000x64_S64x64_S5000x64_1_0_0_1_n_n

theorem lhsK_0 (j : S5000x64.Idx) (k : Dk.contr.Idx) : (Dk.lhsIdx j k 0 : ℕ) = j 0 := by
  simp [DotDims.lhsIdx, Dk, dot_S5000x64_S64x64_S5000x64_1_0_0_1_n_n]; rfl
theorem lhsK_1 (j : S5000x64.Idx) (k : Dk.contr.Idx) : (Dk.lhsIdx j k 1 : ℕ) = k ⟨0, by decide⟩ := by
  simp [DotDims.lhsIdx, Dk, dot_S5000x64_S64x64_S5000x64_1_0_0_1_n_n]; rfl
theorem rhsK_0 (j : S5000x64.Idx) (k : Dk.contr.Idx) : (Dk.rhsIdx j k 0 : ℕ) = k ⟨0, by decide⟩ := by
  simp [DotDims.rhsIdx, Dk, dot_S5000x64_S64x64_S5000x64_1_0_0_1_n_n]; rfl
theorem rhsK_1 (j : S5000x64.Idx) (k : Dk.contr.Idx) : (Dk.rhsIdx j k 1 : ℕ) = j 1 := by
  simp [DotDims.rhsIdx, Dk, dot_S5000x64_S64x64_S5000x64_1_0_0_1_n_n]; rfl

/-- The body's payload at row `p`, column `q` of the block: the sum over the 64 hidden units of the row's entry
    times the weight's. -/
theorem pay2_apply (x0 : Vec Ideal S5000x64 .f32) (x1 : Vec Ideal S64x64 .f32) (p : Fin 5000) (q : Fin 64) :
    k2_pay1 x0 x1 (ix2 p q) = ∑ k : Fin 64, x0 (ix2 p k) * x1 (ix2 k q) := by
  unfold k2_pay1
  simp only [shapeCast_self]
  show FloatOps.matmul (F := Ideal) Dk none (truncf (F := Ideal) .bf16 x0 bitsLt_bf16_f32) (truncf (F := Ideal) .bf16 x1 bitsLt_bf16_f32)
      (constant (F := Ideal) S5000x64 .f32 0x00000000#32) (ix2 p q) = _
  rw [Ideal.matmul_constant_zero_apply]
  rw [← Equiv.sum_comp (contrEquiv1 Dk 64 rfl rfl).symm]
  refine Finset.sum_congr rfl fun k _ => ?_
  have hl : Dk.lhsIdx (ix2 p q) ((contrEquiv1 Dk 64 rfl rfl).symm k) = ix2 p k := by
    funext a; apply Fin.ext
    match a with
    | ⟨0, _⟩ => exact lhsK_0 _ _
    | ⟨1, _⟩ => exact (lhsK_1 _ _).trans (contrEquiv1_symm_val Dk 64 rfl rfl k)
  have hr : Dk.rhsIdx (ix2 p q) ((contrEquiv1 Dk 64 rfl rfl).symm k) = ix2 k q := by
    funext a; apply Fin.ext
    match a with
    | ⟨0, _⟩ => exact (rhsK_0 _ _).trans (contrEquiv1_symm_val Dk 64 rfl rfl k)
    | ⟨1, _⟩ => exact rhsK_1 _ _
  show x0 (Dk.lhsIdx (ix2 p q) ((contrEquiv1 Dk 64 rfl rfl).symm k)) * x1 (Dk.rhsIdx (ix2 p q) ((contrEquiv1 Dk 64 rfl rfl).symm k)) = _
  rw [hl, hr]

/-! ## The whole product at an index -/

/-- The whole product's dimension numbers. -/
abbrev Dr := Cert.ReferenceIdeal.dot_S100000x64_S64x64_S100000x64_1_0_0_1_n_n

theorem lhsR_0 (j : Cert.ReferenceIdeal.S100000x64.Idx) (k : Dr.contr.Idx) : (Dr.lhsIdx j k 0 : ℕ) = j 0 := by
  simp [DotDims.lhsIdx, Dr, Cert.ReferenceIdeal.dot_S100000x64_S64x64_S100000x64_1_0_0_1_n_n]; rfl
theorem lhsR_1 (j : Cert.ReferenceIdeal.S100000x64.Idx) (k : Dr.contr.Idx) : (Dr.lhsIdx j k 1 : ℕ) = k ⟨0, by decide⟩ := by
  simp [DotDims.lhsIdx, Dr, Cert.ReferenceIdeal.dot_S100000x64_S64x64_S100000x64_1_0_0_1_n_n]; rfl
theorem rhsR_0 (j : Cert.ReferenceIdeal.S100000x64.Idx) (k : Dr.contr.Idx) : (Dr.rhsIdx j k 0 : ℕ) = k ⟨0, by decide⟩ := by
  simp [DotDims.rhsIdx, Dr, Cert.ReferenceIdeal.dot_S100000x64_S64x64_S100000x64_1_0_0_1_n_n]; rfl
theorem rhsR_1 (j : Cert.ReferenceIdeal.S100000x64.Idx) (k : Dr.contr.Idx) : (Dr.rhsIdx j k 1 : ℕ) = j 1 := by
  simp [DotDims.rhsIdx, Dr, Cert.ReferenceIdeal.dot_S100000x64_S64x64_S100000x64_1_0_0_1_n_n]; rfl

/-- The second layer's product at node `p`, column `q`: the same sum over the 64 hidden units. -/
theorem lin2_apply (x : FVec Ideal Cert.ReferenceIdeal.S100000x64 .f32) (w : FVec Ideal Cert.ReferenceIdeal.S64x64 .f32)
    (p : Fin 100000) (q : Fin 64) :
    Cert.Net.lin2 (F := Ideal) x w (ix2 p q) = ∑ k : Fin 64, x (ix2 p k) * w (ix2 k q) := by
  unfold Cert.Net.lin2
  show FloatOps.dotGeneral Dr none .single x w (ix2 p q) = _
  rw [Ideal.dotGeneral_apply]
  rw [← Equiv.sum_comp (contrEquiv1 Dr 64 rfl rfl).symm]
  refine Finset.sum_congr rfl fun k _ => ?_
  have hl : Dr.lhsIdx (ix2 p q) ((contrEquiv1 Dr 64 rfl rfl).symm k) = ix2 p k := by
    funext a; apply Fin.ext
    match a with
    | ⟨0, _⟩ => exact lhsR_0 _ _
    | ⟨1, _⟩ => exact (lhsR_1 _ _).trans (contrEquiv1_symm_val Dr 64 rfl rfl k)
  have hr : Dr.rhsIdx (ix2 p q) ((contrEquiv1 Dr 64 rfl rfl).symm k) = ix2 k q := by
    funext a; apply Fin.ext
    match a with
    | ⟨0, _⟩ => exact (rhsR_0 _ _).trans (contrEquiv1_symm_val Dr 64 rfl rfl k)
    | ⟨1, _⟩ => exact rhsR_1 _ _
  rw [hl, hr]

/-! ## From the blocks to the array -/

theorem hz : (![0, 0] : Fin 2 → Nat) = fun _ => 0 := funext fun a => by fin_cases a <;> rfl

/-- The index maps over the grid: the rows' and the result's blocks are the point's, the weights' block never moves. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point `t` writes back is block `t` of the whole product. -/
theorem flushed2_eq (c : Dev nD) (t : Fin cfg2.N) :
    (dat2 (F := Ideal) V c).flushed 2 t
      = ((cfg2.win 2).blk t).view.read (Elt Ideal) (Cert.Net.lin2 (F := Ideal) (V c main_v45) (V c main_arg5)) := by
  show (cfg2.win 2).cut (cfg2.grid.coords t) ((dat2 V c).after 2 t) = _
  rw [after2_2]
  unfold out2_2
  rw [View.canon_unit_zero hz]
  simp only [View.ld_unit_zero (S := S5000x64) hz, View.ld_unit_zero (S := S64x64) hz]
  obtain ⟨e00, e01, e10, e11, e20, e21⟩ := idx_facts2 t
  funext y
  obtain ⟨p, q, rfl⟩ : ∃ (p : Fin 5000) (q : Fin 64), y = ix2 p q := ⟨y 0, y 1, eq_ix2 y⟩
  have ht : t.val < 20 := lt_of_lt_of_eq t.isLt N_2
  have hrow : 5000 * t.val + p.val < 100000 := by have := p.isLt; omega
  show k2_pay1 (iblk2 V c 0 t) (iblk2 V c 1 t) (ix2 p q)
      = Cert.Net.lin2 (F := Ideal) (V c main_v45) (V c main_arg5) (((cfg2.win 2).blk t).view.emb (ix2 p q))
  have hemb : ((cfg2.win 2).blk t).view.emb (ix2 p q) = ix2 (⟨5000 * t.val + p.val, hrow⟩ : Fin 100000) q := by
    funext a; apply Fin.ext
    match a with
    | ⟨0, _⟩ => show win2_2.index t (0 : Fin 2) * 5000 + 1 * p.val = 5000 * t.val + p.val; omega
    | ⟨1, _⟩ => show win2_2.index t (1 : Fin 2) * 64 + 1 * q.val = q.val; omega
  rw [hemb, lin2_apply]
  refine (pay2_apply _ _ p q).trans ?_
  refine Finset.sum_congr rfl fun k _ => ?_
  have h0 : ((cfg2.win 0).blk t).view.emb (ix2 p k) = ix2 (⟨5000 * t.val + p.val, hrow⟩ : Fin 100000) k := by
    funext a; apply Fin.ext
    match a with
    | ⟨0, _⟩ => show win2_0.index t (0 : Fin 2) * 5000 + 1 * p.val = 5000 * t.val + p.val; omega
    | ⟨1, _⟩ => show win2_0.index t (1 : Fin 2) * 64 + 1 * k.val = k.val; omega
  have h1 : ((cfg2.win 1).blk t).view.emb (ix2 k q) = ix2 k q := by
    funext a; apply Fin.ext
    match a with
    | ⟨0, _⟩ => show win2_1.index t (0 : Fin 2) * 64 + 1 * k.val = k.val; omega
    | ⟨1, _⟩ => show win2_1.index t (1 : Fin 2) * 64 + 1 * q.val = q.val; omega
  have h0' : @Eq EReal (iblk2 V c 0 t (ix2 p k)) (V c main_v45 (ix2 (⟨5000 * t.val + p.val, hrow⟩ : Fin 100000) k)) :=
    congrArg (V c main_v45) h0
  have h1' : @Eq EReal (iblk2 V c 1 t (ix2 k q)) (V c main_arg5 (ix2 k q)) := congrArg (V c main_arg5) h1
  exact congrArg₂ (fun a b : EReal => a * b) h0' h1'

/-- An index of the array is in point `t`'s block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v46).slice (win2_2.rect t)).set ↔ _
  rw [View.set_slice_whole, Rect.mem_set_unit]
  exact Iff.rfl

/-- Every node row is in some point's block: row `r` in block `r / 5000`. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  refine ⟨⟨(i 0).val / 5000, by rw [show cfg2.N = 20 from N_2]; omega⟩, flush2_2 _, ?_⟩
  rw [mem_blk2]
  obtain ⟨-, -, -, -, e20, e21⟩ := idx_facts2 ⟨(i 0).val / 5000, by rw [show cfg2.N = 20 from N_2]; omega⟩
  intro a
  match a with
  | ⟨0, _⟩ =>
    show win2_2.index _ (0 : Fin 2) * 5000 ≤ (i 0).val ∧ (i 0).val < win2_2.index _ (0 : Fin 2) * 5000 + 5000
    rw [e20]; show (i 0).val / 5000 * 5000 ≤ (i 0).val ∧ (i 0).val < (i 0).val / 5000 * 5000 + 5000; omega
  | ⟨1, _⟩ =>
    show win2_2.index _ (1 : Fin 2) * 64 ≤ (i 1).val ∧ (i 1).val < win2_2.index _ (1 : Fin 2) * 64 + 64
    rw [e21]; omega

end Lin2

variable (V : (c : Dev nD) → (b : Ref sig .tc) → Buf (Elt Ideal) ((c : Thread nD τ).loc b))

/-- THE ARRAY the second projection leaves: the whole product of the first layer's rows and the second weights. -/
theorem lin2_arr (c : Dev nD) :
    (dat2 (F := Ideal) V c).arrAt 2 cfg2.N = Cert.Net.lin2 (F := Ideal) (V c main_v45) (V c main_arg5) :=
  (dat2 V c).arrAt_eq_of_cover 2 _ (fun t _ => Lin2.flushed2_eq V c t) Lin2.cover2

end Cert.KernelIdeal.Val

end
-- ==== Proof.Value.Lin3.lean ====
/-
  The last projection with its bias, out = h · Wlin + blin, read off the pipeline's result array. The pipeline cuts
  the 100000 node rows into twenty blocks of 5000 and, at each point, stores the block's product with the whole
  64 × 32 weight matrix plus the bias row repeated over the block's rows. At the extended reals that is, at
  (row p, column q), ∑ k, h (p, k) · w (k, q) + b (0, q): the narrowing of the operands is the identity, the
  accumulator is zero, a cast to the same shape is the identity and the row's repetition reads the row at column q.
  The reference's whole product plus the bias row repeated over all nodes reads the same at (node, column). Row p of
  block t is node 5000 · t + p; the weights' and the bias row's blocks are the whole arrays at every point; so what
  point t writes back is block t of the whole result, and every node row r lies in block r / 5000.
-/
import proofs.«403423_j51041391345664_1_alg».proof.Proof.Ideal.Proj3
import proofs.«403423_j51041391345664_1_alg».proof.Proof.Net
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Cert.KernelIdeal.Frame
open Idealize.ShloMosaic Idealize.ShloMosaic.TcCoe Idealize.ShloMosaic.ValueIdx
open scoped BigOperators

namespace Lin3

/-! ## The block's payload at an index -/

/-- The block product's dimension numbers: rows by hidden units times hidden units by columns. -/
abbrev Dk := dot_S5000x64_S64x32_S5000x32_1_0_0_1_n_n

theorem lhsK_0 (j : S5000x32.Idx) (k : Dk.contr.Idx) : (Dk.lhsIdx j k 0 : ℕ) = j 0 := by
  simp [DotDims.lhsIdx, Dk, dot_S5000x64_S64x32_S5000x32_1_0_0_1_n_n]; rfl
theorem lhsK_1 (j : S5000x32.Idx) (k : Dk.contr.Idx) : (Dk.lhsIdx j k 1 : ℕ) = k ⟨0, by decide⟩ := by
  simp [DotDims.lhsIdx, Dk, dot_S5000x64_S64x32_S5000x32_1_0_0_1_n_n]; rfl
theorem rhsK_0 (j : S5000x32.Idx) (k : Dk.contr.Idx) : (Dk.rhsIdx j k 0 : ℕ) = k ⟨0, by decide⟩ := by
  simp [DotDims.rhsIdx, Dk, dot_S5000x64_S64x32_S5000x32_1_0_0_1_n_n]; rfl
theorem rhsK_1 (j : S5000x32.Idx) (k : Dk.contr.Idx) : (Dk.rhsIdx j k 1 : ℕ) = j 1 := by
  simp [DotDims.rhsIdx, Dk, dot_S5000x64_S64x32_S5000x32_1_0_0_1_n_n]; rfl

/-- The block product at row `p`, column `q`: the sum over the 64 hidden units. -/
theorem prodK_apply (x0 : FVec Ideal S5000x64 .bf16) (x1 : FVec Ideal S64x32 .bf16) (p : Fin 5000) (q : Fin 32) :
    FloatOps.matmul Dk none x0 x1 (constant S5000x32 .f32 0x00000000#32) (ix2 p q) = ∑ k : Fin 64, x0 (ix2 p k) * x1 (ix2 k q) := by
  rw [Ideal.matmul_constant_zero_apply]
  rw [← Equiv.sum_comp (contrEquiv1 Dk 64 rfl rfl).symm]
  refine Finset.sum_congr rfl fun k _ => ?_
  have hl : Dk.lhsIdx (ix2 p q) ((contrEquiv1 Dk 64 rfl rfl).symm k) = ix2 p k := by
    funext a; apply Fin.ext
    match a with
    | ⟨0, _⟩ => exact lhsK_0 _ _
    | ⟨1, _⟩ => exact (lhsK_1 _ _).trans (contrEquiv1_symm_val Dk 64 rfl rfl k)
  have hr : Dk.rhsIdx (ix2 p q) ((contrEquiv1 Dk 64 rfl rfl).symm k) = ix2 k q := by
    funext a; apply Fin.ext
    match a with
    | ⟨0, _⟩ => exact (rhsK_0 _ _).trans (contrEquiv1_symm_val Dk 64 rfl rfl k)
    | ⟨1, _⟩ => exact rhsK_1 _ _
  rw [hl, hr]

/-- The bias row repeated over the block's rows reads the row at the column. -/
theorem biasK_apply (b : FVec Ideal S1x32 .f32) (p : Fin 5000) (q : Fin 32) :
    broadcastTo S5000x32 b broadcasts_S1x32_S5000x32 (ix2 p q) = b (ix2 (0 : Fin 1) q) := by
  refine broadcastTo_apply b broadcasts_S1x32_S5000x32 (ix2 p q) (ix2 (0 : Fin 1) q) fun a => ?_
  match a with
  | ⟨0, _⟩ => rfl
  | ⟨1, _⟩ => rfl

/-- The body's payload at row `p`, column `q` of the block: the sum over the hidden units of the row's entry times
    the weight's, plus the bias at the column. -/
theorem pay4_apply (x0 : Vec Ideal S5000x64 .f32) (x1 : Vec Ideal S64x32 .f32) (x2 : Vec Ideal S1x32 .f32) (p : Fin 5000) (q : Fin 32) :
    k4_pay1 x0 x1 x2 (ix2 p q) = ∑ k : Fin 64, x0 (ix2 p k) * x1 (ix2 k q) + x2 (ix2 (0 : Fin 1) q) := by
  unfold k4_pay1
  simp only [shapeCast_self]
  show FloatOps.matmul (F := Ideal) Dk none (truncf (F := Ideal) .bf16 x0 bitsLt_bf16_f32) (truncf (F := Ideal) .bf16 x1 bitsLt_bf16_f32)
        (constant (F := Ideal) S5000x32 .f32 0x00000000#32) (ix2 p q)
      + broadcastTo S5000x32 x2 broadcasts_S1x32_S5000x32 (ix2 p q) = _
  rw [prodK_apply, biasK_apply]
  rfl

/-! ## The whole layer at an index -/

/-- The whole product's dimension numbers. -/
abbrev Dr := Cert.ReferenceIdeal.dot_S100000x64_S64x32_S100000x32_1_0_0_1_n_n

theorem lhsR_0 (j : Cert.ReferenceIdeal.S100000x32.Idx) (k : Dr.contr.Idx) : (Dr.lhsIdx j k 0 : ℕ) = j 0 := by
  simp [DotDims.lhsIdx, Dr, Cert.ReferenceIdeal.dot_S100000x64_S64x32_S100000x32_1_0_0_1_n_n]; rfl
theorem lhsR_1 (j : Cert.ReferenceIdeal.S100000x32.Idx) (k : Dr.contr.Idx) : (Dr.lhsIdx j k 1 : ℕ) = k ⟨0, by decide⟩ := by
  simp [DotDims.lhsIdx, Dr, Cert.ReferenceIdeal.dot_S100000x64_S64x32_S100000x32_1_0_0_1_n_n]; rfl
theorem rhsR_0 (j : Cert.ReferenceIdeal.S100000x32.Idx) (k : Dr.contr.Idx) : (Dr.rhsIdx j k 0 : ℕ) = k ⟨0, by decide⟩ := by
  simp [DotDims.rhsIdx, Dr, Cert.ReferenceIdeal.dot_S100000x64_S64x32_S100000x32_1_0_0_1_n_n]; rfl
theorem rhsR_1 (j : Cert.ReferenceIdeal.S100000x32.Idx) (k : Dr.contr.Idx) : (Dr.rhsIdx j k 1 : ℕ) = j 1 := by
  simp [DotDims.rhsIdx, Dr, Cert.ReferenceIdeal.dot_S100000x64_S64x32_S100000x32_1_0_0_1_n_n]; rfl

/-- The whole product at node `p`, column `q`: the same sum over the 64 hidden units. -/
theorem prodR_apply (x : FVec Ideal Cert.ReferenceIdeal.S100000x64 .f32) (w : FVec Ideal Cert.ReferenceIdeal.S64x32 .f32)
    (p : Fin 100000) (q : Fin 32) :
    Host.dotGeneral (F := Ideal) Dr none x w (ix2 p q) = ∑ k : Fin 64, x (ix2 p k) * w (ix2 k q) := by
  show FloatOps.dotGeneral Dr none .single x w (ix2 p q) = _
  rw [Ideal.dotGeneral_apply]
  rw [← Equiv.sum_comp (contrEquiv1 Dr 64 rfl rfl).symm]
  refine Finset.sum_congr rfl fun k _ => ?_
  have hl : Dr.lhsIdx (ix2 p q) ((contrEquiv1 Dr 64 rfl rfl).symm k) = ix2 p k := by
    funext a; apply Fin.ext
    match a with
    | ⟨0, _⟩ => exact lhsR_0 _ _
    | ⟨1, _⟩ => exact (lhsR_1 _ _).trans (contrEquiv1_symm_val Dr 64 rfl rfl k)
  have hr : Dr.rhsIdx (ix2 p q) ((contrEquiv1 Dr 64 rfl rfl).symm k) = ix2 k q := by
    funext a; apply Fin.ext
    match a with
    | ⟨0, _⟩ => exact (rhsR_0 _ _).trans (contrEquiv1_symm_val Dr 64 rfl rfl k)
    | ⟨1, _⟩ => exact rhsR_1 _ _
  rw [hl, hr]

/-- The bias row repeated over all nodes reads the row at the column. -/
theorem biasR_apply (hb : Cert.ReferenceIdeal.S1x32.BroadcastsInDim Cert.ReferenceIdeal.S100000x32 ![0, 1])
    (b : FVec Ideal Cert.ReferenceIdeal.S1x32 .f32) (p : Fin 100000) (q : Fin 32) :
    broadcastInDim Cert.ReferenceIdeal.S100000x32 ![0, 1] hb b (ix2 p q) = b (ix2 (0 : Fin 1) q) := by
  refine broadcastInDim_apply ![0, 1] hb b (ix2 p q) (ix2 (0 : Fin 1) q) fun a => ?_
  match a with
  | ⟨0, _⟩ => rfl
  | ⟨1, _⟩ => rfl

/-- The last layer at node `p`, column `q`. -/
theorem lin3Row_apply (x : FVec Ideal Cert.ReferenceIdeal.S100000x64 .f32) (w : FVec Ideal Cert.ReferenceIdeal.S64x32 .f32)
    (b : FVec Ideal Cert.ReferenceIdeal.S1x32 .f32) (p : Fin 100000) (q : Fin 32) :
    Cert.Net.lin3Row (F := Ideal) x w b (ix2 p q) = ∑ k : Fin 64, x (ix2 p k) * w (ix2 k q) + b (ix2 (0 : Fin 1) q) := by
  unfold Cert.Net.lin3Row
  rw [addf_apply, prodR_apply, biasR_apply]

/-! ## From the blocks to the array -/

theorem hz : (![0, 0] : Fin 2 → Nat) = fun _ => 0 := funext fun a => by fin_cases a <;> rfl

/-- The index maps over the grid: the rows' and the result's blocks are the point's, the weights' and the bias row's
    blocks never move. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

variable (V : (c : Dev nD) → (b : Ref sig .tc) → Buf (Elt Ideal) ((c : Thread nD τ).loc b))

/-- What point `t` writes back is block `t` of the whole layer's result. -/
theorem flushed4_eq (c : Dev nD) (t : Fin cfg4.N) :
    (dat4 (F := Ideal) V c).flushed 3 t
      = ((cfg4.win 3).blk t).view.read (Elt Ideal) (Cert.Net.lin3Row (F := Ideal) (V c main_v61) (V c main_arg7) (V c main_v62)) := by
  show (cfg4.win 3).cut (cfg4.grid.coords t) ((dat4 V c).after 3 t) = _
  rw [after4_3]
  unfold out4_3
  rw [View.canon_unit_zero hz]
  simp only [View.ld_unit_zero (S := S5000x64) hz, View.ld_unit_zero (S := S64x32) hz, View.ld_unit_zero (S := S1x32) hz]
  obtain ⟨e00, e01, e10, e11, e20, e21, e30, e31⟩ := idx_facts4 t
  funext y
  obtain ⟨p, q, rfl⟩ : ∃ (p : Fin 5000) (q : Fin 32), y = ix2 p q := ⟨y 0, y 1, eq_ix2 y⟩
  have ht : t.val < 20 := lt_of_lt_of_eq t.isLt N_4
  have hrow : 5000 * t.val + p.val < 100000 := by have := p.isLt; omega
  show k4_pay1 (iblk4 V c 0 t) (iblk4 V c 1 t) (iblk4 V c 2 t) (ix2 p q)
      = Cert.Net.lin3Row (F := Ideal) (V c main_v61) (V c main_arg7) (V c main_v62) (((cfg4.win 3).blk t).view.emb (ix2 p q))
  have hemb : ((cfg4.win 3).blk t).view.emb (ix2 p q) = ix2 (⟨5000 * t.val + p.val, hrow⟩ : Fin 100000) q := by
    funext a; apply Fin.ext
    match a with
    | ⟨0, _⟩ => show win4_3.index t (0 : Fin 2) * 5000 + 1 * p.val = 5000 * t.val + p.val; omega
    | ⟨1, _⟩ => show win4_3.index t (1 : Fin 2) * 32 + 1 * q.val = q.val; omega
  rw [hemb, lin3Row_apply]
  refine (pay4_apply _ _ _ p q).trans ?_
  have h2 : ((cfg4.win 2).blk t).view.emb (ix2 (0 : Fin 1) q) = ix2 (0 : Fin 1) q := by
    funext a; apply Fin.ext
    match a with
    | ⟨0, _⟩ => show win4_2.index t (0 : Fin 2) * 1 + 1 * 0 = 0; omega
    | ⟨1, _⟩ => show win4_2.index t (1 : Fin 2) * 32 + 1 * q.val = q.val; omega
  have h2' : @Eq EReal (iblk4 V c 2 t (ix2 (0 : Fin 1) q)) (V c main_v62 (ix2 (0 : Fin 1) q)) := congrArg (V c main_v62) h2
  refine congrArg₂ (fun a b : EReal => a + b) (Finset.sum_congr rfl fun k _ => ?_) h2'
  have h0 : ((cfg4.win 0).blk t).view.emb (ix2 p k) = ix2 (⟨5000 * t.val + p.val, hrow⟩ : Fin 100000) k := by
    funext a; apply Fin.ext
    match a with
    | ⟨0, _⟩ => show win4_0.index t (0 : Fin 2) * 5000 + 1 * p.val = 5000 * t.val + p.val; omega
    | ⟨1, _⟩ => show win4_0.index t (1 : Fin 2) * 64 + 1 * k.val = k.val; omega
  have h1 : ((cfg4.win 1).blk t).view.emb (ix2 k q) = ix2 k q := by
    funext a; apply Fin.ext
    match a with
    | ⟨0, _⟩ => show win4_1.index t (0 : Fin 2) * 64 + 1 * k.val = k.val; omega
    | ⟨1, _⟩ => show win4_1.index t (1 : Fin 2) * 32 + 1 * q.val = q.val; omega
  have h0' : @Eq EReal (iblk4 V c 0 t (ix2 p k)) (V c main_v61 (ix2 (⟨5000 * t.val + p.val, hrow⟩ : Fin 100000) k)) :=
    congrArg (V c main_v61) h0
  have h1' : @Eq EReal (iblk4 V c 1 t (ix2 k q)) (V c main_arg7 (ix2 k q)) := congrArg (V c main_arg7) h1
  exact congrArg₂ (fun a b : EReal => a * b) h0' h1'

/-- An index of the array is in point `t`'s block iff each coordinate is in the block's range on its axis. -/
theorem mem_blk4 (t : Fin cfg4.N) (i : S100000x32.Idx) :
    i ∈ ((cfg4.win 3).blk t).view.set ↔ ∀ a : Fin 2, win4_3.index t a * S5000x32.size a ≤ (i a).val
      ∧ (i a).val < win4_3.index t a * S5000x32.size a + S5000x32.size a := by
  show i ∈ ((View.whole main_v63).slice (win4_3.rect t)).set ↔ _
  rw [View.set_slice_whole, Rect.mem_set_unit]
  exact Iff.rfl

/-- Every node row is in some point's block: row `r` in block `r / 5000`. -/
theorem cover4 (i : S100000x32.Idx) :
    ∃ t : Fin cfg4.N, (cfg4.win 3).flush t = true ∧ i ∈ ((cfg4.win 3).blk t).view.set := by
  have hi0 : (i 0).val < 100000 := (i 0).isLt
  have hi1 : (i 1).val < 32 := (i 1).isLt
  refine ⟨⟨(i 0).val / 5000, by rw [show cfg4.N = 20 from N_4]; omega⟩, flush4_3 _, ?_⟩
  rw [mem_blk4]
  obtain ⟨-, -, -, -, -, -, e30, e31⟩ := idx_facts4 ⟨(i 0).val / 5000, by rw [show cfg4.N = 20 from N_4]; omega⟩
  intro a
  match a with
  | ⟨0, _⟩ =>
    show win4_3.index _ (0 : Fin 2) * 5000 ≤ (i 0).val ∧ (i 0).val < win4_3.index _ (0 : Fin 2) * 5000 + 5000
    rw [e30]; show (i 0).val / 5000 * 5000 ≤ (i 0).val ∧ (i 0).val < (i 0).val / 5000 * 5000 + 5000; omega
  | ⟨1, _⟩ =>
    show win4_3.index _ (1 : Fin 2) * 32 ≤ (i 1).val ∧ (i 1).val < win4_3.index _ (1 : Fin 2) * 32 + 32
    rw [e31]; omega

end Lin3

variable (V : (c : Dev nD) → (b : Ref sig .tc) → Buf (Elt Ideal) ((c : Thread nD τ).loc b))

/-- THE ARRAY the last projection leaves: the whole product of the second layer's rows and the last weights, plus the
    bias row at every node. -/
theorem lin3_arr (c : Dev nD) :
    (dat4 (F := Ideal) V c).arrAt 3 cfg4.N
      = Cert.Net.lin3Row (F := Ideal) (V c main_v61) (V c main_arg7) (V c main_v62) :=
  (dat4 V c).arrAt_eq_of_cover 3 _ (fun t _ => Lin3.flushed4_eq V c t) Lin3.cover4

end Cert.KernelIdeal.Val

end
-- ==== Proof.Value.Act1.lean ====
/-
  The activation after an aggregation, max(agg + b, 0), as one function of whole arrays: after the pipeline the
  result array holds, at node row i and feature j, max(a(i, j) + b(0, j), 0) for the aggregated rows a and the
  1 × 64 bias row b the region finds: the reference's bias-and-ReLU layer of those two arrays.
  Point t's block is node rows 5000·t … 5000·t + 4999 over all 64 features; the bias row's one block is the whole
  row at every point. The body's payload at (p, q) of a block reads the rows' block at (p, q) and the bias row at
  (0, q), so what point t writes back is block t of the whole-array function; the twenty blocks tile the 100000
  rows (row r lies in block r / 5000), so the array ends holding that function.
-/
import proofs.«403423_j51041391345664_1_alg».proof.Proof.Ideal.Act1
import proofs.«403423_j51041391345664_1_alg».proof.Proof.Net
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Frame
open Idealize.ShloMosaic Idealize.ShloMosaic.TcCoe Idealize.ShloMosaic.ValueIdx
open Idealize.ShloMosaic.Pipeline (Dat)

/-- The whole-buffer rectangles sit at offset zero on both axes. -/
theorem hz1 : (![0, 0] : Fin 2 → Nat) = fun _ => 0 := funext fun a => by fin_cases a <;> rfl

/-- The body's payload at (p, q): the rows' block there, plus the bias row at (0, q) (the row is broadcast over
    the 5000 rows), clamped below at the zero word's value. -/
theorem pay1_apply (x0 : Vec Ideal S5000x64 .f32) (x1 : Vec Ideal S1x64 .f32) (p : Fin 5000) (q : Fin 64) :
    k1_pay1 x0 x1 (ix2 p q) = max (x0 (ix2 p q) + x1 (ix2 (0 : Fin 1) q)) (Ideal.ofBits .f32 0x00000000#32) := by
  unfold k1_pay1
  rw [maximumf_apply, addf_apply, shapeCast_self, shapeCast_self, broadcastTo_1b_ab_apply, broadcast_apply]
  rfl

/-- The reference's layer at (i, j): the same expression of the whole arrays. Its bias broadcast keeps the
    operand's unit axis at 0 and its feature axis at j; its zero array is the same word read everywhere. -/
theorem actRow1_apply (a : FVec Ideal S100000x64 .f32) (b : FVec Ideal S1x64 .f32) (i : Fin 100000) (j : Fin 64) :
    Cert.Net.actRow (F := Ideal) a b (ix2 i j) = max (a (ix2 i j) + b (ix2 (0 : Fin 1) j)) (Ideal.ofBits .f32 0x00000000#32) := by
  unfold Cert.Net.actRow
  rw [maximumf_apply, addf_apply]
  have e1 : broadcastInDim Cert.ReferenceIdeal.S100000x64 ![0, 1] Cert.ReferenceIdeal.Gen.bcast_S1x64_S100000x64_0_1 b (ix2 i j) = b (ix2 (0 : Fin 1) j) :=
    broadcastInDim_apply _ _ b (ix2 i j) (ix2 (0 : Fin 1) j) fun ax => by
      match ax with
      | ⟨0, _⟩ => rfl
      | ⟨1, _⟩ =>
        show j.val = if (64 : ℕ) = 1 then 0 else j.val
        rw [if_neg (by decide)]
  have e2 : broadcastInDim Cert.ReferenceIdeal.S100000x64 ![] Cert.ReferenceIdeal.Gen.bcast_S_S100000x64 (constant (F := Ideal) Cert.ReferenceIdeal.S_ .f32 0x00000000#32) (ix2 i j) = Ideal.ofBits .f32 0x00000000#32 :=
    broadcastInDim_apply _ _ _ (ix2 i j) ix0 fun ax => ax.elim0
  rw [e1, e2]

/-- The same at any index of the array whose feature coordinate is j. -/
theorem actRow1_at (a : FVec Ideal S100000x64 .f32) (b : FVec Ideal S1x64 .f32) (k : S100000x64.Idx) (j : Fin 64) (hj : (k 1).val = j.val) :
    Cert.Net.actRow (F := Ideal) a b k = max (a k + b (ix2 (0 : Fin 1) j)) (Ideal.ofBits .f32 0x00000000#32) := by
  obtain ⟨i, j', rfl⟩ : ∃ (i : Fin 100000) (j' : Fin 64), k = ix2 i j' := ⟨k 0, k 1, eq_ix2 k⟩
  obtain rfl : j' = j := Fin.ext hj
  exact actRow1_apply a b i j'

/-- One entry: where the rows' block at (p, q) is the array's entry at k, k's feature coordinate is q, and the
    bias block is the bias row, the payload at (p, q) is the layer's value at k. -/
theorem act1_point (a : FVec Ideal S100000x64 .f32) (b : FVec Ideal S1x64 .f32) (x0 : Vec Ideal S5000x64 .f32) (x1 : Vec Ideal S1x64 .f32)
    (p : Fin 5000) (q : Fin 64) (k : S100000x64.Idx) (hk : (k 1).val = q.val)
    (h0 : x0 (ix2 p q) = a k) (h1 : x1 (ix2 (0 : Fin 1) q) = b (ix2 (0 : Fin 1) q)) :
    k1_pay1 x0 x1 (ix2 p q) = Cert.Net.actRow (F := Ideal) a b k := by
  rw [pay1_apply, actRow1_at a b k q hk, h0, h1]

/-- The index maps over the grid: the rows' and the result's block index is (t, 0), the bias row's (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t of the layer of the two arrays the region finds: entry (p, q) of the
    block is array entry (5000·t + p, q); the rows' block sits on the same rectangle as the result's, and the bias
    row's block is the row itself. -/
theorem flushed1_2_eq (c : Dev nD) (t : Fin cfg1.N) :
    (dat1 (F := Ideal) V c).flushed 2 t
      = ((cfg1.win 2).blk t).view.read (Elt Ideal) (Cert.Net.actRow (F := Ideal) (V c main_v43) (V c main_v44)) := by
  show (cfg1.win 2).cut (cfg1.grid.coords t) ((dat1 V c).after 2 t) = _
  rw [after1_2]
  unfold out1_2
  rw [View.canon_unit_zero hz1]
  simp only [View.ld_unit_zero (S := S5000x64) hz1, View.ld_unit_zero (S := S1x64) hz1]
  obtain ⟨e00, e01, e10, e11, e20, e21⟩ := idx_facts1 t
  funext y
  obtain ⟨p, q, rfl⟩ : ∃ (p : Fin 5000) (q : Fin 64), y = ix2 p q := ⟨y 0, y 1, eq_ix2 y⟩
  show k1_pay1 (iblk1 V c 0 t) (iblk1 V c 1 t) (ix2 p q)
    = Cert.Net.actRow (F := Ideal) (V c main_v43) (V c main_v44) (((cfg1.win 2).blk t).view.emb (ix2 p q))
  have hq : ((((cfg1.win 2).blk t).view.emb (ix2 p q)) 1).val = q.val := by
    show win1_2.index t (1 : Fin 2) * 64 + 1 * q.val = q.val
    omega
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 64 + 1 * q.val = win1_2.index t (1 : Fin 2) * 64 + 1 * q.val; omega
  have h1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 64 + 1 * q.val = q.val; omega
  have hA : iblk1 V c 0 t (ix2 p q) = V c main_v43 (((cfg1.win 2).blk t).view.emb (ix2 p q)) := by
    show V c main_v43 (((cfg1.win 0).blk t).view.emb (ix2 p q)) = _
    exact congrArg (V c main_v43) h0
  have hB : iblk1 V c 1 t (ix2 (0 : Fin 1) q) = V c main_v44 (ix2 (0 : Fin 1) q) := by
    show V c main_v44 (((cfg1.win 1).blk t).view.emb (ix2 (0 : Fin 1) q)) = _
    exact congrArg (V c main_v44) h1
  exact act1_point (V c main_v43) (V c main_v44) (iblk1 V c 0 t) (iblk1 V c 1 t) p q
    (((cfg1.win 2).blk t).view.emb (ix2 p q)) hq hA hB

/-- An index of the array is in point t's block iff each coordinate is in the block's range on its axis. -/
theorem mem_blk1_2 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v45).slice (win1_2.rect t)).set ↔ _
  rw [View.set_slice_whole, Rect.mem_set_unit]
  exact Iff.rfl

/-- The blocks tile the array: row r lies in the block of point r / 5000, and every point writes back. -/
theorem covered1_2 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, e20, e21⟩ := idx_facts1 t
  refine ⟨t, flush1_2 t, ?_⟩
  rw [mem_blk1_2]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The result array after the pipeline is the bias-and-ReLU layer of the aggregated rows and the bias row the
    region finds. -/
theorem act1_arr (c : Dev nD) :
    (dat1 (F := Ideal) V c).arrAt 2 cfg1.N = Cert.Net.actRow (F := Ideal) (V c main_v43) (V c main_v44) :=
  (dat1 (F := Ideal) V c).arrAt_eq_of_cover 2 _ (fun t _ => flushed1_2_eq V c t) covered1_2

end Cert.KernelIdeal.Val

end
-- ==== Proof.Value.Act2.lean ====
/-
  The activation after an aggregation, max(agg + b, 0), as one function of whole arrays: after the pipeline the
  result array holds, at node row i and feature j, max(a(i, j) + b(0, j), 0) for the aggregated rows a and the
  1 × 64 bias row b the region finds: the reference's bias-and-ReLU layer of those two arrays.
  Point t's block is node rows 5000·t … 5000·t + 4999 over all 64 features; the bias row's one block is the whole
  row at every point. The body's payload at (p, q) of a block reads the rows' block at (p, q) and the bias row at
  (0, q), so what point t writes back is block t of the whole-array function; the twenty blocks tile the 100000
  rows (row r lies in block r / 5000), so the array ends holding that function.
-/
import proofs.«403423_j51041391345664_1_alg».proof.Proof.Ideal.Act2
import proofs.«403423_j51041391345664_1_alg».proof.Proof.Net
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Frame
open Idealize.ShloMosaic Idealize.ShloMosaic.TcCoe Idealize.ShloMosaic.ValueIdx
open Idealize.ShloMosaic.Pipeline (Dat)

/-- The whole-buffer rectangles sit at offset zero on both axes. -/
theorem hz3 : (![0, 0] : Fin 2 → Nat) = fun _ => 0 := funext fun a => by fin_cases a <;> rfl

/-- The body's payload at (p, q): the rows' block there, plus the bias row at (0, q) (the row is broadcast over
    the 5000 rows), clamped below at the zero word's value. -/
theorem pay3_apply (x0 : Vec Ideal S5000x64 .f32) (x1 : Vec Ideal S1x64 .f32) (p : Fin 5000) (q : Fin 64) :
    k3_pay1 x0 x1 (ix2 p q) = max (x0 (ix2 p q) + x1 (ix2 (0 : Fin 1) q)) (Ideal.ofBits .f32 0x00000000#32) := by
  unfold k3_pay1
  rw [maximumf_apply, addf_apply, shapeCast_self, shapeCast_self, broadcastTo_1b_ab_apply, broadcast_apply]
  rfl

/-- The reference's layer at (i, j): the same expression of the whole arrays. Its bias broadcast keeps the
    operand's unit axis at 0 and its feature axis at j; its zero array is the same word read everywhere. -/
theorem actRow3_apply (a : FVec Ideal S100000x64 .f32) (b : FVec Ideal S1x64 .f32) (i : Fin 100000) (j : Fin 64) :
    Cert.Net.actRow (F := Ideal) a b (ix2 i j) = max (a (ix2 i j) + b (ix2 (0 : Fin 1) j)) (Ideal.ofBits .f32 0x00000000#32) := by
  unfold Cert.Net.actRow
  rw [maximumf_apply, addf_apply]
  have e1 : broadcastInDim Cert.ReferenceIdeal.S100000x64 ![0, 1] Cert.ReferenceIdeal.Gen.bcast_S1x64_S100000x64_0_1 b (ix2 i j) = b (ix2 (0 : Fin 1) j) :=
    broadcastInDim_apply _ _ b (ix2 i j) (ix2 (0 : Fin 1) j) fun ax => by
      match ax with
      | ⟨0, _⟩ => rfl
      | ⟨1, _⟩ =>
        show j.val = if (64 : ℕ) = 1 then 0 else j.val
        rw [if_neg (by decide)]
  have e2 : broadcastInDim Cert.ReferenceIdeal.S100000x64 ![] Cert.ReferenceIdeal.Gen.bcast_S_S100000x64 (constant (F := Ideal) Cert.ReferenceIdeal.S_ .f32 0x00000000#32) (ix2 i j) = Ideal.ofBits .f32 0x00000000#32 :=
    broadcastInDim_apply _ _ _ (ix2 i j) ix0 fun ax => ax.elim0
  rw [e1, e2]

/-- The same at any index of the array whose feature coordinate is j. -/
theorem actRow3_at (a : FVec Ideal S100000x64 .f32) (b : FVec Ideal S1x64 .f32) (k : S100000x64.Idx) (j : Fin 64) (hj : (k 1).val = j.val) :
    Cert.Net.actRow (F := Ideal) a b k = max (a k + b (ix2 (0 : Fin 1) j)) (Ideal.ofBits .f32 0x00000000#32) := by
  obtain ⟨i, j', rfl⟩ : ∃ (i : Fin 100000) (j' : Fin 64), k = ix2 i j' := ⟨k 0, k 1, eq_ix2 k⟩
  obtain rfl : j' = j := Fin.ext hj
  exact actRow3_apply a b i j'

/-- One entry: where the rows' block at (p, q) is the array's entry at k, k's feature coordinate is q, and the
    bias block is the bias row, the payload at (p, q) is the layer's value at k. -/
theorem act3_point (a : FVec Ideal S100000x64 .f32) (b : FVec Ideal S1x64 .f32) (x0 : Vec Ideal S5000x64 .f32) (x1 : Vec Ideal S1x64 .f32)
    (p : Fin 5000) (q : Fin 64) (k : S100000x64.Idx) (hk : (k 1).val = q.val)
    (h0 : x0 (ix2 p q) = a k) (h1 : x1 (ix2 (0 : Fin 1) q) = b (ix2 (0 : Fin 1) q)) :
    k3_pay1 x0 x1 (ix2 p q) = Cert.Net.actRow (F := Ideal) a b k := by
  rw [pay3_apply, actRow3_at a b k q hk, h0, h1]

/-- The index maps over the grid: the rows' and the result's block index is (t, 0), the bias row's (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What point t writes back is block t of the layer of the two arrays the region finds: entry (p, q) of the
    block is array entry (5000·t + p, q); the rows' block sits on the same rectangle as the result's, and the bias
    row's block is the row itself. -/
theorem flushed3_2_eq (c : Dev nD) (t : Fin cfg3.N) :
    (dat3 (F := Ideal) V c).flushed 2 t
      = ((cfg3.win 2).blk t).view.read (Elt Ideal) (Cert.Net.actRow (F := Ideal) (V c main_v59) (V c main_v60)) := by
  show (cfg3.win 2).cut (cfg3.grid.coords t) ((dat3 V c).after 2 t) = _
  rw [after3_2]
  unfold out3_2
  rw [View.canon_unit_zero hz3]
  simp only [View.ld_unit_zero (S := S5000x64) hz3, View.ld_unit_zero (S := S1x64) hz3]
  obtain ⟨e00, e01, e10, e11, e20, e21⟩ := idx_facts3 t
  funext y
  obtain ⟨p, q, rfl⟩ : ∃ (p : Fin 5000) (q : Fin 64), y = ix2 p q := ⟨y 0, y 1, eq_ix2 y⟩
  show k3_pay1 (iblk3 V c 0 t) (iblk3 V c 1 t) (ix2 p q)
    = Cert.Net.actRow (F := Ideal) (V c main_v59) (V c main_v60) (((cfg3.win 2).blk t).view.emb (ix2 p q))
  have hq : ((((cfg3.win 2).blk t).view.emb (ix2 p q)) 1).val = q.val := by
    show win3_2.index t (1 : Fin 2) * 64 + 1 * q.val = q.val
    omega
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * q.val = win3_2.index t (1 : Fin 2) * 64 + 1 * q.val; omega
  have h1 : ((cfg3.win 1).blk t).view.emb (ix2 (0 : Fin 1) q) = ix2 (0 : Fin 1) q := by
    funext a; apply Fin.ext
    match a with
    | ⟨0, _⟩ => show win3_1.index t (0 : Fin 2) * 1 + 1 * 0 = 0; omega
    | ⟨1, _⟩ => show win3_1.index t (1 : Fin 2) * 64 + 1 * q.val = q.val; omega
  have hA : iblk3 V c 0 t (ix2 p q) = V c main_v59 (((cfg3.win 2).blk t).view.emb (ix2 p q)) := by
    show V c main_v59 (((cfg3.win 0).blk t).view.emb (ix2 p q)) = _
    exact congrArg (V c main_v59) h0
  have hB : iblk3 V c 1 t (ix2 (0 : Fin 1) q) = V c main_v60 (ix2 (0 : Fin 1) q) := by
    show V c main_v60 (((cfg3.win 1).blk t).view.emb (ix2 (0 : Fin 1) q)) = _
    exact congrArg (V c main_v60) h1
  exact act3_point (V c main_v59) (V c main_v60) (iblk3 V c 0 t) (iblk3 V c 1 t) p q
    (((cfg3.win 2).blk t).view.emb (ix2 p q)) hq hA hB

/-- An index of the array is in point t's block iff each coordinate is in the block's range on its axis. -/
theorem mem_blk3_2 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- The blocks tile the array: row r lies in the block of point r / 5000, and every point writes back. -/
theorem covered3_2 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, e20, e21⟩ := idx_facts3 t
  refine ⟨t, flush3_2 t, ?_⟩
  rw [mem_blk3_2]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The result array after the pipeline is the bias-and-ReLU layer of the aggregated rows and the bias row the
    region finds. -/
theorem act2_arr (c : Dev nD) :
    (dat3 (F := Ideal) V c).arrAt 2 cfg3.N = Cert.Net.actRow (F := Ideal) (V c main_v59) (V c main_v60) :=
  (dat3 (F := Ideal) V c).arrAt_eq_of_cover 2 _ (fun t _ => flushed3_2_eq V c t) covered3_2

end Cert.KernelIdeal.Val

end
-- ==== Proof.PoolSpec.lean ====
/-
  Segment sums and block sums over the extended reals.

  A host scatter-add whose start index is one signed word per update row adds, to element (g, q) of the
  operand, exactly the update rows r whose word reads g: a SEGMENT SUM. The same sum is reached by walking
  the rows in 20 blocks of 5000 and weighting each row by a one-hot entry (1 where the row's word is the
  word of g, else 0), since in the extended reals 0 · x = 0 and 1 · x = x for every x, infinities included,
  and addition is commutative and associative. No finiteness is assumed anywhere.
-/
import Idealize.ShloMosaic.PureOps.Ideal
import Idealize.ShloMosaic.Lib.ValueIdx
import Mathlib.Logic.Equiv.Fin.Basic
import Mathlib.Algebra.BigOperators.Fin

noncomputable section

open scoped BigOperators

namespace Cert.PoolSpec

open Idealize.ShloMosaic Idealize.ShloMosaic.ValueIdx

/-! ## Words, blocks, one-hot weights -/

/-- A 32-bit word reads, signed, the small natural `g` exactly when it is the word of `g`. -/
theorem toInt_eq_iff (w : BitVec 32) (g : ℕ) (hg : g < 64) : w.toInt = (g : ℤ) ↔ w = BitVec.ofNat 32 g := by
  constructor
  · intro h
    apply BitVec.eq_of_toNat_eq
    rw [BitVec.toNat_ofNat]
    have hw := w.isLt
    rw [BitVec.toInt_eq_toNat_cond] at h
    split at h <;> omega
  · rintro rfl
    rw [BitVec.toInt_eq_toNat_cond, BitVec.toNat_ofNat]
    have : g % 2 ^ 32 = g := Nat.mod_eq_of_lt (by omega)
    rw [this, if_pos (by omega)]

/-- A sum over `m * n` consecutive naturals is the sum over `m` blocks of `n`. -/
theorem sum_mul_blocks {M : Type*} [AddCommMonoid M] (m n : ℕ) (f : Fin (m * n) → M) :
    ∑ r : Fin (m * n), f r = ∑ b : Fin m, ∑ r' : Fin n, f (finProdFinEquiv (b, r')) := by
  rw [← Equiv.sum_comp finProdFinEquiv f, Fintype.sum_prod_type]

/-- A sum over 100000 rows is the sum over 20 blocks of 5000 consecutive rows. -/
theorem sum_blocks (f : Fin 100000 → EReal) :
    ∑ r : Fin 100000, f r = ∑ b : Fin 20, ∑ r' : Fin 5000, f ⟨5000 * b.val + r'.val, by omega⟩ := by
  rw [show (∑ r : Fin 100000, f r) = ∑ r : Fin (20 * 5000), f r from rfl, sum_mul_blocks 20 5000 f]
  refine Finset.sum_congr rfl fun b _ => Finset.sum_congr rfl fun r' _ => ?_
  congr 1
  exact Fin.ext (Nat.add_comm _ _)

/-- Weighting every row by the one-hot entry for `g` (`1 · x = x`, `0 · x = 0`) keeps exactly the rows whose word reads `g`. -/
theorem onehot_sum (ids : Fin 100000 → BitVec 32) (a : Fin 100000 → EReal) (g : Fin 64) :
    ∑ r : Fin 100000, (if ids r = BitVec.ofNat 32 g.val then (1 : EReal) else 0) * a r
      = ∑ r : Fin 100000, if (ids r).toInt = (g.val : ℤ) then a r else 0 := by
  refine Finset.sum_congr rfl fun r _ => ?_
  by_cases h : ids r = BitVec.ofNat 32 g.val
  · rw [if_pos h, if_pos ((toInt_eq_iff _ _ g.isLt).2 h), one_mul]
  · rw [if_neg h, if_neg (fun h' => h ((toInt_eq_iff _ _ g.isLt).1 h')), zero_mul]

/-! ## The scatter-add read at one element -/

/-- An update lands at operand index `i` exactly when, on every axis, its start plus its window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + d.window j a = ((i a).val : ℤ) := by
  unfold ScatterDims.resultIdx?
  constructor
  · intro h
    split at h
    · rename_i hr
      have hi := Option.some.inj h
      intro a
      have ha := congrArg (fun f => (f a).val) hi
      simp only at ha
      have := hr a
      omega
    · exact absurd h (by simp)
  · intro h
    have hr : ∀ a, 0 ≤ d.start j idx a + d.window j a ∧ d.start j idx a + d.window j a < s.size a := by
      intro a; rw [h a]; have := (i a).isLt; omega
    rw [dif_pos hr]
    congr 1
    funext a
    apply Fin.ext
    simp only
    rw [h a]; simp

/-- Rows into a 64 × 32 operand: update element `(r, q')` lands at `(g, q)` exactly when row `r`'s word reads `g`
    and `q' = q` (start `(word, 0)`, window coordinate `(0, q')`). -/
theorem rows_resultIdx?_iff {w : Nat}
    (d : ScatterDims ⟨2, ![64, 32]⟩ ⟨2, ![100000, 1]⟩ ⟨2, ![100000, 32]⟩)
    (h1 : d.updateWindowDims = [1]) (h2 : d.insertedWindowDims = [0])
    (h3 : d.scatterDimsToOperandDims = [0]) (h4 : d.indexVectorDim = 1)
    (idx : IVec ⟨2, ![100000, 1]⟩ w) (r : Fin 100000) (q' : Fin 32) (g : Fin 64) (q : Fin 32) :
    d.resultIdx? (ix2 r q') idx = some (ix2 g q) ↔ (idx (ix2 r 0)).toInt = (g.val : ℤ) ∧ q' = q := by
  obtain ⟨uw, iw, sd, iv, wf⟩ := d
  dsimp only at h1 h2 h3 h4
  subst h1 h2 h3 h4
  rw [resultIdx?_eq_some_iff, Fin.forall_fin_two]
  generalize hd : (ScatterDims.mk [1] [0] [0] 1 wf : ScatterDims ⟨2, ![64, 32]⟩ ⟨2, ![100000, 1]⟩ ⟨2, ![100000, 32]⟩) = d
  have s0 : d.start (ix2 r q') idx 0 = (idx (ix2 r 0)).toInt := by
    subst hd
    unfold ScatterDims.start
    rw [dif_pos (List.mem_singleton.mpr rfl)]
    congr 2
    funext b
    refine Fin.ext ?_
    match b with
    | ⟨0, _⟩ => rfl
    | ⟨1, _⟩ => rfl
  have s1 : d.start (ix2 r q') idx 1 = 0 := by
    subst hd
    unfold ScatterDims.start
    rw [dif_neg (show (1 : Fin 2) ∉ ([0] : List (Fin 2)) by decide)]
  have w0 : d.window (ix2 r q') 0 = 0 := by
    subst hd
    unfold ScatterDims.window
    rw [dif_neg (show (0 : Fin 2) ∉ (⟨2, ![64, 32]⟩ : Shape).kept [0] by decide)]
  have w1 : d.window (ix2 r q') 1 = q'.val := by
    subst hd
    unfold ScatterDims.window
    rw [dif_pos (show (1 : Fin 2) ∈ (⟨2, ![64, 32]⟩ : Shape).kept [0] by decide)]
    rfl
  rw [s0, s1, w0, w1]
  show (idx (ix2 r 0)).toInt + ((0 : ℕ) : ℤ) = (g.val : ℤ) ∧ (0 : ℤ) + (q'.val : ℤ) = (q.val : ℤ) ↔ _
  constructor
  · rintro ⟨ha, hb⟩; exact ⟨by omega, Fin.ext (by omega)⟩
  · rintro ⟨ha, rfl⟩; exact ⟨by omega, by omega⟩

/-- THE SEGMENT SUM: element `(g, q)` of the scatter-add is the operand there plus the sum of column `q` over the
    rows whose word reads `g`. -/
theorem scatterAdd_rows_apply {w : Nat}
    (d : ScatterDims ⟨2, ![64, 32]⟩ ⟨2, ![100000, 1]⟩ ⟨2, ![100000, 32]⟩)
    (h1 : d.updateWindowDims = [1]) (h2 : d.insertedWindowDims = [0])
    (h3 : d.scatterDimsToOperandDims = [0]) (h4 : d.indexVectorDim = 1)
    (x : (⟨2, ![64, 32]⟩ : Shape).Idx → EReal) (idx : IVec ⟨2, ![100000, 1]⟩ w)
    (upd : (⟨2, ![100000, 32]⟩ : Shape).Idx → EReal) (g : Fin 64) (q : Fin 32) :
    Ideal.hostScatterAdd d x idx upd (ix2 g q)
      = x (ix2 g q) + ∑ r : Fin 100000, if (idx (ix2 r 0)).toInt = (g.val : ℤ) then upd (ix2 r q) else 0 := by
  have key := rows_resultIdx?_iff d h1 h2 h3 h4 idx
  unfold Ideal.hostScatterAdd
  beta_reduce
  refine congrArg (x (ix2 g q) + ·) ?_
  rw [Finset.sum_filter, sum_idx2]
  refine Finset.sum_congr rfl fun r _ => ?_
  by_cases ht : (idx (ix2 r 0)).toInt = (g.val : ℤ)
  · rw [if_pos ht, Finset.sum_eq_single q]
    · rw [if_pos ((key r q g q).2 ⟨ht, rfl⟩)]
    · intro q' _ hne
      rw [if_neg (fun h => hne ((key r q' g q).1 h).2)]
    · intro h; exact absurd (Finset.mem_univ q) h
  · rw [if_neg ht]
    refine Finset.sum_eq_zero fun q' _ => ?_
    rw [if_neg (fun h => ht ((key r q' g q).1 h).1)]

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Scalars into a length-64 operand: update element `r` lands at `g` exactly when row `r`'s word reads `g`. -/
theorem count_resultIdx?_iff {w : Nat}
    (d : ScatterDims ⟨1, ![64]⟩ ⟨2, ![100000, 1]⟩ ⟨1, ![100000]⟩)
    (h1 : d.updateWindowDims = []) (h2 : d.insertedWindowDims = [0])
    (h3 : d.scatterDimsToOperandDims = [0]) (h4 : d.indexVectorDim = 1)
    (idx : IVec ⟨2, ![100000, 1]⟩ w) (r : Fin 100000) (g : Fin 64) :
    d.resultIdx? (ix1 r) idx = some (ix1 g) ↔ (idx (ix2 r 0)).toInt = (g.val : ℤ) := by
  obtain ⟨uw, iw, sd, iv, wf⟩ := d
  dsimp only at h1 h2 h3 h4
  subst h1 h2 h3 h4
  rw [resultIdx?_eq_some_iff, Fin.forall_fin_one]
  generalize hd : (ScatterDims.mk [] [0] [0] 1 wf : ScatterDims ⟨1, ![64]⟩ ⟨2, ![100000, 1]⟩ ⟨1, ![100000]⟩) = d
  have s0 : d.start (ix1 r) idx 0 = (idx (ix2 r 0)).toInt := by
    subst hd
    unfold ScatterDims.start
    rw [dif_pos (List.mem_singleton.mpr rfl)]
    congr 2
    funext b
    refine Fin.ext ?_
    match b with
    | ⟨0, _⟩ => rfl
    | ⟨1, _⟩ => rfl
  have w0 : d.window (ix1 r) 0 = 0 := by
    subst hd
    unfold ScatterDims.window
    rw [dif_neg (show (0 : Fin 1) ∉ (⟨1, ![64]⟩ : Shape).kept [0] by decide)]
  rw [s0, w0]
  show (idx (ix2 r 0)).toInt + ((0 : ℕ) : ℤ) = (g.val : ℤ) ↔ _
  constructor <;> intro h <;> omega

/-- THE SEGMENT COUNT (or any per-row scalar): element `g` of the scatter-add is the operand there plus the sum of
    the updates of the rows whose word reads `g`. -/
theorem scatterAdd_count_apply {w : Nat}
    (d : ScatterDims ⟨1, ![64]⟩ ⟨2, ![100000, 1]⟩ ⟨1, ![100000]⟩)
    (h1 : d.updateWindowDims = []) (h2 : d.insertedWindowDims = [0])
    (h3 : d.scatterDimsToOperandDims = [0]) (h4 : d.indexVectorDim = 1)
    (x : (⟨1, ![64]⟩ : Shape).Idx → EReal) (idx : IVec ⟨2, ![100000, 1]⟩ w)
    (upd : (⟨1, ![100000]⟩ : Shape).Idx → EReal) (g : Fin 64) :
    Ideal.hostScatterAdd d x idx upd (ix1 g)
      = x (ix1 g) + ∑ r : Fin 100000, if (idx (ix2 r 0)).toInt = (g.val : ℤ) then upd (ix1 r) else 0 := by
  have key := count_resultIdx?_iff d h1 h2 h3 h4 idx
  unfold Ideal.hostScatterAdd
  beta_reduce
  refine congrArg (x (ix1 g) + ·) ?_
  rw [Finset.sum_filter, sum_idx1]
  refine Finset.sum_congr rfl fun r _ => ?_
  by_cases ht : (idx (ix2 r 0)).toInt = (g.val : ℤ)
  · rw [if_pos ht, if_pos ((key r g).2 ht)]
  · rw [if_neg ht, if_neg (fun h => ht ((key r g).1 h))]

end Cert.PoolSpec

end
-- ==== Proof.Value.PoolAcc.lean ====
/-
  The pooling region's running sums, read at an index, at the ideal values.

  The region walks the 100000 node rows in twenty blocks of 5000. Each block adds to the 64 × 33 scratch the product
  of the block's one-hot matrix, transposed, with the block's rows: entry (r', g) of the one-hot matrix is 1 where
  row r' carries graph g's id and 0 elsewhere, so entry (g, q) of the product is the sum of the q-th elements of the
  block's rows that belong to graph g. The scratch starts at zero. After all twenty blocks entry (g, q) is therefore
  the sum over ALL rows r of [id r = g] · row r's q-th element: the block sums are the one sum cut at every 5000, and
  in the extended reals 0 · x = 0 and 1 · x = x for every x, so no finiteness is asked of the rows.
-/
import proofs.«403423_j51041391345664_1_alg».proof.Proof.Ideal.Pool
import proofs.«403423_j51041391345664_1_alg».proof.Proof.PoolSpec
import proofs.«403423_j51041391345664_1_alg».proof.Proof.Gen.KernelIdeal.Launch
import proofs.«403423_j51041391345664_1_alg».proof.Proof.Gen.KernelIdeal.Skeleton
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

open scoped BigOperators

namespace Cert.KernelIdeal.Val

open Cert.KernelIdeal Cert.KernelIdeal.Gen Cert.KernelIdeal.Frame
open Idealize.ShloMosaic Idealize.ShloMosaic.TcCoe Idealize.ShloMosaic.ValueIdx

/-! ## The product's operand indices

  The product contracts axis 0 of BOTH operands (the 5000 rows of the block) and keeps axis 1 of each: at output
  entry j = (g, q) and contraction position k the left operand is read at (k, g) and the right one at (k, q). -/

theorem lhs_pool_0 (j : S64x33.Idx) (k : dot_S5000x64_S5000x33_S64x33_0_0_1_1_n_n.contr.Idx) :
    (dot_S5000x64_S5000x33_S64x33_0_0_1_1_n_n.lhsIdx j k 0).val = (k ⟨0, by decide⟩).val :=
  dot_S5000x64_S5000x33_S64x33_0_0_1_1_n_n.lhsIdx_val_of_single rfl j k

theorem rhs_pool_0 (j : S64x33.Idx) (k : dot_S5000x64_S5000x33_S64x33_0_0_1_1_n_n.contr.Idx) :
    (dot_S5000x64_S5000x33_S64x33_0_0_1_1_n_n.rhsIdx j k 0).val = (k ⟨0, by decide⟩).val :=
  dot_S5000x64_S5000x33_S64x33_0_0_1_1_n_n.rhsIdx_val_of_single rfl j k

theorem lhs_pool_1 (j : S64x33.Idx) (k : dot_S5000x64_S5000x33_S64x33_0_0_1_1_n_n.contr.Idx) :
    (dot_S5000x64_S5000x33_S64x33_0_0_1_1_n_n.lhsIdx j k 1).val = (j 0).val := by
  simp [DotDims.lhsIdx, dot_S5000x64_S5000x33_S64x33_0_0_1_1_n_n]; rfl

theorem rhs_pool_1 (j : S64x33.Idx) (k : dot_S5000x64_S5000x33_S64x33_0_0_1_1_n_n.contr.Idx) :
    (dot_S5000x64_S5000x33_S64x33_0_0_1_1_n_n.rhsIdx j k 1).val = (j 1).val := by
  simp [DotDims.rhsIdx, dot_S5000x64_S5000x33_S64x33_0_0_1_1_n_n]; rfl

/-! ## One block's payload at an entry -/

/-- A one-bit equality test, widened and read as a number, is 1 where the words agree and 0 elsewhere. -/
theorem pool_onehot_word (a b : BitVec 32) :
    FloatOps.sitofp (F := Ideal) .f32 ((IntOp.cmpi .eq a b).setWidth 32) = if a = b then (1 : EReal) else 0 := by
  by_cases h : a = b
  · rw [if_pos h, StableHlo.Predicate.cmpi_eq_iff.2 h]
    show ((((1#1 : BitVec 1).setWidth 32).toInt : ℝ) : EReal) = 1
    rw [show ((1#1 : BitVec 1).setWidth 32).toInt = 1 by decide]
    simp
  · rw [if_neg h, eq_zero_of_ne_one (fun hc => h (StableHlo.Predicate.cmpi_eq_iff.1 hc))]
    show ((((0#1 : BitVec 1).setWidth 32).toInt : ℝ) : EReal) = 0
    rw [show ((0#1 : BitVec 1).setWidth 32).toInt = 0 by decide]
    simp

/-- The one-hot matrix of a block of ids against the lane numbers 0 … 63, read at row r', lane g: the id column is
    spread along the lanes, the lane numbers along the rows, and the two are compared word by word. -/
theorem pool_onehot_apply (ids : IVec S5000x1 32) (r' : Fin 5000) (g : Fin 64) :
    (sitofp (F := Ideal) .f32 (extui 32 (cmpi .eq (broadcastTo S5000x64 ids broadcasts_S5000x1_S5000x64)
        (broadcastTo S5000x64 (iota .tc S1x64 32 [1] iota_S1x64_d1_w32) broadcasts_S1x64_S5000x64)) natLt_1_32) : FVec Ideal S5000x64 .f32) (ix2 r' g)
      = if ids (ix2 r' 0) = BitVec.ofNat 32 g.val then (1 : EReal) else 0 := by
  rw [sitofp_apply, extui_apply]
  show FloatOps.sitofp (F := Ideal) .f32 ((IntOp.cmpi .eq (broadcastTo S5000x64 ids broadcasts_S5000x1_S5000x64 (ix2 r' g))
      (broadcastTo S5000x64 (iota .tc S1x64 32 [1] iota_S1x64_d1_w32) broadcasts_S1x64_S5000x64 (ix2 r' g))).setWidth 32) = _
  rw [broadcastTo_apply ids broadcasts_S5000x1_S5000x64 (ix2 r' g) (ix2 r' 0) (fun a => by match a with | ⟨0, _⟩ => rfl | ⟨1, _⟩ => rfl),
    broadcastTo_apply _ broadcasts_S1x64_S5000x64 (ix2 r' g) (ix2 0 g) (fun a => by match a with | ⟨0, _⟩ => rfl | ⟨1, _⟩ => rfl),
    iota_single_apply, pool_onehot_word]

/-- The step's payload at entry (g, q): the scratch there plus the block's rows of graph g, summed at element q.
    The product into a zero accumulator is the exact sum of products over the block's 5000 rows; the format
    changes around it are the identity at the ideal values. -/
theorem k5_pay2_apply (ids : Vec Ideal S5000x1 .i32) (aug : Vec Ideal S5000x33 .f32) (a : Vec Ideal S64x33 .f32) (g : Fin 64) (q : Fin 33) :
    k5_pay2 (F := Ideal) ids aug a (ix2 g q)
      = a (ix2 g q) + ∑ r' : Fin 5000, (if ids (ix2 r' 0) = BitVec.ofNat 32 g.val then (1 : EReal) else 0) * aug (ix2 r' q) := by
  unfold k5_pay2
  simp only [shapeCast_self, matmul]
  rw [addf_apply, Ideal.matmul_constant_zero_apply]
  refine congrArg (a (ix2 g q) + ·) ?_
  rw [← Equiv.sum_comp (contrEquiv1 dot_S5000x64_S5000x33_S64x33_0_0_1_1_n_n 5000 rfl rfl).symm]
  refine Finset.sum_congr rfl fun r' _ => ?_
  have hl : dot_S5000x64_S5000x33_S64x33_0_0_1_1_n_n.lhsIdx (ix2 g q)
      ((contrEquiv1 dot_S5000x64_S5000x33_S64x33_0_0_1_1_n_n 5000 rfl rfl).symm r') = ix2 r' g := by
    funext a; apply Fin.ext
    match a with
    | ⟨0, _⟩ => exact (lhs_pool_0 _ _).trans (contrEquiv1_symm_val _ 5000 rfl rfl r')
    | ⟨1, _⟩ => exact lhs_pool_1 _ _
  have hr : dot_S5000x64_S5000x33_S64x33_0_0_1_1_n_n.rhsIdx (ix2 g q)
      ((contrEquiv1 dot_S5000x64_S5000x33_S64x33_0_0_1_1_n_n 5000 rfl rfl).symm r') = ix2 r' q := by
    funext a; apply Fin.ext
    match a with
    | ⟨0, _⟩ => exact (rhs_pool_0 _ _).trans (contrEquiv1_symm_val _ 5000 rfl rfl r')
    | ⟨1, _⟩ => exact rhs_pool_1 _ _
  rw [hl, hr, truncf_apply, truncf_apply, pool_onehot_apply]

/-- The running sums start at zero. -/
theorem k5_pay1_apply (g : Fin 64) (q : Fin 33) : k5_pay1 (F := Ideal) (ix2 g q) = (0 : EReal) := by
  unfold k5_pay1
  simp only [shapeCast_self]
  rw [broadcast_apply]
  exact Ideal.ofBits_zero_f32

/-! ## From the blocks to the arrays -/

variable (V : (c : Dev nD) → (b : Ref sig .tc) → Buf (Elt Ideal) ((c : Thread nD τ).loc b))

/-- The printed index maps, decided once over the grid: block t of the ids and of the rows starts at row 5000·t. -/
theorem idx5_blocks : ∀ t : Fin cfg5.N, win5_0.index t (0 : Fin 2) = t.val ∧ win5_0.index t (1 : Fin 2) = 0
    ∧ win5_1.index t (0 : Fin 2) = t.val ∧ win5_1.index t (1 : Fin 2) = 0 :=
  (by decide +kernel : ∀ t : Fin grid5.N, _)

/-- Row r's share of entry (g, q): the row's q-th element where the row's id is g's word, nothing elsewhere. -/
def poolRowTerm (c : Dev nD) (g : Fin 64) (q : Fin 33) (r : Fin 100000) : EReal :=
  (if (V c main_v66 : IVec S100000x1 32) (ix2 r 0) = BitVec.ofNat 32 g.val then (1 : EReal) else 0)
    * (V c main_v65 : FVec Ideal S100000x33 .f32) (ix2 r q)

/-- Block t of the ids, read at row r' of the block, is the array at row 5000·t + r' (a block's coordinate is the
    block's index times its extent plus the coordinate inside). -/
theorem iblk5_ids_apply (c : Dev nD) (t : Fin cfg5.N) (r' : Fin 5000) :
    (iblk5 V c 0 t : Vec Ideal S5000x1 .i32) (ix2 r' 0)
      = (V c main_v66 : IVec S100000x1 32) (ix2 ⟨5000 * t.val + r'.val, by have := t.isLt.trans_eq N_5; omega⟩ 0) := by
  show (V c main_v66 : IVec S100000x1 32) (((cfg5.win 0).blk t).view.emb (ix2 r' 0)) = _
  refine congrArg _ ?_
  funext a; apply Fin.ext
  match a with
  | ⟨0, _⟩ => show win5_0.index t (0 : Fin 2) * 5000 + 1 * r'.val = 5000 * t.val + r'.val; rw [(idx5_blocks t).1]; omega
  | ⟨1, _⟩ => show win5_0.index t (1 : Fin 2) * 1 + 1 * 0 = 0; rw [(idx5_blocks t).2.1]

/-- Block t of the rows, read at (r', q), is the array at (5000·t + r', q). -/
theorem iblk5_rows_apply (c : Dev nD) (t : Fin cfg5.N) (r' : Fin 5000) (q : Fin 33) :
    (iblk5 V c 1 t : Vec Ideal S5000x33 .f32) (ix2 r' q)
      = (V c main_v65 : FVec Ideal S100000x33 .f32) (ix2 ⟨5000 * t.val + r'.val, by have := t.isLt.trans_eq N_5; omega⟩ q) := by
  show (V c main_v65 : FVec Ideal S100000x33 .f32) (((cfg5.win 1).blk t).view.emb (ix2 r' q)) = _
  refine congrArg _ ?_
  funext a; apply Fin.ext
  match a with
  | ⟨0, _⟩ => show win5_1.index t (0 : Fin 2) * 5000 + 1 * r'.val = 5000 * t.val + r'.val; rw [(idx5_blocks t).2.2.1]; omega
  | ⟨1, _⟩ => show win5_1.index t (1 : Fin 2) * 33 + 1 * q.val = q.val; rw [(idx5_blocks t).2.2.2]; omega

/-- One more block: the running sum gains the block's 5000 row shares. -/
theorem acc5_step_apply (c : Dev nD) (n : ℕ) (h : n < 20) (g : Fin 64) (q : Fin 33) :
    (acc5 (F := Ideal) V c (n + 1) (ix2 g q) : EReal)
      = acc5 (F := Ideal) V c n (ix2 g q) + ∑ r' : Fin 5000, poolRowTerm V c g q ⟨5000 * n + r'.val, by omega⟩ := by
  have h' : n < cfg5.N := h.trans_eq N_5.symm
  rw [acc5_succ V c n h']
  refine (k5_pay2_apply (iblk5 V c 0 ⟨n, h'⟩) (iblk5 V c 1 ⟨n, h'⟩) (acc5 V c n) g q).trans ?_
  refine congrArg (acc5 (F := Ideal) V c n (ix2 g q) + ·) ?_
  refine Finset.sum_congr rfl fun r' _ => ?_
  rw [iblk5_ids_apply V c ⟨n, h'⟩ r', iblk5_rows_apply V c ⟨n, h'⟩ r' q]
  rfl

/-- Block b's 5000 row shares of entry (g, q), for b among the twenty blocks. -/
def poolBlockTerm (c : Dev nD) (g : Fin 64) (q : Fin 33) (b : ℕ) : EReal :=
  if hb : b < 20 then ∑ r' : Fin 5000, poolRowTerm V c g q ⟨5000 * b + r'.val, by omega⟩ else 0

/-- After n blocks the running sum holds the first n blocks' shares: zero to begin with, one block's more at each step. -/
theorem acc5_prefix (c : Dev nD) (g : Fin 64) (q : Fin 33) (n : ℕ) (hn : n ≤ 20) :
    (acc5 (F := Ideal) V c n (ix2 g q) : EReal) = ∑ b ∈ Finset.range n, poolBlockTerm V c g q b := by
  induction n with
  | zero => rw [acc5_zero, Finset.sum_range_zero]; exact k5_pay1_apply g q
  | succ n ih =>
    rw [acc5_step_apply V c n (by omega) g q, ih (by omega), Finset.sum_range_succ]
    refine congrArg (_ + ·) ?_
    unfold poolBlockTerm
    rw [dif_pos (by omega : n < 20)]

/-- After all twenty blocks entry (g, q) of the scratch is the sum, over all 100000 rows, of the row's q-th element
    where the row's id is g's word: the twenty block sums are the one sum over the rows, cut at every 5000. -/
theorem acc5_apply (c : Dev nD) (g : Fin 64) (q : Fin 33) :
    (acc5 (F := Ideal) V c 20 (ix2 g q) : EReal)
      = ∑ r : Fin 100000, (if (V c main_v66 : IVec S100000x1 32) (ix2 r 0) = BitVec.ofNat 32 g.val then (1 : EReal) else 0)
          * (V c main_v65 : FVec Ideal S100000x33 .f32) (ix2 r q) := by
  rw [acc5_prefix V c g q 20 le_rfl, Finset.sum_range]
  refine (Finset.sum_congr rfl fun b _ => ?_).trans (Cert.PoolSpec.sum_blocks (poolRowTerm V c g q)).symm
  unfold poolBlockTerm
  rw [dif_pos b.isLt]

end Cert.KernelIdeal.Val

end
-- ==== Proof.Value.Pool.lean ====
/-
  The value of the pooling region. The result window's one block is the whole 64 × 32 result and only the last of
  the twenty points writes it back, so the array after the pipeline is what the body stores there: the table of
  running sums after all twenty blocks, its 32 feature columns divided by the larger of its count column and one.
  An entry of the table is the sum over the 100000 rows of "the row's id is the graph's" times the augmented row
  (the node row with a one appended), which is the sum of the rows whose id reads the graph; the count column adds
  ones. The reference computes the same two segment sums by scatter-add from zero and the same quotient.
-/
import proofs.«403423_j51041391345664_1_alg».proof.Proof.Ideal.Pool
import proofs.«403423_j51041391345664_1_alg».proof.Proof.Net
import proofs.«403423_j51041391345664_1_alg».proof.Proof.PoolSpec
import proofs.«403423_j51041391345664_1_alg».proof.Proof.Value.PoolAcc
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Frame
open Idealize.ShloMosaic Idealize.ShloMosaic.TcCoe Idealize.ShloMosaic.ValueIdx
open Idealize.ShloMosaic.Pipeline (Dat Cfg Window)

/-! ## The result array is what the last point leaves -/

section Frame

variable {F : FTy → Type} [FloatOps F]
variable (V : (c : Dev nD) → (b : Ref sig .tc) → Buf (Elt F) ((c : Thread nD τ).loc b))

/-- The result window's block is the whole array: its block index is zero on both axes at every point. -/
theorem pool5_idx : ∀ t : Fin cfg5.N, win5_2.index t (0 : Fin 2) = 0 ∧ win5_2.index t (1 : Fin 2) = 0 :=
  (by decide +kernel : ∀ t : Fin grid5.N, win5_2.index t (0 : Fin 2) = 0 ∧ win5_2.index t (1 : Fin 2) = 0)

/-- What the last point writes back is the whole table of means, read through the window's one block. -/
theorem pool5_flushed (c : Dev nD) (t : Fin cfg5.N) (ht : t.val = 19) :
    (dat5 V c).flushed 2 t = ((cfg5.win 2).blk t).view.read (Elt F) (k5_pay3 (acc5 V c 20)) := by
  show (cfg5.win 2).cut (cfg5.grid.coords t) ((dat5 V c).after 2 t) = _
  rw [after5_2 V c t ht]
  obtain ⟨e0, e1⟩ := pool5_idx t
  funext j
  show k5_pay3 (acc5 V c 20) _ = k5_pay3 (acc5 V c 20) (((cfg5.win 2).blk t).view.emb j)
  refine congrArg _ ?_
  funext a; apply Fin.ext
  match a with
  | ⟨0, _⟩ => show (j 0).val = win5_2.index t (0 : Fin 2) * 64 + 1 * (j 0).val; omega
  | ⟨1, _⟩ => show (j 1).val = win5_2.index t (1 : Fin 2) * 32 + 1 * (j 1).val; omega

/-- An index of the result is in point `t`'s block iff each coordinate is in the block's range on its axis. -/
theorem pool5_mem_blk (t : Fin cfg5.N) (i : S64x32.Idx) :
    i ∈ ((cfg5.win 2).blk t).view.set ↔ ∀ a : Fin 2, win5_2.index t a * S64x32.size a ≤ (i a).val ∧ (i a).val < win5_2.index t a * S64x32.size a + S64x32.size a := by
  show i ∈ ((View.whole main_v67).slice (win5_2.rect t)).set ↔ _
  rw [View.set_slice_whole, Rect.mem_set_unit]
  exact Iff.rfl

/-- The last point writes back, and its block covers every index of the result. -/
theorem pool5_cover (i : S64x32.Idx) : ∃ t : Fin cfg5.N, (cfg5.win 2).flush t = true ∧ i ∈ ((cfg5.win 2).blk t).view.set := by
  refine ⟨⟨19, by decide⟩, (flush5_2 _).mpr rfl, ?_⟩
  rw [pool5_mem_blk]
  obtain ⟨e0, e1⟩ := pool5_idx ⟨19, by decide⟩
  intro a
  match a with
  | ⟨0, _⟩ =>
    show win5_2.index ⟨19, _⟩ (0 : Fin 2) * 64 ≤ (i 0).val ∧ (i 0).val < win5_2.index ⟨19, _⟩ (0 : Fin 2) * 64 + 64
    have := idx2_lt0 i; omega
  | ⟨1, _⟩ =>
    show win5_2.index ⟨19, _⟩ (1 : Fin 2) * 32 ≤ (i 1).val ∧ (i 1).val < win5_2.index ⟨19, _⟩ (1 : Fin 2) * 32 + 32
    have := idx2_lt1 i; omega

/-- The result array after the pipeline: the table of sums after all twenty blocks, each feature sum over the count. -/
theorem pool5_arr (c : Dev nD) : (dat5 V c).arrAt 2 cfg5.N = k5_pay3 (acc5 V c 20) :=
  (dat5 V c).arrAt_eq_of_cover 2 (k5_pay3 (acc5 V c 20))
    (fun t hf => pool5_flushed V c t (by have h := (flush5_2 t).mp hf; have hl : t.val < 20 := t.isLt; omega)) pool5_cover

end Frame

/-! ## The division at an index -/

/-- The kernel's last store at graph `g`, feature `q`: the feature's sum over the larger of the count and one. -/
theorem pool5_pay_apply (a : Vec Ideal S64x33 .f32) (g : Fin 64) (q : Fin 32) :
    k5_pay3 (F := Ideal) a (ix2 g q)
      = Ideal.div (a (ix2 g q.castSucc)) (max (a (ix2 g (Fin.last 32))) (Ideal.ofBits .f32 0x3F800000#32)) := by
  unfold k5_pay3
  refine congrArg₂ Ideal.div ?_ ?_
  · exact slice2_axis1_apply 0 a _ g q q.castSucc (by simp)
  · refine (broadcastTo_apply _ _ (ix2 g q) (ix2 g (0 : Fin 1)) (fun ax => ?_)).trans ?_
    · match ax with
      | ⟨0, _⟩ => rfl
      | ⟨1, _⟩ => rfl
    · refine congrArg₂ max ?_ rfl
      exact slice2_axis1_apply 32 a _ g (0 : Fin 1) (Fin.last 32) (by simp)

/-! ## The augmented rows and the ids as the host operations build them -/

/-- The augmented rows' first 32 columns are the node rows. -/
theorem pool5_aug_left (out : FVec Ideal S100000x32 .f32) (one : FVec Ideal S100000x1 .f32) (r : Fin 100000) (q : Fin 32) :
    concatenate S100000x33 1 [⟨S100000x32, out⟩, ⟨S100000x1, one⟩] concatenates_S100000x32_S100000x1_S100000x33_d1 (ix2 r q.castSucc)
      = out (ix2 r q) :=
  concatenate_pair_apply_left (1 : Fin 2) out one _ (ix2 r q.castSucc) rfl (ix2 r q)
    (fun b => by match b with | ⟨0, _⟩ => rfl | ⟨1, _⟩ => rfl)

/-- Their last column is the column appended. -/
theorem pool5_aug_right (out : FVec Ideal S100000x32 .f32) (one : FVec Ideal S100000x1 .f32) (r : Fin 100000) :
    concatenate S100000x33 1 [⟨S100000x32, out⟩, ⟨S100000x1, one⟩] concatenates_S100000x32_S100000x1_S100000x33_d1 (ix2 r (Fin.last 32))
      = one (ix2 r (0 : Fin 1)) :=
  concatenate_pair_apply_right (1 : Fin 2) out one _ (ix2 r (Fin.last 32)) rfl rfl (ix2 r (0 : Fin 1))
    (fun b hb => by match b with | ⟨0, _⟩ => rfl | ⟨1, _⟩ => exact absurd rfl hb) (by rfl)

/-- The ids as a column read the id vector. -/
theorem pool5_ids_col (ids : IVec S100000 32) (r : Fin 100000) :
    shapeCast S100000x1 ids shapeCasts_S100000_S100000x1 (ix2 r (0 : Fin 1)) = ids (ix1 r) :=
  shapeCast_apply ids _ (ix2 r (0 : Fin 1)) (ix1 r) (by
    rw [Shape.rowMajor_val_two, Shape.rowMajor_val_one]
    show r.val = r.val * 1 + 0
    omega)

/-! ## One entry of the table of sums as a segment sum -/

/-- A column of the table at graph `g`: the rows weighted by "the row's id is `g`'s word" add up to the sum of the rows
    whose id reads `g`. -/
theorem pool5_seg_sum (idc : IVec S100000x1 32) (aug : FVec Ideal S100000x33 .f32) (ids : IVec S100000 32) (a : Fin 100000 → EReal)
    (g : Fin 64) (q : Fin 33) (h1 : ∀ r : Fin 100000, idc (ix2 r (0 : Fin 1)) = ids (ix1 r)) (h2 : ∀ r : Fin 100000, aug (ix2 r q) = a r) :
    ∑ r : Fin 100000, (if idc (ix2 r (0 : Fin 1)) = BitVec.ofNat 32 g.val then (1 : EReal) else 0) * aug (ix2 r q)
      = ∑ r : Fin 100000, if (ids (ix1 r)).toInt = (g.val : ℤ) then a r else 0 := by
  rw [← Cert.PoolSpec.onehot_sum (fun r => ids (ix1 r)) a g]
  exact Finset.sum_congr rfl fun r _ => by rw [h1 r, h2 r]

/-! ## The reference's mean at an index -/

/-- The id vector as the one-column index array the scatters take reads the id vector. -/
theorem pool5_ids_idx (ids : IVec S100000 32) (h : S100000.BroadcastsInDim S100000x1 (![0] : Fin 1 → Fin S100000x1.rank)) (r : Fin 100000) :
    broadcastInDim S100000x1 ![0] h ids (ix2 r (0 : Fin 1)) = ids (ix1 r) :=
  broadcastInDim_apply _ h ids (ix2 r (0 : Fin 1)) (ix1 r) (fun a => by match a with | ⟨0, _⟩ => rfl)

/-- The host's quotient at an index is the extended reals' quotient of the entries. -/
theorem pool5_hostDivf_apply {s : Shape} {φ : FTy} (a b : FVec Ideal s φ) (i : s.Idx) : Host.divf a b i = Ideal.div (a i) (b i) := rfl

/-- The host's accumulating scatter is the exact one. -/
theorem pool5_hostScatterAdd_eq {s si u : Shape} {w : ℕ} {φ : FTy} (d : ScatterDims s si u) (x : FVec Ideal s φ) (idx : IVec si w) (upd : FVec Ideal u φ) :
    Host.scatterAdd d x idx upd = Ideal.hostScatterAdd d x idx upd := rfl

/-- The reference at graph `g`, feature `q`: the sum of the rows whose id reads `g` over the larger of their number and one. -/
theorem pool5_ref_apply (ids : IVec Cert.ReferenceIdeal.S100000 32) (out : FVec Ideal Cert.ReferenceIdeal.S100000x32 .f32) (g : Fin 64) (q : Fin 32) :
    Cert.Net.poolOf (F := Ideal) ids out (ix2 g q)
      = Ideal.div (∑ r : Fin 100000, if (ids (ix1 r)).toInt = (g.val : ℤ) then out (ix2 r q) else 0)
          (max (∑ r : Fin 100000, if (ids (ix1 r)).toInt = (g.val : ℤ) then Ideal.ofBits .f32 0x3F800000#32 else 0)
            (Ideal.ofBits .f32 0x3F800000#32)) := by
  unfold Cert.Net.poolOf
  rw [pool5_hostDivf_apply, pool5_hostScatterAdd_eq, pool5_hostScatterAdd_eq]
  refine congrArg₂ Ideal.div ?_ ?_
  · refine (Cert.PoolSpec.scatterAdd_rows_apply _ rfl rfl rfl rfl _ _ _ g q).trans ?_
    refine (congrArg₂ (· + ·) Ideal.ofBits_zero_f32 (Finset.sum_congr rfl fun r _ => ?_)).trans (zero_add _)
    exact congrArg (fun w : BitVec 32 => if w.toInt = (g.val : ℤ) then out (ix2 r q) else 0) (pool5_ids_idx ids _ r)
  · refine (broadcastInDim_apply _ _ _ (ix2 g q) (ix2 g (0 : Fin 1)) (fun a => ?_)).trans ?_
    · match a with
      | ⟨0, _⟩ => rfl
      | ⟨1, _⟩ => rfl
    refine (broadcastInDim_apply _ _ _ (ix2 g (0 : Fin 1)) (ix1 g) (fun a => ?_)).trans ?_
    · match a with
      | ⟨0, _⟩ => rfl
    refine congrArg₂ max ?_ rfl
    refine (Cert.PoolSpec.scatterAdd_count_apply _ rfl rfl rfl rfl _ _ _ g).trans ?_
    refine (congrArg₂ (· + ·) Ideal.ofBits_zero_f32 (Finset.sum_congr rfl fun r _ => ?_)).trans (zero_add _)
    exact congrArg (fun w : BitVec 32 => if w.toInt = (g.val : ℤ) then Ideal.ofBits .f32 0x3F800000#32 else 0) (pool5_ids_idx ids _ r)

/-! ## The pooled table is the reference's -/

/-- The kernel's table of means, entry by entry, from the node rows and ids the host operations hand the region. -/
theorem pool5_pooled_apply (V : (c : Dev nD) → (b : Ref sig .tc) → Buf (Elt Ideal) ((c : Thread nD τ).loc b)) (c : Dev nD)
    (ids : IVec Cert.ReferenceIdeal.S100000 32) (out : FVec Ideal Cert.ReferenceIdeal.S100000x32 .f32)
    (hids : V c main_v66 = shapeCast S100000x1 ids shapeCasts_S100000_S100000x1)
    (haug : V c main_v65 = concatenate S100000x33 1 [⟨S100000x32, out⟩, ⟨S100000x1, broadcastInDim S100000x1 ![] bcast_S_S100000x1 (constant (F := Ideal) S_ .f32 0x3F800000#32)⟩] concatenates_S100000x32_S100000x1_S100000x33_d1)
    (g : Fin 64) (q : Fin 32) :
    k5_pay3 (acc5 (F := Ideal) V c 20) (ix2 g q) = Cert.Net.poolOf (F := Ideal) ids out (ix2 g q) := by
  have h66 : ∀ r : Fin 100000, (V c main_v66) (ix2 r (0 : Fin 1)) = ids (ix1 r) := fun r =>
    (congrFun hids (ix2 r (0 : Fin 1))).trans (pool5_ids_col ids r)
  have hL : ∀ r : Fin 100000, (V c main_v65) (ix2 r q.castSucc) = out (ix2 r q) := fun r =>
    (congrFun haug (ix2 r q.castSucc)).trans (pool5_aug_left out _ r q)
  have hR : ∀ r : Fin 100000, (V c main_v65) (ix2 r (Fin.last 32)) = Ideal.ofBits .f32 0x3F800000#32 := fun r =>
    (congrFun haug (ix2 r (Fin.last 32))).trans (pool5_aug_right out _ r)
  rw [pool5_pay_apply, acc5_apply, acc5_apply, pool5_ref_apply,
    pool5_seg_sum (V c main_v66) (V c main_v65) ids (fun r => out (ix2 r q)) g q.castSucc h66 hL,
    pool5_seg_sum (V c main_v66) (V c main_v65) ids (fun _ => Ideal.ofBits .f32 0x3F800000#32) g (Fin.last 32) h66 hR]

/-- THE POOLING REGION'S RESULT: with the ids column and the augmented rows as the host operations before the region
    build them, the result array after the pipeline is the reference's mean of the node rows of each graph. -/
theorem pool_arr (V : (c : Dev nD) → (b : Ref sig .tc) → Buf (Elt Ideal) ((c : Thread nD τ).loc b)) (c : Dev nD)
    (ids : IVec Cert.ReferenceIdeal.S100000 32) (out : FVec Ideal Cert.ReferenceIdeal.S100000x32 .f32)
    (hids : V c main_v66 = shapeCast S100000x1 ids shapeCasts_S100000_S100000x1)
    (haug : V c main_v65 = concatenate S100000x33 1 [⟨S100000x32, out⟩, ⟨S100000x1, broadcastInDim S100000x1 ![] bcast_S_S100000x1 (constant (F := Ideal) S_ .f32 0x3F800000#32)⟩] concatenates_S100000x32_S100000x1_S100000x33_d1) :
    (dat5 (F := Ideal) V c).arrAt 2 cfg5.N = Cert.Net.poolOf (F := Ideal) ids out := by
  refine (pool5_arr V c).trans ?_
  funext i
  obtain ⟨g, q, rfl⟩ : ∃ (g : Fin 64) (q : Fin 32), i = ix2 g q := ⟨i 0, i 1, eq_ix2 i⟩
  exact pool5_pooled_apply V c ids out hids haug g q

end Cert.KernelIdeal.Val

end
-- ==== Proof.Value.Stretch.lean ====
/-
  What the host operations between the kernel program's launches compute, each stretch read as one function of the
  buffers it starts from: the edge list's source and target columns with the self loops appended, the edges' weights
  (degrees counted over the target column, d^(-1/2) zero where the degree is not positive, the two ends' factors
  multiplied), one aggregation of node rows along the edges, the bias vectors laid as rows, the node rows with a
  column of ones appended, and the graph ids laid as a column. Every statement holds from ANY contents of the buffers.
-/
import proofs.«403423_j51041391345664_1_alg».proof.Proof.Gen.KernelIdeal.Launch
import proofs.«403423_j51041391345664_1_alg».proof.Proof.Net
import Idealize.ShloMosaic.Lib.StableHlo.Run

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-! ## The first stretches: the two columns and the edges' weights -/

/-- After the first stretch the source column is the edge list's first row with the node numbers appended. -/
theorem first_row (W : Valuation τ sig (Elt F)) :
    (StableHlo.after hostOps0 W (Proc.devRef .tc main_v3) : IVec S1700000 32)
      = Cert.Net.rowOf (W (Proc.devRef .tc main_arg1) : IVec S2x1600000 32) := by
  show StableHlo.after hostOps0 W (Proc.devRef .tc main_v3) = _
  after_results
  rfl

/-- After the first stretch the target column is the edge list's second row with the node numbers appended. -/
theorem first_col (W : Valuation τ sig (Elt F)) :
    (StableHlo.after hostOps0 W (Proc.devRef .tc main_v6) : IVec S1700000 32)
      = Cert.Net.colOf (W (Proc.devRef .tc main_arg1) : IVec S2x1600000 32) := by
  show StableHlo.after hostOps0 W (Proc.devRef .tc main_v6) = _
  after_results
  rfl

/-- The source column is not written again by the two stretches that follow. -/
theorem first_row3 (W : Valuation τ sig (Elt F)) :
    (StableHlo.after hostOps0_2 (StableHlo.after hostOps0_1 (StableHlo.after hostOps0 W)) (Proc.devRef .tc main_v3) : IVec S1700000 32)
      = Cert.Net.rowOf (W (Proc.devRef .tc main_arg1) : IVec S2x1600000 32) := by
  show StableHlo.after hostOps0_2 (StableHlo.after hostOps0_1 (StableHlo.after hostOps0 W)) (Proc.devRef .tc main_v3) = _
  after_results
  rfl

/-- Nor is the target column. -/
theorem first_col3 (W : Valuation τ sig (Elt F)) :
    (StableHlo.after hostOps0_2 (StableHlo.after hostOps0_1 (StableHlo.after hostOps0 W)) (Proc.devRef .tc main_v6) : IVec S1700000 32)
      = Cert.Net.colOf (W (Proc.devRef .tc main_arg1) : IVec S2x1600000 32) := by
  show StableHlo.after hostOps0_2 (StableHlo.after hostOps0_1 (StableHlo.after hostOps0 W)) (Proc.devRef .tc main_v6) = _
  after_results
  rfl

/-- After the three stretches the edges' weights are those of the degrees counted over the target column as it is:
    d^(-1/2) where the degree is positive and zero elsewhere, read at each edge's two wrapped ends and multiplied. -/
theorem first_norm (W : Valuation τ sig (Elt F)) :
    (StableHlo.after hostOps0_2 (StableHlo.after hostOps0_1 (StableHlo.after hostOps0 W)) (Proc.devRef .tc main_v29) : FVec F S1700000 .f32)
      = Cert.Net.normOf (Cert.Net.dinvOf (Cert.Net.degOf (F := F) (Cert.Net.asIdx (Cert.Net.colOf (W (Proc.devRef .tc main_arg1) : IVec S2x1600000 32)))))
          (W (Proc.devRef .tc main_arg1) : IVec S2x1600000 32) := by
  show StableHlo.after hostOps0_2 (StableHlo.after hostOps0_1 (StableHlo.after hostOps0 W)) (Proc.devRef .tc main_v29) = _
  -- every operation's result read at its own buffer, then the same inside the two spliced columns' pieces
  after_results_simp
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  rfl

/-! ## The aggregations and the bias rows -/

/-- The first aggregation, from buffers that hold the two columns: the node rows gathered at the wrapped sources,
    scaled by the weights, and summed at the targets. -/
theorem agg1 (W : Valuation τ sig (Elt F)) (e' : IVec S2x1600000 32)
    (hrow : (W (Proc.devRef .tc main_v3) : IVec S1700000 32) = Cert.Net.rowOf e')
    (hcol : (W (Proc.devRef .tc main_v6) : IVec S1700000 32) = Cert.Net.colOf e') :
    (StableHlo.after hostOps1 W (Proc.devRef .tc main_v43) : FVec F S100000x64 .f32)
      = Cert.Net.aggOf (W (Proc.devRef .tc main_v30) : FVec F S100000x64 .f32) (W (Proc.devRef .tc main_v29) : FVec F S1700000 .f32) e' := by
  show StableHlo.after hostOps1 W (Proc.devRef .tc main_v43) = _
  after_results_simp
  rw [hrow, hcol]
  rfl

/-- The first bias vector laid as a row. -/
theorem bias1 (W : Valuation τ sig (Elt F)) :
    (StableHlo.after hostOps1 W (Proc.devRef .tc main_v44) : FVec F S1x64 .f32)
      = shapeCast S1x64 (W (Proc.devRef .tc main_arg4) : FVec F S64 .f32) shapeCasts_S64_S1x64 := by
  show StableHlo.after hostOps1 W (Proc.devRef .tc main_v44) = _
  after_results
  rfl

/-- The second aggregation: the same function of the second layer's node rows. -/
theorem agg2 (W : Valuation τ sig (Elt F)) (e' : IVec S2x1600000 32)
    (hrow : (W (Proc.devRef .tc main_v3) : IVec S1700000 32) = Cert.Net.rowOf e')
    (hcol : (W (Proc.devRef .tc main_v6) : IVec S1700000 32) = Cert.Net.colOf e') :
    (StableHlo.after hostOps3 W (Proc.devRef .tc main_v59) : FVec F S100000x64 .f32)
      = Cert.Net.aggOf (W (Proc.devRef .tc main_v46) : FVec F S100000x64 .f32) (W (Proc.devRef .tc main_v29) : FVec F S1700000 .f32) e' := by
  show StableHlo.after hostOps3 W (Proc.devRef .tc main_v59) = _
  after_results_simp
  rw [hrow, hcol]
  rfl

/-- The second bias vector laid as a row. -/
theorem bias2 (W : Valuation τ sig (Elt F)) :
    (StableHlo.after hostOps3 W (Proc.devRef .tc main_v60) : FVec F S1x64 .f32)
      = shapeCast S1x64 (W (Proc.devRef .tc main_arg6) : FVec F S64 .f32) shapeCasts_S64_S1x64 := by
  show StableHlo.after hostOps3 W (Proc.devRef .tc main_v60) = _
  after_results
  rfl

/-- The last layer's bias vector laid as a row. -/
theorem bias3 (W : Valuation τ sig (Elt F)) :
    (StableHlo.after hostOps4 W (Proc.devRef .tc main_v62) : FVec F S1x32 .f32)
      = shapeCast S1x32 (W (Proc.devRef .tc main_arg8) : FVec F S32 .f32) shapeCasts_S32_S1x32 := by
  show StableHlo.after hostOps4 W (Proc.devRef .tc main_v62) = _
  after_results
  rfl

/-! ## The last stretch: the node rows with a column of ones, the graph ids as a column -/

/-- The node rows with a column of ones appended (the column a row sum turns into a count). -/
theorem aug5 (W : Valuation τ sig (Elt F)) :
    (StableHlo.after hostOps5 W (Proc.devRef .tc main_v65) : FVec F S100000x33 .f32)
      = concatenate S100000x33 1 [⟨S100000x32, (W (Proc.devRef .tc main_v63) : FVec F S100000x32 .f32)⟩,
          ⟨S100000x1, (broadcastInDim S100000x1 ![] bcast_S_S100000x1 (constant (F := F) S_ .f32 0x3F800000#32) : FVec F S100000x1 .f32)⟩]
          concatenates_S100000x32_S100000x1_S100000x33_d1 := by
  show StableHlo.after hostOps5 W (Proc.devRef .tc main_v65) = _
  after_results

/-- The graph ids laid as a column. -/
theorem ids5 (W : Valuation τ sig (Elt F)) :
    (StableHlo.after hostOps5 W (Proc.devRef .tc main_v66) : IVec S100000x1 32)
      = shapeCast S100000x1 (W (Proc.devRef .tc main_arg2) : IVec S100000 32) shapeCasts_S100000_S100000x1 := by
  show StableHlo.after hostOps5 W (Proc.devRef .tc main_v66) = _
  after_results
  rfl

end Cert.KernelIdeal.Val

end
-- ==== Proof.Rows.lean ====
/-
  A bias vector laid out as a one-row matrix: reshaping the vector to a row and broadcasting it along the row's
  second axis are the same array, since both read the vector's entry at the column coordinate.
-/
import proofs.«403423_j51041391345664_1_alg».proof.KernelIdeal
import proofs.«403423_j51041391345664_1_alg».proof.Proof.Gen.KernelIdeal
import proofs.«403423_j51041391345664_1_alg».proof.ReferenceIdeal
import proofs.«403423_j51041391345664_1_alg».proof.Proof.Gen.ReferenceIdeal
import Idealize.ShloMosaic.Lib.Pipeline.Value
import Idealize.ShloMosaic.Lib.ValueLayout
import Idealize.ShloMosaic.Lib.ValueIdx

noncomputable section

namespace Cert.RefNet

open Cert.ReferenceIdeal Cert.ReferenceIdeal.Gen Idealize.ShloMosaic Idealize.ShloMosaic.TcCoe Idealize.ShloMosaic.ValueIdx

variable {F : FTy → Type} [FloatOps F]

/-- A vector of length `a` reshaped to `[1, a]` is the vector broadcast to `[1, a]` along axis 1: at `(u, i)` the
    reshape reads the entry with the same row-major position, `0 · a + i = i`, and the broadcast reads the entry at
    the coordinate its one axis is sent to, again `i`. -/
theorem row_of_vec {α : Type} {a : ℕ} (x : (⟨1, ![a]⟩ : Shape).Idx → α)
    (hc : (⟨1, ![a]⟩ : Shape).ShapeCasts ⟨2, ![1, a]⟩)
    (hb : (⟨1, ![a]⟩ : Shape).BroadcastsInDim ⟨2, ![1, a]⟩ (![1] : Fin 1 → Fin 2)) :
    shapeCast ⟨2, ![1, a]⟩ x hc = broadcastInDim ⟨2, ![1, a]⟩ ![1] hb x := by
  funext j
  obtain ⟨u, i, rfl⟩ : ∃ (u : Fin 1) (i : Fin a), j = ix2 u i := ⟨j 0, j 1, eq_ix2 j⟩
  rw [shapeCast_a_1a_apply x hc u i]
  refine (broadcastInDim_apply ![1] hb x (ix2 u i) (ix1 i) (fun d => ?_)).symm
  match d with
  | ⟨0, _⟩ =>
    show i.val = if a = 1 then 0 else i.val
    have hi := i.isLt
    split
    · omega
    · rfl

theorem row_of_vec64 (b : FVec F S64 .f32) :
    shapeCast S1x64 b Cert.KernelIdeal.Gen.shapeCasts_S64_S1x64 = broadcastInDim S1x64 ![1] bcast_S64_S1x64_1 b :=
  row_of_vec b _ _

theorem row_of_vec32 (b : FVec F S32 .f32) :
    shapeCast S1x32 b Cert.KernelIdeal.Gen.shapeCasts_S32_S1x32 = broadcastInDim S1x32 ![1] bcast_S32_S1x32_1 b :=
  row_of_vec b _ _

end Cert.RefNet

end
-- ==== Proof.Value.Chain.lean ====
/-
  The kernel program's result as the network function of its arguments, at the exact instance: each host
  stretch computes the edge weights and one aggregation with the reference's own operations, each kernel region
  leaves in its result array the matching dense step of the network (a product with a weight matrix, bias and
  ReLU, the mean per graph), and the degrees are counted over the target column as it is.
-/
import proofs.«403423_j51041391345664_1_alg».proof.Proof.Ideal.Run
import proofs.«403423_j51041391345664_1_alg».proof.Proof.Value.Lin1
import proofs.«403423_j51041391345664_1_alg».proof.Proof.Value.Lin2
import proofs.«403423_j51041391345664_1_alg».proof.Proof.Value.Lin3
import proofs.«403423_j51041391345664_1_alg».proof.Proof.Value.Act1
import proofs.«403423_j51041391345664_1_alg».proof.Proof.Value.Act2
import proofs.«403423_j51041391345664_1_alg».proof.Proof.Value.Pool
import proofs.«403423_j51041391345664_1_alg».proof.Proof.Value.Stretch
import proofs.«403423_j51041391345664_1_alg».proof.Proof.Rows
import proofs.«403423_j51041391345664_1_alg».proof.Proof.Net

set_option maxRecDepth 16384

noncomputable section

namespace Cert.KernelIdeal.Val

open Cert.KernelIdeal Cert.KernelIdeal.Gen Cert.KernelIdeal.Frame
open Idealize.ShloMosaic Idealize.ShloMosaic.TcCoe Idealize.SL.Sem

variable (m : (ℓ : Loc nD τ sig) → Buf (Elt Ideal) ℓ) (ρ : Dev nD → PrngReg) (c : Dev nD)

/-- The launch contents of the nine arguments on core `c`. -/
abbrev aX : FVec Ideal Cert.ReferenceIdeal.S100000x7 .f32 := m ((c : Thread nD τ).loc main_arg0)
abbrev aE : IVec Cert.ReferenceIdeal.S2x1600000 32 := m ((c : Thread nD τ).loc main_arg1)
abbrev aIds : IVec Cert.ReferenceIdeal.S100000 32 := m ((c : Thread nD τ).loc main_arg2)
abbrev aW1 : FVec Ideal Cert.ReferenceIdeal.S7x64 .f32 := m ((c : Thread nD τ).loc main_arg3)
abbrev aB1 : FVec Ideal Cert.ReferenceIdeal.S64 .f32 := m ((c : Thread nD τ).loc main_arg4)
abbrev aW2 : FVec Ideal Cert.ReferenceIdeal.S64x64 .f32 := m ((c : Thread nD τ).loc main_arg5)
abbrev aB2 : FVec Ideal Cert.ReferenceIdeal.S64 .f32 := m ((c : Thread nD τ).loc main_arg6)
abbrev aWl : FVec Ideal Cert.ReferenceIdeal.S64x32 .f32 := m ((c : Thread nD τ).loc main_arg7)
abbrev aBl : FVec Ideal Cert.ReferenceIdeal.S32 .f32 := m ((c : Thread nD τ).loc main_arg8)

/-- The edge weights, with the degrees counted over the target column as it is; then the network's layers one by
    one, each a function of the one before. -/
def nrm : FVec Ideal Cert.ReferenceIdeal.S1700000 .f32 :=
  Cert.Net.normOf (F := Ideal) (Cert.Net.dinvOf (Cert.Net.degOf (Cert.Net.asIdx (Cert.Net.colOf (aE m c))))) (aE m c)
def vLin1 : FVec Ideal Cert.ReferenceIdeal.S100000x64 .f32 := Cert.Net.lin1 (F := Ideal) (aX m c) (aW1 m c)
def vAgg1 : FVec Ideal Cert.ReferenceIdeal.S100000x64 .f32 := Cert.Net.aggOf (F := Ideal) (vLin1 m c) (nrm m c) (aE m c)
def vAct1 : FVec Ideal Cert.ReferenceIdeal.S100000x64 .f32 := Cert.Net.actOf (F := Ideal) (vAgg1 m c) (aB1 m c)
def vLin2 : FVec Ideal Cert.ReferenceIdeal.S100000x64 .f32 := Cert.Net.lin2 (F := Ideal) (vAct1 m c) (aW2 m c)
def vAgg2 : FVec Ideal Cert.ReferenceIdeal.S100000x64 .f32 := Cert.Net.aggOf (F := Ideal) (vLin2 m c) (nrm m c) (aE m c)
def vAct2 : FVec Ideal Cert.ReferenceIdeal.S100000x64 .f32 := Cert.Net.actOf (F := Ideal) (vAgg2 m c) (aB2 m c)
def vOut : FVec Ideal Cert.ReferenceIdeal.S100000x32 .f32 := Cert.Net.lin3 (F := Ideal) (vAct2 m c) (aWl m c) (aBl m c)

/-! ## Before the first region: the edge columns and the edge weights -/

theorem row3 : (W3 m ρ c (Proc.devRef .tc main_v3) : IVec S1700000 32) = Cert.Net.rowOf (aE m c) := first_row3 (W0 m ρ c)
theorem col3 : (W3 m ρ c (Proc.devRef .tc main_v6) : IVec S1700000 32) = Cert.Net.colOf (aE m c) := first_col3 (W0 m ρ c)
theorem norm3 : (W3 m ρ c (Proc.devRef .tc main_v29) : FVec Ideal S1700000 .f32) = nrm m c := first_norm (W0 m ρ c)

/-! ## The first layer -/

/-- Region 0 leaves x · W1. -/
theorem h1lin : (W4 m ρ c (Proc.devRef .tc main_v30) : FVec Ideal S100000x64 .f32) = vLin1 m c := by
  have e0 : (V3 m ρ c main_arg0 : FVec Ideal S100000x7 .f32) = aX m c := W3_main_arg0 m ρ c
  have e3 : (V3 m ρ c main_arg3 : FVec Ideal S7x64 .f32) = aW1 m c := W3_main_arg3 m ρ c
  refine (W4_arr m ρ c 2).trans ((lin1_arr (V3 m ρ) c).trans ?_)
  rw [e0, e3]; rfl

/-- The stretch after it aggregates over the edges. -/
theorem agg1v : (W5 m ρ c (Proc.devRef .tc main_v43) : FVec Ideal S100000x64 .f32) = vAgg1 m c := by
  have hrow : (W4 m ρ c (Proc.devRef .tc main_v3) : IVec S1700000 32) = Cert.Net.rowOf (aE m c) := (W4_keep_v3 m ρ c).trans (row3 m ρ c)
  have hcol : (W4 m ρ c (Proc.devRef .tc main_v6) : IVec S1700000 32) = Cert.Net.colOf (aE m c) := (W4_keep_v6 m ρ c).trans (col3 m ρ c)
  have hn : (W4 m ρ c (Proc.devRef .tc main_v29) : FVec Ideal S1700000 .f32) = nrm m c := (W4_keep_v29 m ρ c).trans (norm3 m ρ c)
  have h := agg1 (W4 m ρ c) (aE m c) hrow hcol
  rw [h1lin m ρ c, hn] at h
  exact h

theorem b1row : (W5 m ρ c (Proc.devRef .tc main_v44) : FVec Ideal S1x64 .f32) = shapeCast S1x64 (aB1 m c) shapeCasts_S64_S1x64 := by
  have h := bias1 (W4 m ρ c)
  rw [show (W4 m ρ c (Proc.devRef .tc main_arg4) : FVec Ideal S64 .f32) = aB1 m c from W4_main_arg4 m ρ c] at h
  exact h

/-- Region 1 leaves the bias added and the ReLU taken. -/
theorem h1v : (W6 m ρ c (Proc.devRef .tc main_v45) : FVec Ideal S100000x64 .f32) = vAct1 m c := by
  have ea : (V5 m ρ c main_v43 : FVec Ideal S100000x64 .f32) = vAgg1 m c := agg1v m ρ c
  have eb : (V5 m ρ c main_v44 : FVec Ideal S1x64 .f32) = shapeCast S1x64 (aB1 m c) shapeCasts_S64_S1x64 := b1row m ρ c
  refine (W6_arr m ρ c 2).trans ((act1_arr (V5 m ρ) c).trans ?_)
  rw [ea, eb]
  exact congrArg (Cert.Net.actRow (F := Ideal) (vAgg1 m c)) (Cert.RefNet.row_of_vec64 (aB1 m c))

/-! ## The second layer -/

theorem h2lin : (W7 m ρ c (Proc.devRef .tc main_v46) : FVec Ideal S100000x64 .f32) = vLin2 m c := by
  have ea : (V6 m ρ c main_v45 : FVec Ideal S100000x64 .f32) = vAct1 m c := h1v m ρ c
  have ew : (V6 m ρ c main_arg5 : FVec Ideal S64x64 .f32) = aW2 m c := W6_main_arg5 m ρ c
  refine (W7_arr m ρ c 2).trans ((lin2_arr (V6 m ρ) c).trans ?_)
  rw [ea, ew]; rfl

theorem agg2v : (W8 m ρ c (Proc.devRef .tc main_v59) : FVec Ideal S100000x64 .f32) = vAgg2 m c := by
  have hrow : (W7 m ρ c (Proc.devRef .tc main_v3) : IVec S1700000 32) = Cert.Net.rowOf (aE m c) := (W7_keep_v3 m ρ c).trans (row3 m ρ c)
  have hcol : (W7 m ρ c (Proc.devRef .tc main_v6) : IVec S1700000 32) = Cert.Net.colOf (aE m c) := (W7_keep_v6 m ρ c).trans (col3 m ρ c)
  have hn : (W7 m ρ c (Proc.devRef .tc main_v29) : FVec Ideal S1700000 .f32) = nrm m c := (W7_keep_v29 m ρ c).trans (norm3 m ρ c)
  have h := agg2 (W7 m ρ c) (aE m c) hrow hcol
  rw [h2lin m ρ c, hn] at h
  exact h

theorem b2row : (W8 m ρ c (Proc.devRef .tc main_v60) : FVec Ideal S1x64 .f32) = shapeCast S1x64 (aB2 m c) shapeCasts_S64_S1x64 := by
  have h := bias2 (W7 m ρ c)
  rw [show (W7 m ρ c (Proc.devRef .tc main_arg6) : FVec Ideal S64 .f32) = aB2 m c from W7_main_arg6 m ρ c] at h
  exact h

theorem h2v : (W9 m ρ c (Proc.devRef .tc main_v61) : FVec Ideal S100000x64 .f32) = vAct2 m c := by
  have ea : (V8 m ρ c main_v59 : FVec Ideal S100000x64 .f32) = vAgg2 m c := agg2v m ρ c
  have eb : (V8 m ρ c main_v60 : FVec Ideal S1x64 .f32) = shapeCast S1x64 (aB2 m c) shapeCasts_S64_S1x64 := b2row m ρ c
  refine (W9_arr m ρ c 2).trans ((act2_arr (V8 m ρ) c).trans ?_)
  rw [ea, eb]
  exact congrArg (Cert.Net.actRow (F := Ideal) (vAgg2 m c)) (Cert.RefNet.row_of_vec64 (aB2 m c))

/-! ## The last linear layer and the mean per graph -/

theorem blrow : (W10 m ρ c (Proc.devRef .tc main_v62) : FVec Ideal S1x32 .f32) = shapeCast S1x32 (aBl m c) shapeCasts_S32_S1x32 := by
  have h := bias3 (W9 m ρ c)
  rw [show (W9 m ρ c (Proc.devRef .tc main_arg8) : FVec Ideal S32 .f32) = aBl m c from W9_main_arg8 m ρ c] at h
  exact h

theorem outv : (W11 m ρ c (Proc.devRef .tc main_v63) : FVec Ideal S100000x32 .f32) = vOut m c := by
  have ea : (V10 m ρ c main_v61 : FVec Ideal S100000x64 .f32) = vAct2 m c := (W10_keep_v61 m ρ c).trans (h2v m ρ c)
  have ew : (V10 m ρ c main_arg7 : FVec Ideal S64x32 .f32) = aWl m c := W10_main_arg7 m ρ c
  have eb : (V10 m ρ c main_v62 : FVec Ideal S1x32 .f32) = shapeCast S1x32 (aBl m c) shapeCasts_S32_S1x32 := blrow m ρ c
  refine (W11_arr m ρ c 3).trans ((lin3_arr (V10 m ρ) c).trans ?_)
  rw [ea, ew, eb]
  exact congrArg (Cert.Net.lin3Row (F := Ideal) (vAct2 m c) (aWl m c)) (Cert.RefNet.row_of_vec32 (aBl m c))

/-- The kernel program's result is the network function of its arguments, the degrees counted over the target
    column as it is. -/
theorem result_eq : (W13 m ρ c (Proc.devRef .tc main_v67) : FVec Ideal S64x32 .f32)
    = Cert.Net.netOf (F := Ideal) (Cert.Net.asIdx (Cert.Net.colOf (aE m c))) (aX m c) (aE m c) (aIds m c) (aW1 m c) (aB1 m c) (aW2 m c) (aB2 m c) (aWl m c) (aBl m c) := by
  have hids : V12 m ρ c main_v66 = shapeCast S100000x1 (aIds m c) shapeCasts_S100000_S100000x1 := by
    have h := ids5 (W11 m ρ c)
    rw [show (W11 m ρ c (Proc.devRef .tc main_arg2) : IVec S100000 32) = aIds m c from W11_main_arg2 m ρ c] at h
    exact h
  have haug : V12 m ρ c main_v65 = concatenate S100000x33 1 [⟨S100000x32, vOut m c⟩, ⟨S100000x1, broadcastInDim S100000x1 ![] bcast_S_S100000x1 (constant (F := Ideal) S_ .f32 0x3F800000#32)⟩] concatenates_S100000x32_S100000x1_S100000x33_d1 := by
    have h := aug5 (W11 m ρ c)
    rw [outv m ρ c] at h
    exact h
  refine (W13_arr m ρ c 2).trans ((pool_arr (V12 m ρ) c (aIds m c) (vOut m c) hids haug).trans ?_)
  rfl

end Cert.KernelIdeal.Val

end
-- ==== Proof.RefNet.lean ====
/-
  The reference program's result is the network function of its arguments: the composed term of its host
  operations, read layer by layer, is the mean over each graph's nodes of the linear layer applied to two
  normalised aggregations with bias and ReLU, the degrees being counted over the wrapped target column.
-/
import proofs.«403423_j51041391345664_1_alg».proof.Proof.RefRun
import proofs.«403423_j51041391345664_1_alg».proof.Proof.Net

noncomputable section

namespace Cert.RefNet

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The reference's composed term, with every layer of the network unfolded to its host operations, is the same
    term: the pool's mean of the last linear layer over two aggregations, each weighted by the product of the
    inverse square roots of the degrees counted over the wrapped target column. -/
theorem res_eq_net (m : (ℓ : Loc nD τ sig) → Buf (Elt F) ℓ) (c : Dev nD) :
    Cert.ReferenceIdeal.RunP.res_main_v114 m c =
      Cert.Net.netOf (Cert.Net.asIdx (Cert.Net.wrap (Cert.Net.colOf (m ((c.tc : Thread nD τ).loc main_arg1)))))
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) := by
  unfold Cert.ReferenceIdeal.RunP.res_main_v114 Cert.Net.netOf Cert.Net.poolOf Cert.Net.lin3 Cert.Net.lin3Row
    Cert.Net.actOf Cert.Net.actRow Cert.Net.aggOf Cert.Net.lin2 Cert.Net.lin1 Cert.Net.normOf Cert.Net.dinvOf
    Cert.Net.degOf Cert.Net.asIdx Cert.Net.wrap Cert.Net.rowOf Cert.Net.colOf
  rfl

/-- Every weakly fair execution of the reference terminates with its result at the network function of its
    arguments and the arguments unchanged: the run's statement, its result rewritten by `res_eq_net`. -/
theorem run_net (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v114) =
        Cert.Net.netOf (Cert.Net.asIdx (Cert.Net.wrap (Cert.Net.colOf (m ((c.tc : Thread nD τ).loc main_arg1)))))
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (res_eq_net m c), (h c).2⟩)
    (Cert.ReferenceIdeal.RunP.run m ρ)

end Cert.RefNet

end
-- ==== Proof.Reference.lean ====
/-
  The reference program's run: every weakly fair execution of the plain-jnp graph network (two normalised
  graph convolutions with ReLU, a linear layer, a mean over each graph's nodes) terminates with its result
  at the composed term of its host operations.
-/
import proofs.«403423_j51041391345664_1_alg».proof.Defs
import proofs.«403423_j51041391345664_1_alg».proof.Proof.RefRun
-- ==== Proof.Domain.lean ====
/-
  The statement's precondition, read. The last conjunct of the printed predicate says that every target node of the
  edge list (the second row of e) is non-negative as a signed 32-bit word. The network appends the node numbers
  0 … 99999 to that row; those are non-negative too, being naturals below 2³¹. A node index that is non-negative is
  left alone by the wrap a gather applies (only a negative index has 100000 added), so the wrapped column is the column.
-/
import proofs.«403423_j51041391345664_1_alg».proof.Pre_finite_inputs
import proofs.«403423_j51041391345664_1_alg».proof.Proof.Gen.Pre_finite_inputs
import proofs.«403423_j51041391345664_1_alg».proof.Proof.Net
import Idealize.ShloMosaic.Lib.ReduceAll
import Idealize.ShloMosaic.Lib.StableHlo.Predicate
import Idealize.ShloMosaic.Lib.ValueIdx
import Idealize.ShloMosaic.Lib.Pipeline.Value

noncomputable section

namespace Cert.Domain

open Idealize.ShloMosaic Idealize.ShloMosaic.ValueIdx

variable {F : FTy → Type} [FloatOps F]

/-! ## Words -/

/-- A word that compares ≥ 0 signed has a non-negative signed value. -/
theorem nonneg_of_sge (w : BitVec 32) (h : IntOp.cmpi .sge w 0#32 = 1#1) : 0 ≤ w.toInt := by
  unfold IntOp.cmpi at h
  rw [StableHlo.Predicate.ofBool_eq_one_iff] at h
  simp only [BitVec.sle, decide_eq_true_eq] at h
  simpa using h

/-- A word of non-negative signed value does not compare below zero. -/
theorem slt_zero_of_nonneg (w : BitVec 32) (hw : 0 ≤ w.toInt) : IntOp.cmpi .slt w 0#32 = 0#1 := by
  apply eq_zero_of_ne_one
  intro hc
  unfold IntOp.cmpi at hc
  rw [StableHlo.Predicate.ofBool_eq_one_iff] at hc
  simp only [BitVec.slt, decide_eq_true_eq] at hc
  simp at hc
  omega

/-! ## The precondition's last conjunct -/

/-- The scalar shape has one index. -/
theorem subsingleton_scalar : Subsingleton Cert.Pre_finite_inputs.S_.Idx := ⟨fun a b => funext fun d => d.elim0⟩

/-- Under the precondition every target node of the edge list is non-negative: the predicate is a conjunction of
    one-bit scalars, its last one the "all" of the comparison of the edge list's second row with zero. -/
theorem col_nonneg_of_pre (a0 : FVec F Cert.Pre_finite_inputs.S100000x7 .f32) (e : IVec Cert.Pre_finite_inputs.S2x1600000 32)
    (a2 : IVec Cert.Pre_finite_inputs.S100000 32) (a3 : FVec F Cert.Pre_finite_inputs.S7x64 .f32)
    (a4 : FVec F Cert.Pre_finite_inputs.S64 .f32) (a5 : FVec F Cert.Pre_finite_inputs.S64x64 .f32)
    (a6 : FVec F Cert.Pre_finite_inputs.S64 .f32) (a7 : FVec F Cert.Pre_finite_inputs.S64x32 .f32)
    (a8 : FVec F Cert.Pre_finite_inputs.S32 .f32)
    (h : Cert.Pre_finite_inputs.fn (F := F) a0 e a2 a3 a4 a5 a6 a7 a8 = fun _ => 1#1) :
    ∀ i : Cert.Pre_finite_inputs.S1600000.Idx,
      0 ≤ ((shapeCast Cert.Pre_finite_inputs.S1600000
        (extractStridedSlice Cert.Pre_finite_inputs.S1x1600000 ![1, 0] e
          Cert.Pre_finite_inputs.Gen.slices_S2x1600000_S1x1600000_1_0)
        Cert.Pre_finite_inputs.Gen.shapeCasts_S1x1600000_S1600000) i).toInt := by
  intro i
  -- the predicate at the scalar shape's one index, its conjunction opened: the last conjunct is 1
  have e0 := congrFun h ValueIdx.ix0
  dsimp only [Cert.Pre_finite_inputs.fn, Cert.Pre_finite_inputs.fn_part1, Cert.Pre_finite_inputs.fn_part2] at e0
  have e1 := (IntOp.andi_eq_one.1 e0).2
  -- an "all" that is 1 had a 1 at every index: the comparison at i
  haveI := subsingleton_scalar
  have e2 := Host.reduce_andi_all _ _ _ _ _ e1 i
  exact nonneg_of_sge _ e2

/-! ## The wrap keeps a non-negative column -/

section Wrap
open Cert.ReferenceIdeal Cert.ReferenceIdeal.Gen

/-- The wrap at an index: a word below zero has 100000 added, any other is kept. -/
theorem wrap_apply (v : IVec S1700000 32) (j : S1700000.Idx) :
    Cert.Net.wrap v j = Scalar.select (IntOp.cmpi .slt (v j) 0#32) (IntOp.addi (v j) 100000#32) (v j) := rfl

/-- The wrap keeps a vector all of whose words are non-negative. -/
theorem wrap_eq_of_nonneg (v : IVec S1700000 32) (hv : ∀ j, 0 ≤ (v j).toInt) : Cert.Net.wrap v = v := by
  funext j
  rw [wrap_apply, slt_zero_of_nonneg _ (hv j), select_zero]

/-- Two spliced vectors, one of 1600000 words then one of 100000, have non-negative words when both pieces do: an
    index below 1600000 reads the first piece there, any other reads the second piece 1600000 earlier. -/
theorem concat_nonneg (x : IVec S1600000 32) (y : IVec S100000 32) (hx : ∀ i, 0 ≤ (x i).toInt) (hy : ∀ i, 0 ≤ (y i).toInt)
    (j : S1700000.Idx) :
    0 ≤ (concatenate S1700000 0 [⟨S1600000, x⟩, ⟨S100000, y⟩] concatenates_S1600000_S100000_S1700000_d0 j).toInt := by
  obtain ⟨k, rfl⟩ : ∃ k : Fin 1700000, j = ix1 k := ⟨j 0, eq_ix1 j⟩
  by_cases hk : k.val < 1600000
  · rw [concatenate_pair_apply_left (0 : Fin S1700000.rank) x y concatenates_S1600000_S100000_S1700000_d0 (ix1 k) rfl
      (ix1 (⟨k.val, hk⟩ : Fin 1600000)) (fun b => by
        have hb : b = 0 := Subsingleton.elim _ _
        subst hb; rfl)]
    exact hx _
  · have hk2 : k.val - 1600000 < 100000 := by have := k.isLt; omega
    rw [concatenate_pair_apply_right (0 : Fin S1700000.rank) x y concatenates_S1600000_S100000_S1700000_d0 (ix1 k) rfl rfl
      (ix1 (⟨k.val - 1600000, hk2⟩ : Fin 100000))
      (fun b hb => absurd (Subsingleton.elim _ _) hb)
      (by show (k.val - 1600000) + 1600000 = k.val; omega)]
    exact hy _

/-- The node numbers 0 … 99999 are non-negative words: each is a natural below 2³¹. -/
theorem iota_nonneg (i : S100000.Idx) : 0 ≤ (iotaInDim S100000 32 0 i).toInt := by
  obtain ⟨k, rfl⟩ : ∃ k : Fin 100000, i = ix1 k := ⟨i 0, eq_ix1 i⟩
  show 0 ≤ (BitVec.ofNat 32 k.val).toInt
  rw [StableHlo.Predicate.toInt_ofNat_small k.val (by have := k.isLt; omega)]
  exact Int.natCast_nonneg _

end Wrap

/-- When the edges' target nodes are non-negative, so is the whole column (the node numbers appended are), and the
    wrap leaves it as it is. -/
theorem wrap_colOf (e : IVec Cert.ReferenceIdeal.S2x1600000 32)
    (h : ∀ i : Cert.ReferenceIdeal.S1600000.Idx,
      0 ≤ ((shapeCast Cert.ReferenceIdeal.S1600000
        (extractStridedSlice Cert.ReferenceIdeal.S1x1600000 ![1, 0] e
          Cert.ReferenceIdeal.Gen.slices_S2x1600000_S1x1600000_1_0)
        Cert.ReferenceIdeal.Gen.shapeCasts_S1x1600000_S1600000) i).toInt) :
    Cert.Net.wrap (Cert.Net.colOf e) = Cert.Net.colOf e :=
  wrap_eq_of_nonneg _ (fun j => concat_nonneg _ _ h iota_nonneg j)

/-- Under the precondition the wrapped column is the column. -/
theorem wrap_colOf_of_pre (a0 : FVec F Cert.Pre_finite_inputs.S100000x7 .f32) (e : IVec Cert.Pre_finite_inputs.S2x1600000 32)
    (a2 : IVec Cert.Pre_finite_inputs.S100000 32) (a3 : FVec F Cert.Pre_finite_inputs.S7x64 .f32)
    (a4 : FVec F Cert.Pre_finite_inputs.S64 .f32) (a5 : FVec F Cert.Pre_finite_inputs.S64x64 .f32)
    (a6 : FVec F Cert.Pre_finite_inputs.S64 .f32) (a7 : FVec F Cert.Pre_finite_inputs.S64x32 .f32)
    (a8 : FVec F Cert.Pre_finite_inputs.S32 .f32)
    (h : Cert.Pre_finite_inputs.fn (F := F) a0 e a2 a3 a4 a5 a6 a7 a8 = fun _ => 1#1) :
    Cert.Net.wrap (Cert.Net.colOf e) = Cert.Net.colOf e :=
  wrap_colOf e (col_nonneg_of_pre a0 e a2 a3 a4 a5 a6 a7 a8 h)

end Cert.Domain

end
-- ==== Proof.lean ====
/-
  A graph network over 100000 nodes and 1.7 million edges (self loops included): two normalised graph
  convolutions with bias and ReLU, a linear layer, and the mean of the node rows of each of 64 graphs. The kernel
  program computes its six dense steps in six pipelined kernel regions over blocks of 5000 node rows (matrix
  products on the matrix unit, bias and ReLU, and the mean per graph as a one-hot matrix product accumulated over
  the blocks) and leaves the gathers and scatter-adds over the edges on the host; the reference is plain jnp.
  The three frames: every execution ends, nothing faults, the arguments end as launched. The value claim, at
  the exact instance: from memories agreeing on the arguments both programs end with the same 64 × 32 result.
  The two programs differ in one place besides the kernel regions: the reference counts a node's degree over the
  target column WRAPPED (a negative index counts from the end), the kernel program over the column as it is (a
  negative index names no node). Under the precondition that no target index is negative the wrap is the
  identity and the two counts are one.
-/
import proofs.«403423_j51041391345664_1_alg».proof.Defs
import proofs.«403423_j51041391345664_1_alg».proof.Proof.Gen.Kernel
import proofs.«403423_j51041391345664_1_alg».proof.Proof.Gen.KernelIdeal
import proofs.«403423_j51041391345664_1_alg».proof.Proof.Gen.ReferenceIdeal
import proofs.«403423_j51041391345664_1_alg».proof.Proof.Gen.Pre_finite_inputs
import proofs.«403423_j51041391345664_1_alg».proof.Proof.Bits.Run
import proofs.«403423_j51041391345664_1_alg».proof.Proof.Ideal.Run
import proofs.«403423_j51041391345664_1_alg».proof.Proof.Value.Chain
import proofs.«403423_j51041391345664_1_alg».proof.Proof.RefNet
import proofs.«403423_j51041391345664_1_alg».proof.Proof.Reference
import proofs.«403423_j51041391345664_1_alg».proof.Proof.Domain
import Idealize.ShloMosaic.Adequacy
import Idealize.ShloMosaic.Init

set_option maxRecDepth 16384

noncomputable section

namespace Cert.Proof

open Idealize.ShloMosaic Idealize.SL.Sem

/-- The kernel program as printed runs to the end and leaves its arguments as launched. -/
theorem frame_bits : Cert.frame_Kernel := fun m ρ _ => Cert.Kernel.Frame.frame (F := Bits) m ρ

/-- So does its reading at the exact instance. -/
theorem frame_ideal : Cert.frame_KernelIdeal := fun m ρ _ => Cert.KernelIdeal.Frame.frame (F := Ideal) m ρ

/-- The reference is host operations only: its run, the result dropped. -/
theorem frame_ref : Cert.frame_ReferenceIdeal := fun m ρ _ =>
  (θ_run Cert.ReferenceIdeal.defs _ _).mono (fun _ h c => (h c).2) (Cert.ReferenceIdeal.RunP.run (F := Ideal) m ρ)

/-- Both programs end at the network function of the arguments; the reference's degrees are counted over the
    wrapped target column, which under the precondition is the column itself. -/
theorem algebraic : Cert.algebraic_KernelIdeal_ReferenceIdeal := by
  intro m ρ m' ρ' hpre hagree
  refine ⟨fun c => Cert.Net.netOf (F := Ideal)
      (Cert.Net.asIdx (Cert.Net.colOf (m ((c.tc : Thread Cert.KernelIdeal.nD Cert.KernelIdeal.τ).loc Cert.KernelIdeal.main_arg1))))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Val.result_eq m ρ c), (h c).2⟩)
      (Cert.KernelIdeal.Frame.run_result (F := Ideal) m ρ)
  · refine (θ_run Cert.ReferenceIdeal.defs _ _).mono (fun _ h c => ⟨(h c).1.trans ?_, (h c).2⟩)
      (Cert.RefNet.run_net (F := Ideal) m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]
    rw [Cert.Domain.wrap_colOf_of_pre _ _ _ _ _ _ _ _ _ (hpre c)]

theorem claim : Cert.Claim :=
  ⟨Cert.Kernel.Gen.facts, Cert.KernelIdeal.Gen.facts, Cert.ReferenceIdeal.Gen.facts, Cert.Pre_finite_inputs.Gen.facts,
    frame_bits, frame_ideal, frame_ref, trivial, algebraic⟩

end Cert.Proof

end
